-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v41)) (v1 : (c : Dev Cert.KernelIdeal.nD) → Buf (Elt Ideal) ((c.tc : Thread Cert.KernelIdeal.nD Cert.KernelIdeal.τ).loc Cert.KernelIdeal.main_v14)) (v2 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_v14) = v1 c
          ∧ r.2.mem ((c.tc : Thread Cert.KernelIdeal.nD Cert.KernelIdeal.τ).loc Cert.KernelIdeal.main_v24) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v173) = v0 c
          ∧ r.2.mem ((c.tc : Thread Cert.ReferenceIdeal.nD Cert.ReferenceIdeal.τ).loc Cert.ReferenceIdeal.main_v59) = v1 c
          ∧ r.2.mem ((c.tc : Thread Cert.ReferenceIdeal.nD Cert.ReferenceIdeal.τ).loc Cert.ReferenceIdeal.main_v69) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S6000000 : Shape := ⟨1, ![6000000]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S6000000 : S_.BroadcastsInDim S6000000 (![] : Fin 0 → Fin S6000000.rank)
  reducesTo_S6000000_S_d0 : S6000000.ReducesTo [0] S_

variable [Facts]

def fn_part1 {F : FTy → Type} [FloatOps F] (main_arg3 : IVec S6000000 32) (main_v15 : IVec S_ 1) (main_c_5 : IVec S_ 32) : IVec S_ 1 :=
  let main_v16 : IVec S6000000 32 := broadcastInDim S6000000 ![] bcast_S_S6000000 main_c_5
  let main_v17 : IVec S6000000 1 := cmpi .sge main_arg3 main_v16
  let main_c_6 : IVec S_ 32 := constantI S_ 32 100000#32
  let main_v18 : IVec S6000000 32 := broadcastInDim S6000000 ![] bcast_S_S6000000 main_c_6
  let main_v19 : IVec S6000000 1 := cmpi .slt main_arg3 main_v18
  let main_v20 : IVec S6000000 1 := andi main_v17 main_v19
  let main_c_7 : IVec S_ 1 := constantI S_ 1 1#1
  let main_v21 : IVec S_ 1 := (fun x v => Host.reduce IntOp.andi x v reducesTo_S6000000_S_d0 h_S_) main_v20 main_c_7
  let main_v22 : IVec S_ 1 := andi main_v15 main_v21
  main_v22

def fn {F : FTy → Type} [FloatOps F] (main_arg0 : FVec F S100000x3 .f32) (main_arg1 : FVec F S100000x3 .f32) (main_arg2 : IVec S6000000 32) (main_arg3 : IVec S6000000 32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S100000x3 .f32 := Host.absf main_arg1
  let main_cst_0 : FVec F S_ .f32 := constant S_ .f32 0x7F800000#32
  let main_v5 : FVec F S100000x3 .f32 := broadcastInDim S100000x3 ![] bcast_S_S100000x3 main_cst_0
  let main_v6 : IVec S100000x3 1 := cmpf .olt main_v4 main_v5
  let main_c_1 : IVec S_ 1 := constantI S_ 1 1#1
  let main_v7 : IVec S_ 1 := (fun x v => Host.reduce IntOp.andi x v reducesTo_S100000x3_S_d0_1 h_S_) main_v6 main_c_1
  let main_v8 : IVec S_ 1 := andi main_v3 main_v7
  let main_c_2 : IVec S_ 32 := constantI S_ 32 0#32
  let main_v9 : IVec S6000000 32 := broadcastInDim S6000000 ![] bcast_S_S6000000 main_c_2
  let main_v10 : IVec S6000000 1 := cmpi .sge main_arg2 main_v9
  let main_c_3 : IVec S_ 32 := constantI S_ 32 100000#32
  let main_v11 : IVec S6000000 32 := broadcastInDim S6000000 ![] bcast_S_S6000000 main_c_3
  let main_v12 : IVec S6000000 1 := cmpi .slt main_arg2 main_v11
  let main_v13 : IVec S6000000 1 := andi main_v10 main_v12
  let main_c_4 : IVec S_ 1 := constantI S_ 1 1#1
  let main_v14 : IVec S_ 1 := (fun x v => Host.reduce IntOp.andi x v reducesTo_S6000000_S_d0 h_S_) main_v13 main_c_4
  let main_v15 : IVec S_ 1 := andi main_v8 main_v14
  let main_c_5 : IVec S_ 32 := constantI S_ 32 0#32
  fn_part1 (F := F) main_arg3 main_v15 main_c_5
-- ==== Kernel.lean ====
abbrev S100000x3 : Shape := ⟨2, ![100000, 3]⟩
abbrev S6000000 : Shape := ⟨1, ![6000000]⟩
abbrev S_ : Shape := ⟨0, ![]⟩
abbrev S6000000x1 : Shape := ⟨2, ![6000000, 1]⟩
abbrev S1 : Shape := ⟨1, ![1]⟩
abbrev S1x1 : Shape := ⟨2, ![1, 1]⟩
abbrev S6000000x3 : Shape := ⟨2, ![6000000, 3]⟩
abbrev S3x6000000 : Shape := ⟨2, ![3, 6000000]⟩
abbrev S1x6000000 : Shape := ⟨2, ![1, 6000000]⟩
abbrev S3x16000 : Shape := ⟨2, ![3, 16000]⟩
abbrev S1x16000 : Shape := ⟨2, ![1, 16000]⟩
abbrev S16000 : Shape := ⟨1, ![16000]⟩
abbrev S100000 : Shape := ⟨1, ![100000]⟩

abbrev nBuf : Space → Nat
  | .hbm => 228
  | .vmem => 24
  | .smem => 0
  | _ => 0

abbrev hbmTy0_0 (i : Nat) : BufTy := match i % 128 with
  | 0 => ⟨S100000x3, .f32⟩
  | 1 => ⟨S100000x3, .f32⟩
  | 2 => ⟨S6000000, .i32⟩
  | 3 => ⟨S6000000, .i32⟩
  | 4 => ⟨S_, .f32⟩
  | 5 => ⟨S100000x3, .f32⟩
  | 6 => ⟨S100000x3, .f32⟩
  | 7 => ⟨S_, .f32⟩
  | 8 => ⟨S100000x3, .f32⟩
  | 9 => ⟨S100000x3, .f32⟩
  | 10 => ⟨S_, .f32⟩
  | 11 => ⟨S100000x3, .f32⟩
  | 12 => ⟨S100000x3, .f32⟩
  | 13 => ⟨S_, .i32⟩
  | 14 => ⟨S6000000, .i32⟩
  | 15 => ⟨S6000000, .i1⟩
  | 16 => ⟨S_, .i32⟩
  | 17 => ⟨S6000000, .i32⟩
  | 18 => ⟨S6000000, .i32⟩
  | 19 => ⟨S6000000, .i32⟩
  | 20 => ⟨S6000000x1, .i32⟩
  | 21 => ⟨S1, .i32⟩
  | 22 => ⟨S_, .i32⟩
  | 23 => ⟨S6000000x1, .i32⟩
  | 24 => ⟨S6000000x1, .i1⟩
  | 25 => ⟨S1x1, .i32⟩
  | 26 => ⟨S6000000x1, .i32⟩
  | 27 => ⟨S6000000x1, .i1⟩
  | 28 => ⟨S6000000x1, .i1⟩
  | 29 => ⟨S_, .i1⟩
  | 30 => ⟨S6000000, .i1⟩
  | 31 => ⟨S6000000x3, .f32⟩
  | 32 => ⟨S6000000x3, .i1⟩
  | 33 => ⟨S_, .f32⟩
  | 34 => ⟨S6000000x3, .f32⟩
  | 35 => ⟨S6000000x3, .f32⟩
  | 36 => ⟨S_, .i32⟩
  | 37 => ⟨S6000000, .i32⟩
  | 38 => ⟨S6000000, .i1⟩
  | 39 => ⟨S_, .i32⟩
  | 40 => ⟨S6000000, .i32⟩
  | 41 => ⟨S6000000, .i32⟩
  | 42 => ⟨S6000000, .i32⟩
  | 43 => ⟨S6000000x1, .i32⟩
  | 44 => ⟨S1, .i32⟩
  | 45 => ⟨S_, .i32⟩
  | 46 => ⟨S6000000x1, .i32⟩
  | 47 => ⟨S6000000x1, .i1⟩
  | 48 => ⟨S1x1, .i32⟩
  | 49 => ⟨S6000000x1, .i32⟩
  | 50 => ⟨S6000000x1, .i1⟩
  | 51 => ⟨S6000000x1, .i1⟩
  | 52 => ⟨S_, .i1⟩
  | 53 => ⟨S6000000, .i1⟩
  | 54 => ⟨S6000000x3, .f32⟩
  | 55 => ⟨S6000000x3, .i1⟩
  | 56 => ⟨S_, .f32⟩
  | 57 => ⟨S6000000x3, .f32⟩
  | 58 => ⟨S6000000x3, .f32⟩
  | 59 => ⟨S3x6000000, .f32⟩
  | 60 => ⟨S3x6000000, .f32⟩
  | 61 => ⟨S1x6000000, .f32⟩
  | 62 => ⟨S6000000, .f32⟩
  | 63 => ⟨S_, .f32⟩
  | 64 => ⟨S100000, .f32⟩
  | 65 => ⟨S6000000x1, .i32⟩
  | 66 => ⟨S100000, .f32⟩
  | 67 => ⟨S_, .f32⟩
  | 68 => ⟨S100000, .f32⟩
  | 69 => ⟨S100000, .f32⟩
  | 70 => ⟨S_, .f32⟩
  | 71 => ⟨S100000, .f32⟩
  | 72 => ⟨S100000, .f32⟩
  | 73 => ⟨S_, .f32⟩
  | 74 => ⟨S100000, .f32⟩
  | 75 => ⟨S100000, .f32⟩
  | 76 => ⟨S_, .f32⟩
  | 77 => ⟨S100000, .f32⟩
  | 78 => ⟨S100000, .f32⟩
  | 79 => ⟨S_, .f32⟩
  | 80 => ⟨S100000, .f32⟩
  | 81 => ⟨S100000, .f32⟩
  | 82 => ⟨S_, .i32⟩
  | 83 => ⟨S6000000, .i32⟩
  | 84 => ⟨S6000000, .i1⟩
  | 85 => ⟨S_, .i32⟩
  | 86 => ⟨S6000000, .i32⟩
  | 87 => ⟨S6000000, .i32⟩
  | 88 => ⟨S6000000, .i32⟩
  | 89 => ⟨S6000000x1, .i32⟩
  | 90 => ⟨S1, .i32⟩
  | 91 => ⟨S_, .i32⟩
  | 92 => ⟨S6000000x1, .i32⟩
  | 93 => ⟨S6000000x1, .i1⟩
  | 94 => ⟨S1x1, .i32⟩
  | 95 => ⟨S6000000x1, .i32⟩
  | 96 => ⟨S6000000x1, .i1⟩
  | 97 => ⟨S6000000x1, .i1⟩
  | 98 => ⟨S_, .i1⟩
  | 99 => ⟨S6000000, .i1⟩
  | 100 => ⟨S6000000x3, .f32⟩
  | 101 => ⟨S6000000x3, .i1⟩
  | 102 => ⟨S_, .f32⟩
  | 103 => ⟨S6000000x3, .f32⟩
  | 104 => ⟨S6000000x3, .f32⟩
  | 105 => ⟨S_, .i32⟩
  | 106 => ⟨S6000000, .i32⟩
  | 107 => ⟨S6000000, .i1⟩
  | 108 => ⟨S_, .i32⟩
  | 109 => ⟨S6000000, .i32⟩
  | 110 => ⟨S6000000, .i32⟩
  | 111 => ⟨S6000000, .i32⟩
  | 112 => ⟨S6000000x1, .i32⟩
  | 113 => ⟨S1, .i32⟩
  | 114 => ⟨S_, .i32⟩
  | 115 => ⟨S6000000x1, .i32⟩
  | 116 => ⟨S6000000x1, .i1⟩
  | 117 => ⟨S1x1, .i32⟩
  | 118 => ⟨S6000000x1, .i32⟩
  | 119 => ⟨S6000000x1, .i1⟩
  | 120 => ⟨S6000000x1, .i1⟩
  | 121 => ⟨S_, .i1⟩
  | 122 => ⟨S6000000, .i1⟩
  | 123 => ⟨S6000000x3, .f32⟩
  | 124 => ⟨S6000000x3, .i1⟩
  | 125 => ⟨S_, .f32⟩
  | 126 => ⟨S6000000x3, .f32⟩
  | 127 => ⟨S6000000x3, .f32⟩
  | _ => ⟨S100000x3, .f32⟩

abbrev hbmTy0_1 (i : Nat) : BufTy := match i % 128 with
  | 0 => ⟨S_, .i32⟩
  | 1 => ⟨S6000000, .i32⟩
  | 2 => ⟨S6000000, .i1⟩
  | 3 => ⟨S_, .i32⟩
  | 4 => ⟨S6000000, .i32⟩
  | 5 => ⟨S6000000, .i32⟩
  | 6 => ⟨S6000000, .i32⟩
  | 7 => ⟨S6000000x1, .i32⟩
  | 8 => ⟨S1, .i32⟩
  | 9 => ⟨S_, .i32⟩
  | 10 => ⟨S6000000x1, .i32⟩
  | 11 => ⟨S6000000x1, .i1⟩
  | 12 => ⟨S1x1, .i32⟩
  | 13 => ⟨S6000000x1, .i32⟩
  | 14 => ⟨S6000000x1, .i1⟩
  | 15 => ⟨S6000000x1, .i1⟩
  | 16 => ⟨S_, .i1⟩
  | 17 => ⟨S6000000, .i1⟩
  | 18 => ⟨S6000000, .f32⟩
  | 19 => ⟨S_, .f32⟩
  | 20 => ⟨S6000000, .f32⟩
  | 21 => ⟨S6000000, .f32⟩
  | 22 => ⟨S_, .i32⟩
  | 23 => ⟨S6000000, .i32⟩
  | 24 => ⟨S6000000, .i1⟩
  | 25 => ⟨S_, .i32⟩
  | 26 => ⟨S6000000, .i32⟩
  | 27 => ⟨S6000000, .i32⟩
  | 28 => ⟨S6000000, .i32⟩
  | 29 => ⟨S6000000x1, .i32⟩
  | 30 => ⟨S1, .i32⟩
  | 31 => ⟨S_, .i32⟩
  | 32 => ⟨S6000000x1, .i32⟩
  | 33 => ⟨S6000000x1, .i1⟩
  | 34 => ⟨S1x1, .i32⟩
  | 35 => ⟨S6000000x1, .i32⟩
  | 36 => ⟨S6000000x1, .i1⟩
  | 37 => ⟨S6000000x1, .i1⟩
  | 38 => ⟨S_, .i1⟩
  | 39 => ⟨S6000000, .i1⟩
  | 40 => ⟨S6000000, .f32⟩
  | 41 => ⟨S_, .f32⟩
  | 42 => ⟨S6000000, .f32⟩
  | 43 => ⟨S6000000, .f32⟩
  | 44 => ⟨S_, .i32⟩
  | 45 => ⟨S6000000, .i32⟩
  | 46 => ⟨S6000000, .i1⟩
  | 47 => ⟨S_, .i32⟩
  | 48 => ⟨S6000000, .i32⟩
  | 49 => ⟨S6000000, .i32⟩
  | 50 => ⟨S6000000, .i32⟩
  | 51 => ⟨S6000000x1, .i32⟩
  | 52 => ⟨S1, .i32⟩
  | 53 => ⟨S_, .i32⟩
  | 54 => ⟨S6000000x1, .i32⟩
  | 55 => ⟨S6000000x1, .i1⟩
  | 56 => ⟨S1x1, .i32⟩
  | 57 => ⟨S6000000x1, .i32⟩
  | 58 => ⟨S6000000x1, .i1⟩
  | 59 => ⟨S6000000x1, .i1⟩
  | 60 => ⟨S_, .i1⟩
  | 61 => ⟨S6000000, .i1⟩
  | 62 => ⟨S6000000, .f32⟩
  | 63 => ⟨S_, .f32⟩
  | 64 => ⟨S6000000, .f32⟩
  | 65 => ⟨S6000000, .f32⟩
  | 66 => ⟨S_, .i32⟩
  | 67 => ⟨S6000000, .i32⟩
  | 68 => ⟨S6000000, .i1⟩
  | 69 => ⟨S_, .i32⟩
  | 70 => ⟨S6000000, .i32⟩
  | 71 => ⟨S6000000, .i32⟩
  | 72 => ⟨S6000000, .i32⟩
  | 73 => ⟨S6000000x1, .i32⟩
  | 74 => ⟨S1, .i32⟩
  | 75 => ⟨S_, .i32⟩
  | 76 => ⟨S6000000x1, .i32⟩
  | 77 => ⟨S6000000x1, .i1⟩
  | 78 => ⟨S1x1, .i32⟩
  | 79 => ⟨S6000000x1, .i32⟩
  | 80 => ⟨S6000000x1, .i1⟩
  | 81 => ⟨S6000000x1, .i1⟩
  | 82 => ⟨S_, .i1⟩
  | 83 => ⟨S6000000, .i1⟩
  | 84 => ⟨S6000000, .f32⟩
  | 85 => ⟨S_, .f32⟩
  | 86 => ⟨S6000000, .f32⟩
  | 87 => ⟨S6000000, .f32⟩
  | 88 => ⟨S3x6000000, .f32⟩
  | 89 => ⟨S3x6000000, .f32⟩
  | 90 => ⟨S1x6000000, .f32⟩
  | 91 => ⟨S1x6000000, .f32⟩
  | 92 => ⟨S1x6000000, .f32⟩
  | 93 => ⟨S1x6000000, .f32⟩
  | 94 => ⟨S3x6000000, .f32⟩
  | 95 => ⟨S6000000x3, .f32⟩
  | 96 => ⟨S_, .f32⟩
  | 97 => ⟨S100000x3, .f32⟩
  | 98 => ⟨S6000000x1, .i32⟩
  | 99 => ⟨S100000x3, .f32⟩
  | _ => ⟨S100000x3, .f32⟩

abbrev hbmTy (i : Nat) : BufTy := match i / 128 with
  | 0 => hbmTy0_0 i
  | 1 => hbmTy0_1 i
  | _ => ⟨S100000x3, .f32⟩

abbrev bufTy : (tb : Table) → Fin (tcTables nBuf tb) → BufTy
  | .hbm, ⟨i, _⟩ => hbmTy i
  | .local _ .vmem, ⟨0, _⟩ => ⟨S3x16000, .f32⟩
  | .local _ .vmem, ⟨1, _⟩ => ⟨S3x16000, .f32⟩
  | .local _ .vmem, ⟨2, _⟩ => ⟨S3x16000, .f32⟩
  | .local _ .vmem, ⟨3, _⟩ => ⟨S3x16000, .f32⟩
  | .local _ .vmem, ⟨4, _⟩ => ⟨S1x16000, .f32⟩
  | .local _ .vmem, ⟨5, _⟩ => ⟨S1x16000, .f32⟩
  | .local _ .vmem, ⟨6, _⟩ => ⟨S3x16000, .f32⟩
  | .local _ .vmem, ⟨7, _⟩ => ⟨S3x16000, .f32⟩
  | .local _ .vmem, ⟨8, _⟩ => ⟨S3x16000, .f32⟩
  | .local _ .vmem, ⟨9, _⟩ => ⟨S3x16000, .f32⟩
  | .local _ .vmem, ⟨10, _⟩ => ⟨S3x16000, .f32⟩
  | .local _ .vmem, ⟨11, _⟩ => ⟨S3x16000, .f32⟩
  | .local _ .vmem, ⟨12, _⟩ => ⟨S3x16000, .f32⟩
  | .local _ .vmem, ⟨13, _⟩ => ⟨S3x16000, .f32⟩
  | .local _ .vmem, ⟨14, _⟩ => ⟨S1x16000, .f32⟩
  | .local _ .vmem, ⟨15, _⟩ => ⟨S1x16000, .f32⟩
  | .local _ .vmem, ⟨16, _⟩ => ⟨S1x16000, .f32⟩
  | .local _ .vmem, ⟨17, _⟩ => ⟨S1x16000, .f32⟩
  | .local _ .vmem, ⟨18, _⟩ => ⟨S1x16000, .f32⟩
  | .local _ .vmem, ⟨19, _⟩ => ⟨S1x16000, .f32⟩
  | .local _ .vmem, ⟨20, _⟩ => ⟨S1x16000, .f32⟩
  | .local _ .vmem, ⟨21, _⟩ => ⟨S1x16000, .f32⟩
  | .local _ .vmem, ⟨22, _⟩ => ⟨S3x16000, .f32⟩
  | .local _ .vmem, ⟨23, _⟩ => ⟨S3x16000, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_cst : Ref sig .tc := ⟨.hbm, 33, rfl⟩
abbrev main_call0_v15 : Ref sig .tc := ⟨.hbm, 34, rfl⟩
abbrev main_v6 : Ref sig .tc := ⟨.hbm, 35, rfl⟩
abbrev main_call1_c : Ref sig .tc := ⟨.hbm, 36, rfl⟩
abbrev main_call1_v0 : Ref sig .tc := ⟨.hbm, 37, rfl⟩
abbrev main_call1_v1 : Ref sig .tc := ⟨.hbm, 38, rfl⟩
abbrev main_call1_c_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_c_1 : Ref sig .tc := ⟨.hbm, 44, rfl⟩
abbrev main_call1_c_2 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_c_3 : Ref sig .tc := ⟨.hbm, 52, rfl⟩
abbrev main_call1_v12 : Ref sig .tc := ⟨.hbm, 53, rfl⟩
abbrev main_call1_v13 : Ref sig .tc := ⟨.hbm, 54, rfl⟩
abbrev main_call1_v14 : Ref sig .tc := ⟨.hbm, 55, rfl⟩
abbrev main_call1_cst : Ref sig .tc := ⟨.hbm, 56, rfl⟩
abbrev main_call1_v15 : Ref sig .tc := ⟨.hbm, 57, rfl⟩
abbrev main_v7 : Ref sig .tc := ⟨.hbm, 58, rfl⟩
abbrev main_v8 : Ref sig .tc := ⟨.hbm, 59, rfl⟩
abbrev main_v9 : Ref sig .tc := ⟨.hbm, 60, rfl⟩
abbrev main_v10 : Ref sig .tc := ⟨.hbm, 61, rfl⟩
abbrev main_v11 : Ref sig .tc := ⟨.hbm, 62, rfl⟩
abbrev main_cst_2 : Ref sig .tc := ⟨.hbm, 63, rfl⟩
abbrev main_v12 : Ref sig .tc := ⟨.hbm, 64, rfl⟩
abbrev main_v13 : Ref sig .tc := ⟨.hbm, 65, rfl⟩
abbrev main_v14 : Ref sig .tc := ⟨.hbm, 66, rfl⟩
abbrev main_cst_3 : Ref sig .tc := ⟨.hbm, 67, rfl⟩
abbrev main_v15 : Ref sig .tc := ⟨.hbm, 68, rfl⟩
abbrev main_v16 : Ref sig .tc := ⟨.hbm, 69, rfl⟩
abbrev main_cst_4 : Ref sig .tc := ⟨.hbm, 70, rfl⟩
abbrev main_v17 : Ref sig .tc := ⟨.hbm, 71, rfl⟩
abbrev main_v18 : Ref sig .tc := ⟨.hbm, 72, rfl⟩
abbrev main_cst_5 : Ref sig .tc := ⟨.hbm, 73, rfl⟩
abbrev main_v19 : Ref sig .tc := ⟨.hbm, 74, rfl⟩
abbrev main_v20 : Ref sig .tc := ⟨.hbm, 75, rfl⟩
abbrev main_cst_6 : Ref sig .tc := ⟨.hbm, 76, rfl⟩
abbrev main_v21 : Ref sig .tc := ⟨.hbm, 77, rfl⟩
abbrev main_v22 : Ref sig .tc := ⟨.hbm, 78, rfl⟩
abbrev main_cst_7 : Ref sig .tc := ⟨.hbm, 79, rfl⟩
abbrev main_v23 : Ref sig .tc := ⟨.hbm, 80, rfl⟩
abbrev main_v24 : Ref sig .tc := ⟨.hbm, 81, rfl⟩
abbrev main_call2_c : Ref sig .tc := ⟨.hbm, 82, rfl⟩
abbrev main_call2_v0 : Ref sig .tc := ⟨.hbm, 83, rfl⟩
abbrev main_call2_v1 : Ref sig .tc := ⟨.hbm, 84, rfl⟩
abbrev main_call2_c_0 : Ref sig .tc := ⟨.hbm, 85, rfl⟩
abbrev main_call2_v2 : Ref sig .tc := ⟨.hbm, 86, rfl⟩
abbrev main_call2_v3 : Ref sig .tc := ⟨.hbm, 87, rfl⟩
abbrev main_call2_v4 : Ref sig .tc := ⟨.hbm, 88, rfl⟩
abbrev main_call2_v5 : Ref sig .tc := ⟨.hbm, 89, rfl⟩
abbrev main_call2_c_1 : Ref sig .tc := ⟨.hbm, 90, rfl⟩
abbrev main_call2_c_2 : Ref sig .tc := ⟨.hbm, 91, rfl⟩
abbrev main_call2_v6 : Ref sig .tc := ⟨.hbm, 92, rfl⟩
abbrev main_call2_v7 : Ref sig .tc := ⟨.hbm, 93, rfl⟩
abbrev main_call2_v8 : Ref sig .tc := ⟨.hbm, 94, rfl⟩
abbrev main_call2_v9 : Ref sig .tc := ⟨.hbm, 95, rfl⟩
abbrev main_call2_v10 : Ref sig .tc := ⟨.hbm, 96, rfl⟩
abbrev main_call2_v11 : Ref sig .tc := ⟨.hbm, 97, rfl⟩
abbrev main_call2_c_3 : Ref sig .tc := ⟨.hbm, 98, rfl⟩
abbrev main_call2_v12 : Ref sig .tc := ⟨.hbm, 99, rfl⟩
abbrev main_call2_v13 : Ref sig .tc := ⟨.hbm, 100, rfl⟩
abbrev main_call2_v14 : Ref sig .tc := ⟨.hbm, 101, rfl⟩
abbrev main_call2_cst : Ref sig .tc := ⟨.hbm, 102, rfl⟩
abbrev main_call2_v15 : Ref sig .tc := ⟨.hbm, 103, rfl⟩
abbrev main_v25 : Ref sig .tc := ⟨.hbm, 104, rfl⟩
abbrev main_call3_c : Ref sig .tc := ⟨.hbm, 105, rfl⟩
abbrev main_call3_v0 : Ref sig .tc := ⟨.hbm, 106, rfl⟩
abbrev main_call3_v1 : Ref sig .tc := ⟨.hbm, 107, rfl⟩
abbrev main_call3_c_0 : Ref sig .tc := ⟨.hbm, 108, rfl⟩
abbrev main_call3_v2 : Ref sig .tc := ⟨.hbm, 109, rfl⟩
abbrev main_call3_v3 : Ref sig .tc := ⟨.hbm, 110, rfl⟩
abbrev main_call3_v4 : Ref sig .tc := ⟨.hbm, 111, rfl⟩
abbrev main_call3_v5 : Ref sig .tc := ⟨.hbm, 112, rfl⟩
abbrev main_call3_c_1 : Ref sig .tc := ⟨.hbm, 113, rfl⟩
abbrev main_call3_c_2 : Ref sig .tc := ⟨.hbm, 114, rfl⟩
abbrev main_call3_v6 : Ref sig .tc := ⟨.hbm, 115, rfl⟩
abbrev main_call3_v7 : Ref sig .tc := ⟨.hbm, 116, rfl⟩
abbrev main_call3_v8 : Ref sig .tc := ⟨.hbm, 117, rfl⟩
abbrev main_call3_v9 : Ref sig .tc := ⟨.hbm, 118, rfl⟩
abbrev main_call3_v10 : Ref sig .tc := ⟨.hbm, 119, rfl⟩
abbrev main_call3_v11 : Ref sig .tc := ⟨.hbm, 120, rfl⟩
abbrev main_call3_c_3 : Ref sig .tc := ⟨.hbm, 121, rfl⟩
abbrev main_call3_v12 : Ref sig .tc := ⟨.hbm, 122, rfl⟩
abbrev main_call3_v13 : Ref sig .tc := ⟨.hbm, 123, rfl⟩
abbrev main_call3_v14 : Ref sig .tc := ⟨.hbm, 124, rfl⟩
abbrev main_call3_cst : Ref sig .tc := ⟨.hbm, 125, rfl⟩
abbrev main_call3_v15 : Ref sig .tc := ⟨.hbm, 126, rfl⟩
abbrev main_v26 : Ref sig .tc := ⟨.hbm, 127, rfl⟩
abbrev main_call4_c : Ref sig .tc := ⟨.hbm, 128, rfl⟩
abbrev main_call4_v0 : Ref sig .tc := ⟨.hbm, 129, rfl⟩
abbrev main_call4_v1 : Ref sig .tc := ⟨.hbm, 130, rfl⟩
abbrev main_call4_c_0 : Ref sig .tc := ⟨.hbm, 131, rfl⟩
abbrev main_call4_v2 : Ref sig .tc := ⟨.hbm, 132, rfl⟩
abbrev main_call4_v3 : Ref sig .tc := ⟨.hbm, 133, rfl⟩
abbrev main_call4_v4 : Ref sig .tc := ⟨.hbm, 134, rfl⟩
abbrev main_call4_v5 : Ref sig .tc := ⟨.hbm, 135, rfl⟩
abbrev main_call4_c_1 : Ref sig .tc := ⟨.hbm, 136, rfl⟩
abbrev main_call4_c_2 : Ref sig .tc := ⟨.hbm, 137, rfl⟩
abbrev main_call4_v6 : Ref sig .tc := ⟨.hbm, 138, rfl⟩
abbrev main_call4_v7 : Ref sig .tc := ⟨.hbm, 139, rfl⟩
abbrev main_call4_v8 : Ref sig .tc := ⟨.hbm, 140, rfl⟩
abbrev main_call4_v9 : Ref sig .tc := ⟨.hbm, 141, rfl⟩
abbrev main_call4_v10 : Ref sig .tc := ⟨.hbm, 142, rfl⟩
abbrev main_call4_v11 : Ref sig .tc := ⟨.hbm, 143, rfl⟩
abbrev main_call4_c_3 : Ref sig .tc := ⟨.hbm, 144, rfl⟩
abbrev main_call4_v12 : Ref sig .tc := ⟨.hbm, 145, rfl⟩
abbrev main_call4_v13 : Ref sig .tc := ⟨.hbm, 146, rfl⟩
abbrev main_call4_cst : Ref sig .tc := ⟨.hbm, 147, rfl⟩
abbrev main_call4_v14 : Ref sig .tc := ⟨.hbm, 148, rfl⟩
abbrev main_v27 : Ref sig .tc := ⟨.hbm, 149, rfl⟩
abbrev main_call5_c : Ref sig .tc := ⟨.hbm, 150, rfl⟩
abbrev main_call5_v0 : Ref sig .tc := ⟨.hbm, 151, rfl⟩
abbrev main_call5_v1 : Ref sig .tc := ⟨.hbm, 152, rfl⟩
abbrev main_call5_c_0 : Ref sig .tc := ⟨.hbm, 153, rfl⟩
abbrev main_call5_v2 : Ref sig .tc := ⟨.hbm, 154, rfl⟩
abbrev main_call5_v3 : Ref sig .tc := ⟨.hbm, 155, rfl⟩
abbrev main_call5_v4 : Ref sig .tc := ⟨.hbm, 156, rfl⟩
abbrev main_call5_v5 : Ref sig .tc := ⟨.hbm, 157, rfl⟩
abbrev main_call5_c_1 : Ref sig .tc := ⟨.hbm, 158, rfl⟩
abbrev main_call5_c_2 : Ref sig .tc := ⟨.hbm, 159, rfl⟩
abbrev main_call5_v6 : Ref sig .tc := ⟨.hbm, 160, rfl⟩
abbrev main_call5_v7 : Ref sig .tc := ⟨.hbm, 161, rfl⟩
abbrev main_call5_v8 : Ref sig .tc := ⟨.hbm, 162, rfl⟩
abbrev main_call5_v9 : Ref sig .tc := ⟨.hbm, 163, rfl⟩
abbrev main_call5_v10 : Ref sig .tc := ⟨.hbm, 164, rfl⟩
abbrev main_call5_v11 : Ref sig .tc := ⟨.hbm, 165, rfl⟩
abbrev main_call5_c_3 : Ref sig .tc := ⟨.hbm, 166, rfl⟩
abbrev main_call5_v12 : Ref sig .tc := ⟨.hbm, 167, rfl⟩
abbrev main_call5_v13 : Ref sig .tc := ⟨.hbm, 168, rfl⟩
abbrev main_call5_cst : Ref sig .tc := ⟨.hbm, 169, rfl⟩
abbrev main_call5_v14 : Ref sig .tc := ⟨.hbm, 170, rfl⟩
abbrev main_v28 : Ref sig .tc := ⟨.hbm, 171, rfl⟩
abbrev main_call6_c : Ref sig .tc := ⟨.hbm, 172, rfl⟩
abbrev main_call6_v0 : Ref sig .tc := ⟨.hbm, 173, rfl⟩
abbrev main_call6_v1 : Ref sig .tc := ⟨.hbm, 174, rfl⟩
abbrev main_call6_c_0 : Ref sig .tc := ⟨.hbm, 175, rfl⟩
abbrev main_call6_v2 : Ref sig .tc := ⟨.hbm, 176, rfl⟩
abbrev main_call6_v3 : Ref sig .tc := ⟨.hbm, 177, rfl⟩
abbrev main_call6_v4 : Ref sig .tc := ⟨.hbm, 178, rfl⟩
abbrev main_call6_v5 : Ref sig .tc := ⟨.hbm, 179, rfl⟩
abbrev main_call6_c_1 : Ref sig .tc := ⟨.hbm, 180, rfl⟩
abbrev main_call6_c_2 : Ref sig .tc := ⟨.hbm, 181, rfl⟩
abbrev main_call6_v6 : Ref sig .tc := ⟨.hbm, 182, rfl⟩
abbrev main_call6_v7 : Ref sig .tc := ⟨.hbm, 183, rfl⟩
abbrev main_call6_v8 : Ref sig .tc := ⟨.hbm, 184, rfl⟩
abbrev main_call6_v9 : Ref sig .tc := ⟨.hbm, 185, rfl⟩
abbrev main_call6_v10 : Ref sig .tc := ⟨.hbm, 186, rfl⟩
abbrev main_call6_v11 : Ref sig .tc := ⟨.hbm, 187, rfl⟩
abbrev main_call6_c_3 : Ref sig .tc := ⟨.hbm, 188, rfl⟩
abbrev main_call6_v12 : Ref sig .tc := ⟨.hbm, 189, rfl⟩
abbrev main_call6_v13 : Ref sig .tc := ⟨.hbm, 190, rfl⟩
abbrev main_call6_cst : Ref sig .tc := ⟨.hbm, 191, rfl⟩
abbrev main_call6_v14 : Ref sig .tc := ⟨.hbm, 192, rfl⟩
abbrev main_v29 : Ref sig .tc := ⟨.hbm, 193, rfl⟩
abbrev main_call7_c : Ref sig .tc := ⟨.hbm, 194, rfl⟩
abbrev main_call7_v0 : Ref sig .tc := ⟨.hbm, 195, rfl⟩
abbrev main_call7_v1 : Ref sig .tc := ⟨.hbm, 196, rfl⟩
abbrev main_call7_c_0 : Ref sig .tc := ⟨.hbm, 197, rfl⟩
abbrev main_call7_v2 : Ref sig .tc := ⟨.hbm, 198, rfl⟩
abbrev main_call7_v3 : Ref sig .tc := ⟨.hbm, 199, rfl⟩
abbrev main_call7_v4 : Ref sig .tc := ⟨.hbm, 200, rfl⟩
abbrev main_call7_v5 : Ref sig .tc := ⟨.hbm, 201, rfl⟩
abbrev main_call7_c_1 : Ref sig .tc := ⟨.hbm, 202, rfl⟩
abbrev main_call7_c_2 : Ref sig .tc := ⟨.hbm, 203, rfl⟩
abbrev main_call7_v6 : Ref sig .tc := ⟨.hbm, 204, rfl⟩
abbrev main_call7_v7 : Ref sig .tc := ⟨.hbm, 205, rfl⟩
abbrev main_call7_v8 : Ref sig .tc := ⟨.hbm, 206, rfl⟩
abbrev main_call7_v9 : Ref sig .tc := ⟨.hbm, 207, rfl⟩
abbrev main_call7_v10 : Ref sig .tc := ⟨.hbm, 208, rfl⟩
abbrev main_call7_v11 : Ref sig .tc := ⟨.hbm, 209, rfl⟩
abbrev main_call7_c_3 : Ref sig .tc := ⟨.hbm, 210, rfl⟩
abbrev main_call7_v12 : Ref sig .tc := ⟨.hbm, 211, rfl⟩
abbrev main_call7_v13 : Ref sig .tc := ⟨.hbm, 212, rfl⟩
abbrev main_call7_cst : Ref sig .tc := ⟨.hbm, 213, rfl⟩
abbrev main_call7_v14 : Ref sig .tc := ⟨.hbm, 214, rfl⟩
abbrev main_v30 : Ref sig .tc := ⟨.hbm, 215, rfl⟩
abbrev main_v31 : Ref sig .tc := ⟨.hbm, 216, rfl⟩
abbrev main_v32 : Ref sig .tc := ⟨.hbm, 217, rfl⟩
abbrev main_v33 : Ref sig .tc := ⟨.hbm, 218, rfl⟩
abbrev main_v34 : Ref sig .tc := ⟨.hbm, 219, rfl⟩
abbrev main_v35 : Ref sig .tc := ⟨.hbm, 220, rfl⟩
abbrev main_v36 : Ref sig .tc := ⟨.hbm, 221, rfl⟩
abbrev main_v37 : Ref sig .tc := ⟨.hbm, 222, rfl⟩
abbrev main_v38 : Ref sig .tc := ⟨.hbm, 223, rfl⟩
abbrev main_cst_8 : Ref sig .tc := ⟨.hbm, 224, rfl⟩
abbrev main_v39 : Ref sig .tc := ⟨.hbm, 225, rfl⟩
abbrev main_v40 : Ref sig .tc := ⟨.hbm, 226, rfl⟩
abbrev main_v41 : Ref sig .tc := ⟨.hbm, 227, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc1_stg7_0 : Ref sig .tc := ⟨.vmem, 20, rfl⟩
abbrev cc1_stg7_1 : Ref sig .tc := ⟨.vmem, 21, rfl⟩
abbrev cc1_stg8_0 : Ref sig .tc := ⟨.vmem, 22, rfl⟩
abbrev cc1_stg8_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem6_1 : DmaSem sig := 19
abbrev cc1_sem7_0 : DmaSem sig := 20
abbrev cc1_sem7_1 : DmaSem sig := 21
abbrev cc1_sem8_0 : DmaSem sig := 22
abbrev cc1_sem8_1 : DmaSem sig := 23

abbrev nD : Nat := 1
abbrev τ : Topo := Topo.v7x

variable {F : FTy → Type} [FloatOps F]

abbrev grid0 : Pipeline.Grid := ⟨1, ![375], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S3x16000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x16000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![375], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S3x16000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S3x16000 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S3x16000 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S3x16000 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x16000 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x16000 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x16000 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x16000 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S3x16000 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  bcast_S_S100000x3 : S_.BroadcastsInDim S100000x3 (![] : Fin 0 → Fin S100000x3.rank)
  bcast_S_S6000000 : S_.BroadcastsInDim S6000000 (![] : Fin 0 → Fin S6000000.rank)
  bcast_S6000000_S6000000x1_0 : S6000000.BroadcastsInDim S6000000x1 (![0] : Fin 1 → Fin S6000000x1.rank)
  bcast_S_S6000000x1 : S_.BroadcastsInDim S6000000x1 (![] : Fin 0 → Fin S6000000x1.rank)
  bcast_S1_S1x1_1 : S1.BroadcastsInDim S1x1 (![1] : Fin 1 → Fin S1x1.rank)
  bcast_S1x1_S6000000x1_0_1 : S1x1.BroadcastsInDim S6000000x1 (![0, 1] : Fin 2 → Fin S6000000x1.rank)
  reducesTo_S6000000x1_S6000000_d1 : S6000000x1.ReducesTo [1] S6000000
  h_S_ : 0 < S_.numel
  bcast_S6000000_S6000000x3_0 : S6000000.BroadcastsInDim S6000000x3 (![0] : Fin 1 → Fin S6000000x3.rank)
  bcast_S_S6000000x3 : S_.BroadcastsInDim S6000000x3 (![] : Fin 0 → Fin S6000000x3.rank)
  transposes_S6000000x3_S3x6000000_1_0 : S6000000x3.Transposes [1, 0] S3x6000000
  inb_S3x16000_S1x16000_0_0 : ∀ a, (![0, 0] : Fin 2 → Nat) a + S1x16000.size a ≤ S3x16000.size a
  h_S1x16000 : 0 < S1x16000.numel
  shapeCasts_S1x16000_S16000 : S1x16000.ShapeCasts S16000
  inb_S3x16000_S1x16000_1_0 : ∀ a, (![1, 0] : Fin 2 → Nat) a + S1x16000.size a ≤ S3x16000.size a
  inb_S3x16000_S1x16000_2_0 : ∀ a, (![2, 0] : Fin 2 → Nat) a + S1x16000.size a ≤ S3x16000.size a
  shapeCasts_S16000_S1x16000 : S16000.ShapeCasts S1x16000
  inb_S1x16000_S1x16000_0_0 : ∀ a, (![0, 0] : Fin 2 → Nat) a + S1x16000.size a ≤ S1x16000.size a
  shapeCasts_S1x6000000_S6000000 : S1x6000000.ShapeCasts S6000000
  bcast_S_S100000 : S_.BroadcastsInDim S100000 (![] : Fin 0 → Fin S100000.rank)
  bcast_S6000000_S1x6000000_1 : S6000000.BroadcastsInDim S1x6000000 (![1] : Fin 1 → Fin S1x6000000.rank)
  transposes_S3x6000000_S6000000x3_1_0 : S3x6000000.Transposes [1, 0] S6000000x3
  gather_S100000x3_S6000000x1_S6000000x3_1_0_n_n_0_1_13_wf : GatherDims.WF S100000x3 S6000000x1 S6000000x3 [1] [0] [] [0] [] 1 ![1, 3]
  scatter_S100000_S6000000x1_S6000000_n_0_0_1_wf : ScatterDims.WF S100000 S6000000x1 S6000000 [] [0] [0] 1
  gather_S100000_S6000000x1_S6000000_n_0_n_n_0_1_1_wf : GatherDims.WF S100000 S6000000x1 S6000000 [] [0] [] [0] [] 1 ![1]
  scatter_S100000x3_S6000000x1_S6000000x3_1_0_0_1_wf : ScatterDims.WF S100000x3 S6000000x1 S6000000x3 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x16000.size a ≤ S3x6000000.size a
  hwx0_0 : ∀ i : grid0.Coords, EltTy.bits .f32 = 32 ∨ (Rect.block (s := S3x6000000) S3x16000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x16000.size a ≤ S3x6000000.size a
  hwx0_1 : ∀ i : grid0.Coords, EltTy.bits .f32 = 32 ∨ (Rect.block (s := S3x6000000) S3x16000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16000.size a ≤ S1x6000000.size a
  hwx0_2 : ∀ i : grid0.Coords, EltTy.bits .f32 = 32 ∨ (Rect.block (s := S1x6000000) S1x16000.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3x16000.size a ≤ S3x6000000.size a
  hwx1_0 : ∀ i : grid1.Coords, EltTy.bits .f32 = 32 ∨ (Rect.block (s := S3x6000000) S3x16000.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S3x16000.size a ≤ S3x6000000.size a
  hwx1_1 : ∀ i : grid1.Coords, EltTy.bits .f32 = 32 ∨ (Rect.block (s := S3x6000000) S3x16000.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S3x16000.size a ≤ S3x6000000.size a
  hwx1_2 : ∀ i : grid1.Coords, EltTy.bits .f32 = 32 ∨ (Rect.block (s := S3x6000000) S3x16000.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S3x16000.size a ≤ S3x6000000.size a
  hwx1_3 : ∀ i : grid1.Coords, EltTy.bits .f32 = 32 ∨ (Rect.block (s := S3x6000000) S3x16000.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x16000.size a ≤ S1x6000000.size a
  hwx1_4 : ∀ i : grid1.Coords, EltTy.bits .f32 = 32 ∨ (Rect.block (s := S1x6000000) S1x16000.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x16000.size a ≤ S1x6000000.size a
  hwx1_5 : ∀ i : grid1.Coords, EltTy.bits .f32 = 32 ∨ (Rect.block (s := S1x6000000) S1x16000.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x16000.size a ≤ S1x6000000.size a
  hwx1_6 : ∀ i : grid1.Coords, EltTy.bits .f32 = 32 ∨ (Rect.block (s := S1x6000000) S1x16000.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x16000.size a ≤ S1x6000000.size a
  hwx1_7 : ∀ i : grid1.Coords, EltTy.bits .f32 = 32 ∨ (Rect.block (s := S1x6000000) S1x16000.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S3x16000.size a ≤ S3x6000000.size a
  hwx1_8 : ∀ i : grid1.Coords, EltTy.bits .f32 = 32 ∨ (Rect.block (s := S3x6000000) S3x16000.size (cc1_transform_8 i) (hinb1_8 i)).WholeWords (EltTy.packing .f32)

variable [Facts₀]

def gather_S100000x3_S6000000x1_S6000000x3_1_0_n_n_0_1_13 : GatherDims S100000x3 S6000000x1 S6000000x3 where
  offsetDims := [1]
  collapsedSliceDims := [0]
  operandBatchingDims := []
  startIndicesBatchingDims := []
  startIndexMap := [0]
  indexVectorDim := 1
  sliceSizes := ![1, 3]
  wf := gather_S100000x3_S6000000x1_S6000000x3_1_0_n_n_0_1_13_wf
def scatter_S100000_S6000000x1_S6000000_n_0_0_1 : ScatterDims S100000 S6000000x1 S6000000 where
  updateWindowDims := []
  insertedWindowDims := [0]
  scatterDimsToOperandDims := [0]
  indexVectorDim := 1
  wf := scatter_S100000_S6000000x1_S6000000_n_0_0_1_wf
def gather_S100000_S6000000x1_S6000000_n_0_n_n_0_1_1 : GatherDims S100000 S6000000x1 S6000000 where
  offsetDims := []
  collapsedSliceDims := [0]
  operandBatchingDims := []
  startIndicesBatchingDims := []
  startIndexMap := [0]
  indexVectorDim := 1
  sliceSizes := ![1]
  wf := gather_S100000_S6000000x1_S6000000_n_0_n_n_0_1_1_wf
def scatter_S100000x3_S6000000x1_S6000000x3_1_0_0_1 : ScatterDims S100000x3 S6000000x1 S6000000x3 where
  updateWindowDims := [1]
  insertedWindowDims := [0]
  scatterDimsToOperandDims := [0]
  indexVectorDim := 1
  wf := scatter_S100000x3_S6000000x1_S6000000x3_1_0_0_1_wf

abbrev win0_0 : Pipeline.Window sig grid0 :=
  Pipeline.Window.ofSpec (Memref.whole main_v8) S3x16000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S3x16000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x16000.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v8) S3x16000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S3x16000.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v31) S3x16000.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v32) S3x16000.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v33) S1x16000.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v34) S1x16000.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v35) S1x16000.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v36) S1x16000.size cc1_transform_7 reads1_7 false false 2 stage1_7 sem1_7
    hrank1 hreads1_7 hinb1_7 nbuf1_7 (Memref.isWhole_whole _) hwx1_7 hstage1_7

abbrev win1_8 : Pipeline.Window sig grid1 :=
  Pipeline.Window.ofSpec (Memref.whole main_v37) S3x16000.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S100000x3 : Shape := ⟨2, ![100000, 3]⟩
abbrev S6000000 : Shape := ⟨1, ![6000000]⟩
abbrev S_ : Shape := ⟨0, ![]⟩
abbrev S6000000x1 : Shape := ⟨2, ![6000000, 1]⟩
abbrev S6000000x3 : Shape := ⟨2, ![6000000, 3]⟩
abbrev S100000 : Shape := ⟨1, ![100000]⟩

abbrev nBuf : Space → Nat
  | .hbm => 232
  | .vmem => 0
  | .smem => 0
  | _ => 0

abbrev hbmTy0_0 (i : Nat) : BufTy := match i % 128 with
  | 0 => ⟨S100000x3, .f32⟩
  | 1 => ⟨S100000x3, .f32⟩
  | 2 => ⟨S6000000, .i32⟩
  | 3 => ⟨S6000000, .i32⟩
  | 4 => ⟨S_, .f32⟩
  | 5 => ⟨S100000x3, .f32⟩
  | 6 => ⟨S100000x3, .f32⟩
  | 7 => ⟨S_, .f32⟩
  | 8 => ⟨S100000x3, .f32⟩
  | 9 => ⟨S100000x3, .f32⟩
  | 10 => ⟨S_, .f32⟩
  | 11 => ⟨S100000x3, .f32⟩
  | 12 => ⟨S100000x3, .f32⟩
  | 13 => ⟨S_, .i32⟩
  | 14 => ⟨S6000000, .i32⟩
  | 15 => ⟨S6000000, .i1⟩
  | 16 => ⟨S_, .i32⟩
  | 17 => ⟨S6000000, .i32⟩
  | 18 => ⟨S6000000, .i32⟩
  | 19 => ⟨S6000000, .i32⟩
  | 20 => ⟨S6000000x1, .i32⟩
  | 21 => ⟨S6000000x3, .f32⟩
  | 22 => ⟨S_, .i32⟩
  | 23 => ⟨S6000000, .i32⟩
  | 24 => ⟨S6000000, .i1⟩
  | 25 => ⟨S_, .i32⟩
  | 26 => ⟨S6000000, .i32⟩
  | 27 => ⟨S6000000, .i32⟩
  | 28 => ⟨S6000000, .i32⟩
  | 29 => ⟨S6000000x1, .i32⟩
  | 30 => ⟨S6000000x3, .f32⟩
  | 31 => ⟨S6000000x3, .f32⟩
  | 32 => ⟨S6000000x3, .f32⟩
  | 33 => ⟨S_, .f32⟩
  | 34 => ⟨S6000000, .f32⟩
  | 35 => ⟨S6000000, .f32⟩
  | 36 => ⟨S_, .f32⟩
  | 37 => ⟨S6000000, .f32⟩
  | 38 => ⟨S6000000, .f32⟩
  | 39 => ⟨S_, .f32⟩
  | 40 => ⟨S6000000, .f32⟩
  | 41 => ⟨S6000000, .f32⟩
  | 42 => ⟨S_, .f32⟩
  | 43 => ⟨S6000000, .f32⟩
  | 44 => ⟨S6000000, .f32⟩
  | 45 => ⟨S_, .f32⟩
  | 46 => ⟨S6000000, .f32⟩
  | 47 => ⟨S6000000, .f32⟩
  | 48 => ⟨S_, .f32⟩
  | 49 => ⟨S6000000, .f32⟩
  | 50 => ⟨S6000000, .f32⟩
  | 51 => ⟨S_, .f32⟩
  | 52 => ⟨S6000000, .f32⟩
  | 53 => ⟨S6000000, .f32⟩
  | 54 => ⟨S_, .f32⟩
  | 55 => ⟨S6000000, .f32⟩
  | 56 => ⟨S6000000, .f32⟩
  | 57 => ⟨S6000000, .f32⟩
  | 58 => ⟨S6000000, .f32⟩
  | 59 => ⟨S6000000, .f32⟩
  | 60 => ⟨S6000000, .f32⟩
  | 61 => ⟨S6000000, .f32⟩
  | 62 => ⟨S6000000, .f32⟩
  | 63 => ⟨S_, .f32⟩
  | 64 => ⟨S6000000, .f32⟩
  | 65 => ⟨S6000000, .f32⟩
  | 66 => ⟨S6000000, .f32⟩
  | 67 => ⟨S6000000, .f32⟩
  | 68 => ⟨S6000000, .f32⟩
  | 69 => ⟨S6000000, .f32⟩
  | 70 => ⟨S_, .f32⟩
  | 71 => ⟨S6000000, .f32⟩
  | 72 => ⟨S6000000, .f32⟩
  | 73 => ⟨S6000000, .f32⟩
  | 74 => ⟨S_, .f32⟩
  | 75 => ⟨S6000000, .f32⟩
  | 76 => ⟨S6000000, .f32⟩
  | 77 => ⟨S_, .f32⟩
  | 78 => ⟨S100000, .f32⟩
  | 79 => ⟨S6000000x1, .i32⟩
  | 80 => ⟨S100000, .f32⟩
  | 81 => ⟨S_, .f32⟩
  | 82 => ⟨S100000, .f32⟩
  | 83 => ⟨S100000, .f32⟩
  | 84 => ⟨S_, .f32⟩
  | 85 => ⟨S100000, .f32⟩
  | 86 => ⟨S100000, .f32⟩
  | 87 => ⟨S_, .f32⟩
  | 88 => ⟨S100000, .f32⟩
  | 89 => ⟨S100000, .f32⟩
  | 90 => ⟨S_, .f32⟩
  | 91 => ⟨S100000, .f32⟩
  | 92 => ⟨S100000, .f32⟩
  | 93 => ⟨S_, .f32⟩
  | 94 => ⟨S100000, .f32⟩
  | 95 => ⟨S100000, .f32⟩
  | 96 => ⟨S_, .f32⟩
  | 97 => ⟨S100000, .f32⟩
  | 98 => ⟨S100000, .f32⟩
  | 99 => ⟨S_, .i32⟩
  | 100 => ⟨S6000000, .i32⟩
  | 101 => ⟨S6000000, .i1⟩
  | 102 => ⟨S_, .i32⟩
  | 103 => ⟨S6000000, .i32⟩
  | 104 => ⟨S6000000, .i32⟩
  | 105 => ⟨S6000000, .i32⟩
  | 106 => ⟨S6000000x1, .i32⟩
  | 107 => ⟨S6000000, .f32⟩
  | 108 => ⟨S_, .i32⟩
  | 109 => ⟨S6000000, .i32⟩
  | 110 => ⟨S6000000, .i1⟩
  | 111 => ⟨S_, .i32⟩
  | 112 => ⟨S6000000, .i32⟩
  | 113 => ⟨S6000000, .i32⟩
  | 114 => ⟨S6000000, .i32⟩
  | 115 => ⟨S6000000x1, .i32⟩
  | 116 => ⟨S6000000, .f32⟩
  | 117 => ⟨S_, .i32⟩
  | 118 => ⟨S6000000, .i32⟩
  | 119 => ⟨S6000000, .i1⟩
  | 120 => ⟨S_, .i32⟩
  | 121 => ⟨S6000000, .i32⟩
  | 122 => ⟨S6000000, .i32⟩
  | 123 => ⟨S6000000, .i32⟩
  | 124 => ⟨S6000000x1, .i32⟩
  | 125 => ⟨S6000000, .f32⟩
  | 126 => ⟨S_, .i32⟩
  | 127 => ⟨S6000000, .i32⟩
  | _ => ⟨S100000x3, .f32⟩

abbrev hbmTy0_1 (i : Nat) : BufTy := match i % 128 with
  | 0 => ⟨S6000000, .i1⟩
  | 1 => ⟨S_, .i32⟩
  | 2 => ⟨S6000000, .i32⟩
  | 3 => ⟨S6000000, .i32⟩
  | 4 => ⟨S6000000, .i32⟩
  | 5 => ⟨S6000000x1, .i32⟩
  | 6 => ⟨S6000000, .f32⟩
  | 7 => ⟨S_, .i32⟩
  | 8 => ⟨S6000000, .i32⟩
  | 9 => ⟨S6000000, .i1⟩
  | 10 => ⟨S_, .i32⟩
  | 11 => ⟨S6000000, .i32⟩
  | 12 => ⟨S6000000, .i32⟩
  | 13 => ⟨S6000000, .i32⟩
  | 14 => ⟨S6000000x1, .i32⟩
  | 15 => ⟨S6000000x3, .f32⟩
  | 16 => ⟨S_, .i32⟩
  | 17 => ⟨S6000000, .i32⟩
  | 18 => ⟨S6000000, .i1⟩
  | 19 => ⟨S_, .i32⟩
  | 20 => ⟨S6000000, .i32⟩
  | 21 => ⟨S6000000, .i32⟩
  | 22 => ⟨S6000000, .i32⟩
  | 23 => ⟨S6000000x1, .i32⟩
  | 24 => ⟨S6000000x3, .f32⟩
  | 25 => ⟨S6000000x3, .f32⟩
  | 26 => ⟨S6000000, .f32⟩
  | 27 => ⟨S6000000, .f32⟩
  | 28 => ⟨S6000000, .f32⟩
  | 29 => ⟨S6000000, .f32⟩
  | 30 => ⟨S6000000, .f32⟩
  | 31 => ⟨S_, .f32⟩
  | 32 => ⟨S6000000, .f32⟩
  | 33 => ⟨S6000000, .f32⟩
  | 34 => ⟨S6000000, .f32⟩
  | 35 => ⟨S_, .f32⟩
  | 36 => ⟨S6000000, .f32⟩
  | 37 => ⟨S6000000, .f32⟩
  | 38 => ⟨S6000000, .f32⟩
  | 39 => ⟨S6000000, .f32⟩
  | 40 => ⟨S_, .f32⟩
  | 41 => ⟨S6000000, .f32⟩
  | 42 => ⟨S6000000, .f32⟩
  | 43 => ⟨S_, .f32⟩
  | 44 => ⟨S6000000, .f32⟩
  | 45 => ⟨S6000000, .f32⟩
  | 46 => ⟨S_, .f32⟩
  | 47 => ⟨S6000000, .f32⟩
  | 48 => ⟨S6000000, .f32⟩
  | 49 => ⟨S_, .f32⟩
  | 50 => ⟨S6000000, .f32⟩
  | 51 => ⟨S6000000, .f32⟩
  | 52 => ⟨S_, .f32⟩
  | 53 => ⟨S6000000, .f32⟩
  | 54 => ⟨S6000000, .f32⟩
  | 55 => ⟨S_, .f32⟩
  | 56 => ⟨S6000000, .f32⟩
  | 57 => ⟨S6000000, .f32⟩
  | 58 => ⟨S_, .f32⟩
  | 59 => ⟨S6000000, .f32⟩
  | 60 => ⟨S6000000, .f32⟩
  | 61 => ⟨S_, .f32⟩
  | 62 => ⟨S6000000, .f32⟩
  | 63 => ⟨S6000000, .f32⟩
  | 64 => ⟨S6000000, .f32⟩
  | 65 => ⟨S6000000, .f32⟩
  | 66 => ⟨S_, .f32⟩
  | 67 => ⟨S6000000, .f32⟩
  | 68 => ⟨S6000000, .f32⟩
  | 69 => ⟨S6000000, .f32⟩
  | 70 => ⟨S6000000, .f32⟩
  | 71 => ⟨S_, .f32⟩
  | 72 => ⟨S6000000, .f32⟩
  | 73 => ⟨S6000000, .f32⟩
  | 74 => ⟨S6000000, .f32⟩
  | 75 => ⟨S6000000, .f32⟩
  | 76 => ⟨S6000000, .f32⟩
  | 77 => ⟨S_, .f32⟩
  | 78 => ⟨S6000000, .f32⟩
  | 79 => ⟨S6000000, .f32⟩
  | 80 => ⟨S6000000, .f32⟩
  | 81 => ⟨S_, .f32⟩
  | 82 => ⟨S6000000, .f32⟩
  | 83 => ⟨S6000000, .f32⟩
  | 84 => ⟨S6000000, .f32⟩
  | 85 => ⟨S_, .f32⟩
  | 86 => ⟨S6000000, .f32⟩
  | 87 => ⟨S6000000, .f32⟩
  | 88 => ⟨S6000000, .f32⟩
  | 89 => ⟨S6000000x1, .f32⟩
  | 90 => ⟨S6000000x1, .f32⟩
  | 91 => ⟨S6000000x1, .f32⟩
  | 92 => ⟨S6000000x3, .f32⟩
  | 93 => ⟨S6000000x3, .f32⟩
  | 94 => ⟨S_, .f32⟩
  | 95 => ⟨S6000000x3, .f32⟩
  | 96 => ⟨S6000000x3, .f32⟩
  | 97 => ⟨S6000000x3, .f32⟩
  | 98 => ⟨S6000000x3, .f32⟩
  | 99 => ⟨S6000000x3, .f32⟩
  | 100 => ⟨S_, .f32⟩
  | 101 => ⟨S100000x3, .f32⟩
  | 102 => ⟨S6000000x1, .i32⟩
  | 103 => ⟨S100000x3, .f32⟩
  | _ => ⟨S100000x3, .f32⟩

abbrev hbmTy (i : Nat) : BufTy := match i / 128 with
  | 0 => hbmTy0_0 i
  | 1 => hbmTy0_1 i
  | _ => ⟨S100000x3, .f32⟩

abbrev bufTy : (tb : Table) → Fin (tcTables nBuf tb) → BufTy
  | .hbm, ⟨i, _⟩ => hbmTy i
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_3 : Ref sig .tc := ⟨.hbm, 22, rfl⟩
abbrev main_v13 : Ref sig .tc := ⟨.hbm, 23, rfl⟩
abbrev main_v14 : Ref sig .tc := ⟨.hbm, 24, rfl⟩
abbrev main_c_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩
abbrev main_cst_9 : Ref sig .tc := ⟨.hbm, 45, rfl⟩
abbrev main_v30 : Ref sig .tc := ⟨.hbm, 46, rfl⟩
abbrev main_v31 : Ref sig .tc := ⟨.hbm, 47, rfl⟩
abbrev main_cst_10 : Ref sig .tc := ⟨.hbm, 48, rfl⟩
abbrev main_v32 : Ref sig .tc := ⟨.hbm, 49, rfl⟩
abbrev main_v33 : Ref sig .tc := ⟨.hbm, 50, rfl⟩
abbrev main_cst_11 : Ref sig .tc := ⟨.hbm, 51, rfl⟩
abbrev main_v34 : Ref sig .tc := ⟨.hbm, 52, rfl⟩
abbrev main_v35 : Ref sig .tc := ⟨.hbm, 53, rfl⟩
abbrev main_cst_12 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_13 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_14 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_15 : Ref sig .tc := ⟨.hbm, 74, rfl⟩
abbrev main_v53 : Ref sig .tc := ⟨.hbm, 75, rfl⟩
abbrev main_v54 : Ref sig .tc := ⟨.hbm, 76, rfl⟩
abbrev main_cst_16 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_17 : Ref sig .tc := ⟨.hbm, 81, rfl⟩
abbrev main_v58 : Ref sig .tc := ⟨.hbm, 82, rfl⟩
abbrev main_v59 : Ref sig .tc := ⟨.hbm, 83, rfl⟩
abbrev main_cst_18 : Ref sig .tc := ⟨.hbm, 84, rfl⟩
abbrev main_v60 : Ref sig .tc := ⟨.hbm, 85, rfl⟩
abbrev main_v61 : Ref sig .tc := ⟨.hbm, 86, rfl⟩
abbrev main_cst_19 : Ref sig .tc := ⟨.hbm, 87, rfl⟩
abbrev main_v62 : Ref sig .tc := ⟨.hbm, 88, rfl⟩
abbrev main_v63 : Ref sig .tc := ⟨.hbm, 89, rfl⟩
abbrev main_cst_20 : Ref sig .tc := ⟨.hbm, 90, rfl⟩
abbrev main_v64 : Ref sig .tc := ⟨.hbm, 91, rfl⟩
abbrev main_v65 : Ref sig .tc := ⟨.hbm, 92, rfl⟩
abbrev main_cst_21 : Ref sig .tc := ⟨.hbm, 93, rfl⟩
abbrev main_v66 : Ref sig .tc := ⟨.hbm, 94, rfl⟩
abbrev main_v67 : Ref sig .tc := ⟨.hbm, 95, rfl⟩
abbrev main_cst_22 : Ref sig .tc := ⟨.hbm, 96, rfl⟩
abbrev main_v68 : Ref sig .tc := ⟨.hbm, 97, rfl⟩
abbrev main_v69 : Ref sig .tc := ⟨.hbm, 98, rfl⟩
abbrev main_c_23 : Ref sig .tc := ⟨.hbm, 99, rfl⟩
abbrev main_v70 : Ref sig .tc := ⟨.hbm, 100, rfl⟩
abbrev main_v71 : Ref sig .tc := ⟨.hbm, 101, rfl⟩
abbrev main_c_24 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_c_25 : Ref sig .tc := ⟨.hbm, 108, rfl⟩
abbrev main_v77 : Ref sig .tc := ⟨.hbm, 109, rfl⟩
abbrev main_v78 : Ref sig .tc := ⟨.hbm, 110, rfl⟩
abbrev main_c_26 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_c_27 : Ref sig .tc := ⟨.hbm, 117, rfl⟩
abbrev main_v84 : Ref sig .tc := ⟨.hbm, 118, rfl⟩
abbrev main_v85 : Ref sig .tc := ⟨.hbm, 119, rfl⟩
abbrev main_c_28 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_c_29 : Ref sig .tc := ⟨.hbm, 126, rfl⟩
abbrev main_v91 : Ref sig .tc := ⟨.hbm, 127, rfl⟩
abbrev main_v92 : Ref sig .tc := ⟨.hbm, 128, rfl⟩
abbrev main_c_30 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_c_31 : Ref sig .tc := ⟨.hbm, 135, rfl⟩
abbrev main_v98 : Ref sig .tc := ⟨.hbm, 136, rfl⟩
abbrev main_v99 : Ref sig .tc := ⟨.hbm, 137, rfl⟩
abbrev main_c_32 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_c_33 : Ref sig .tc := ⟨.hbm, 144, rfl⟩
abbrev main_v105 : Ref sig .tc := ⟨.hbm, 145, rfl⟩
abbrev main_v106 : Ref sig .tc := ⟨.hbm, 146, rfl⟩
abbrev main_c_34 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_cst_35 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_cst_36 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_cst_37 : Ref sig .tc := ⟨.hbm, 168, rfl⟩
abbrev main_v125 : Ref sig .tc := ⟨.hbm, 169, rfl⟩
abbrev main_v126 : Ref sig .tc := ⟨.hbm, 170, rfl⟩
abbrev main_cst_38 : Ref sig .tc := ⟨.hbm, 171, rfl⟩
abbrev main_v127 : Ref sig .tc := ⟨.hbm, 172, rfl⟩
abbrev main_v128 : Ref sig .tc := ⟨.hbm, 173, rfl⟩
abbrev main_cst_39 : Ref sig .tc := ⟨.hbm, 174, rfl⟩
abbrev main_v129 : Ref sig .tc := ⟨.hbm, 175, rfl⟩
abbrev main_v130 : Ref sig .tc := ⟨.hbm, 176, rfl⟩
abbrev main_cst_40 : Ref sig .tc := ⟨.hbm, 177, rfl⟩
abbrev main_v131 : Ref sig .tc := ⟨.hbm, 178, rfl⟩
abbrev main_v132 : Ref sig .tc := ⟨.hbm, 179, rfl⟩
abbrev main_cst_41 : Ref sig .tc := ⟨.hbm, 180, rfl⟩
abbrev main_v133 : Ref sig .tc := ⟨.hbm, 181, rfl⟩
abbrev main_v134 : Ref sig .tc := ⟨.hbm, 182, rfl⟩
abbrev main_cst_42 : Ref sig .tc := ⟨.hbm, 183, rfl⟩
abbrev main_v135 : Ref sig .tc := ⟨.hbm, 184, rfl⟩
abbrev main_v136 : Ref sig .tc := ⟨.hbm, 185, rfl⟩
abbrev main_cst_43 : Ref sig .tc := ⟨.hbm, 186, rfl⟩
abbrev main_v137 : Ref sig .tc := ⟨.hbm, 187, rfl⟩
abbrev main_v138 : Ref sig .tc := ⟨.hbm, 188, rfl⟩
abbrev main_cst_44 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_cst_45 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_cst_46 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩
abbrev main_cst_47 : Ref sig .tc := ⟨.hbm, 205, rfl⟩
abbrev main_v152 : Ref sig .tc := ⟨.hbm, 206, rfl⟩
abbrev main_v153 : Ref sig .tc := ⟨.hbm, 207, rfl⟩
abbrev main_v154 : Ref sig .tc := ⟨.hbm, 208, rfl⟩
abbrev main_cst_48 : Ref sig .tc := ⟨.hbm, 209, rfl⟩
abbrev main_v155 : Ref sig .tc := ⟨.hbm, 210, rfl⟩
abbrev main_v156 : Ref sig .tc := ⟨.hbm, 211, rfl⟩
abbrev main_v157 : Ref sig .tc := ⟨.hbm, 212, rfl⟩
abbrev main_cst_49 : Ref sig .tc := ⟨.hbm, 213, rfl⟩
abbrev main_v158 : Ref sig .tc := ⟨.hbm, 214, rfl⟩
abbrev main_v159 : Ref sig .tc := ⟨.hbm, 215, rfl⟩
abbrev main_v160 : Ref sig .tc := ⟨.hbm, 216, rfl⟩
abbrev main_v161 : Ref sig .tc := ⟨.hbm, 217, rfl⟩
abbrev main_v162 : Ref sig .tc := ⟨.hbm, 218, rfl⟩
abbrev main_v163 : Ref sig .tc := ⟨.hbm, 219, rfl⟩
abbrev main_v164 : Ref sig .tc := ⟨.hbm, 220, rfl⟩
abbrev main_v165 : Ref sig .tc := ⟨.hbm, 221, rfl⟩
abbrev main_cst_50 : Ref sig .tc := ⟨.hbm, 222, rfl⟩
abbrev main_v166 : Ref sig .tc := ⟨.hbm, 223, rfl⟩
abbrev main_v167 : Ref sig .tc := ⟨.hbm, 224, rfl⟩
abbrev main_v168 : Ref sig .tc := ⟨.hbm, 225, rfl⟩
abbrev main_v169 : Ref sig .tc := ⟨.hbm, 226, rfl⟩
abbrev main_v170 : Ref sig .tc := ⟨.hbm, 227, rfl⟩
abbrev main_cst_51 : Ref sig .tc := ⟨.hbm, 228, rfl⟩
abbrev main_v171 : Ref sig .tc := ⟨.hbm, 229, rfl⟩
abbrev main_v172 : Ref sig .tc := ⟨.hbm, 230, rfl⟩
abbrev main_v173 : Ref sig .tc := ⟨.hbm, 231, rfl⟩

abbrev nD : Nat := 1
abbrev τ : Topo := Topo.v7x

variable {F : FTy → Type} [FloatOps F]

class Facts₀ : Prop where
  bcast_S_S100000x3 : S_.BroadcastsInDim S100000x3 (![] : Fin 0 → Fin S100000x3.rank)
  bcast_S_S6000000 : S_.BroadcastsInDim S6000000 (![] : Fin 0 → Fin S6000000.rank)
  bcast_S6000000_S6000000x1_0 : S6000000.BroadcastsInDim S6000000x1 (![0] : Fin 1 → Fin S6000000x1.rank)
  reducesTo_S6000000x3_S6000000_d1 : S6000000x3.ReducesTo [1] S6000000
  h_S_ : 0 < S_.numel
  bcast_S_S100000 : S_.BroadcastsInDim S100000 (![] : Fin 0 → Fin S100000.rank)
  bcast_S6000000x1_S6000000x3_0_1 : S6000000x1.BroadcastsInDim S6000000x3 (![0, 1] : Fin 2 → Fin S6000000x3.rank)
  bcast_S_S6000000x3 : S_.BroadcastsInDim S6000000x3 (![] : Fin 0 → Fin S6000000x3.rank)
  gather_S100000x3_S6000000x1_S6000000x3_1_0_n_n_0_1_13_wf : GatherDims.WF S100000x3 S6000000x1 S6000000x3 [1] [0] [] [0] [] 1 ![1, 3]
  scatter_S100000_S6000000x1_S6000000_n_0_0_1_wf : ScatterDims.WF S100000 S6000000x1 S6000000 [] [0] [0] 1
  gather_S100000_S6000000x1_S6000000_n_0_n_n_0_1_1_wf : GatherDims.WF S100000 S6000000x1 S6000000 [] [0] [] [0] [] 1 ![1]
  scatter_S100000x3_S6000000x1_S6000000x3_1_0_0_1_wf : ScatterDims.WF S100000x3 S6000000x1 S6000000x3 [1] [0] [0] 1

variable [Facts₀]

def gather_S100000x3_S6000000x1_S6000000x3_1_0_n_n_0_1_13 : GatherDims S100000x3 S6000000x1 S6000000x3 where
  offsetDims := [1]
  collapsedSliceDims := [0]
  operandBatchingDims := []
  startIndicesBatchingDims := []
  startIndexMap := [0]
  indexVectorDim := 1
  sliceSizes := ![1, 3]
  wf := gather_S100000x3_S6000000x1_S6000000x3_1_0_n_n_0_1_13_wf
def scatter_S100000_S6000000x1_S6000000_n_0_0_1 : ScatterDims S100000 S6000000x1 S6000000 where
  updateWindowDims := []
  insertedWindowDims := [0]
  scatterDimsToOperandDims := [0]
  indexVectorDim := 1
  wf := scatter_S100000_S6000000x1_S6000000_n_0_0_1_wf
def gather_S100000_S6000000x1_S6000000_n_0_n_n_0_1_1 : GatherDims S100000 S6000000x1 S6000000 where
  offsetDims := []
  collapsedSliceDims := [0]
  operandBatchingDims := []
  startIndicesBatchingDims := []
  startIndexMap := [0]
  indexVectorDim := 1
  sliceSizes := ![1]
  wf := gather_S100000_S6000000x1_S6000000_n_0_n_n_0_1_1_wf
def scatter_S100000x3_S6000000x1_S6000000x3_1_0_0_1 : ScatterDims S100000x3 S6000000x1 S6000000x3 where
  updateWindowDims := [1]
  insertedWindowDims := [0]
  scatterDimsToOperandDims := [0]
  indexVectorDim := 1
  wf := scatter_S100000x3_S6000000x1_S6000000x3_1_0_0_1_wf

class Facts : Prop extends Facts₀ where

variable [Facts]
-- ==== Proof.KTerms.lean ====
/-
  The kernel program's host-side vectors, named: an index vector with its negative entries wrapped once around the
  table's length; the test that a wrapped index lies in the table; and `take` of a table at an index vector,
  which reads the gathered entry where the test holds and the not-a-number word elsewhere. Under the
  precondition every index lies in the table (module Take), so `take` is the plain gather.
-/
import proofs.«418286_j13022340841764_3_alg».proof.Proof.Gen.KernelIdeal

set_option maxRecDepth 16384

noncomputable section

namespace Cert.KernelIdeal.KT

open Cert.KernelIdeal
open Idealize.ShloMosaic
open Facts₀ Facts

variable {F : FTy → Type} [FloatOps F]

/-- An index vector with its negative entries wrapped once around the table's length. -/
abbrev nrm (idx : IVec S6000000 32) : IVec S6000000 32 :=
  select (cmpi .slt idx (broadcastInDim S6000000 ![] bcast_S_S6000000 (constantI S_ 32 0#32))) (addi idx (broadcastInDim S6000000 ![] bcast_S_S6000000 (constantI S_ 32 100000#32))) idx

/-- The wrapped indices as a one-column array. -/
abbrev col (idx : IVec S6000000 32) : IVec S6000000x1 32 :=
  broadcastInDim S6000000x1 ![0] bcast_S6000000_S6000000x1_0 (nrm idx)

/-- Entry by entry: does the wrapped index lie in 0 … 99999? -/
abbrev inTable (idx : IVec S6000000 32) : IVec S6000000 1 :=
  Host.reduce IntOp.andi
    (andi (cmpi .sge (col idx) (broadcastInDim S6000000x1 ![] bcast_S_S6000000x1 (constantI S_ 32 0#32)))
      (cmpi .sle (col idx) (broadcastInDim S6000000x1 ![0, 1] bcast_S1x1_S6000000x1_0_1 (broadcastInDim S1x1 ![1] bcast_S1_S1x1_1 (constantI S1 32 99999#32)))))
    (constantI S_ 1 1#1) reducesTo_S6000000x1_S6000000_d1 h_S_

/-- Rows of a three-column table at the wrapped indices. -/
abbrev gat3 (X : FVec F S100000x3 .f32) (idx : IVec S6000000 32) : FVec F S6000000x3 .f32 :=
  Host.gather gather_S100000x3_S6000000x1_S6000000x3_1_0_n_n_0_1_13 X (col idx)

/-- Entries of a vector at the wrapped indices. -/
abbrev gat1 (X : FVec F S100000 .f32) (idx : IVec S6000000 32) : FVec F S6000000 .f32 :=
  Host.gather gather_S100000_S6000000x1_S6000000_n_0_n_n_0_1_1 X (col idx)

/-- `take` of a three-column table: the gathered row where the index lies in the table, else the not-a-number word. -/
abbrev take3 (X : FVec F S100000x3 .f32) (idx : IVec S6000000 32) : FVec F S6000000x3 .f32 :=
  select (broadcastInDim S6000000x3 ![0] bcast_S6000000_S6000000x3_0 (inTable idx)) (gat3 X idx)
    (broadcastInDim S6000000x3 ![] bcast_S_S6000000x3 (constant S_ .f32 0x7FC00000#32))

/-- `take` of a vector. -/
abbrev take1 (X : FVec F S100000 .f32) (idx : IVec S6000000 32) : FVec F S6000000 .f32 :=
  select (inTable idx) (gat1 X idx) (broadcastInDim S6000000 ![] bcast_S_S6000000 (constant S_ .f32 0x7FC00000#32))

end Cert.KernelIdeal.KT

end
-- ==== Proof.KHost.lean ====
/-
  The kernel program's host side around its two launches, named as vector functions: the velocity in physical
  units, the coordinate-major and one-row re-layouts that feed the launches, the density as the scatter-sum at the
  receivers of the first launch's output, the pressure from the density, and the third result as the scatter-sum
  at the receivers of the second launch's output laid back pair-major.
-/
import proofs.«418286_j13022340841764_3_alg».proof.Proof.KTerms

set_option maxRecDepth 16384

noncomputable section

namespace Cert.KernelIdeal.KH

open Cert.KernelIdeal
open Idealize.ShloMosaic
open Facts₀ Facts

variable {F : FTy → Type} [FloatOps F]

/-- The velocity table in physical units. -/
abbrev vel (A1 : FVec F S100000x3 .f32) : FVec F S100000x3 .f32 :=
  Host.divf (addf (mulf A1 (broadcastInDim S100000x3 ![] bcast_S_S100000x3 (constant S_ .f32 0x3F800000#32)))
    (broadcastInDim S100000x3 ![] bcast_S_S100000x3 (constant S_ .f32 0x00000000#32)))
    (broadcastInDim S100000x3 ![] bcast_S_S100000x3 (constant S_ .f32 0x3A83126F#32))

/-- A pair-major array laid out coordinate-major. -/
abbrev cm (X : FVec F S6000000x3 .f32) : FVec F S3x6000000 .f32 :=
  transpose S3x6000000 [1, 0] X transposes_S6000000x3_S3x6000000_1_0

/-- A coordinate-major array laid back pair-major. -/
abbrev pm (a : FVec F S3x6000000 .f32) : FVec F S6000000x3 .f32 :=
  transpose S6000000x3 [1, 0] a transposes_S3x6000000_S6000000x3_1_0

/-- A per-pair vector as a one-row array. -/
abbrev row (x : FVec F S6000000 .f32) : FVec F S1x6000000 .f32 :=
  broadcastInDim S1x6000000 ![1] bcast_S6000000_S1x6000000_1 x

/-- A one-row array as a per-pair vector. -/
abbrev flat (w : FVec F S1x6000000 .f32) : FVec F S6000000 .f32 :=
  shapeCast S6000000 w shapeCasts_S1x6000000_S6000000

/-- The scatter-sum of a per-pair vector at the receivers, into zeros. -/
abbrev scat1 (I : IVec S6000000 32) (w : FVec F S6000000 .f32) : FVec F S100000 .f32 :=
  Host.scatterAdd scatter_S100000_S6000000x1_S6000000_n_0_0_1
    (broadcastInDim S100000 ![] bcast_S_S100000 (constant S_ .f32 0x00000000#32))
    (broadcastInDim S6000000x1 ![0] bcast_S6000000_S6000000x1_0 I) w

/-- The scatter-sum of a pair-major array at the receivers, into zeros. -/
abbrev scat3 (I : IVec S6000000 32) (a : FVec F S6000000x3 .f32) : FVec F S100000x3 .f32 :=
  Host.scatterAdd scatter_S100000x3_S6000000x1_S6000000x3_1_0_0_1
    (broadcastInDim S100000x3 ![] bcast_S_S100000x3 (constant S_ .f32 0x00000000#32))
    (broadcastInDim S6000000x1 ![0] bcast_S6000000_S6000000x1_0 I) a

/-- The pressure from the density. -/
abbrev pres (rho : FVec F S100000 .f32) : FVec F S100000 .f32 :=
  addf (mulf (broadcastInDim S100000 ![] bcast_S_S100000 (constant S_ .f32 0x42C80000#32))
    (subf (Host.powf (Host.divf rho (broadcastInDim S100000 ![] bcast_S_S100000 (constant S_ .f32 0x3F800000#32)))
      (broadcastInDim S100000 ![] bcast_S_S100000 (constant S_ .f32 0x3F800000#32)))
      (broadcastInDim S100000 ![] bcast_S_S100000 (constant S_ .f32 0x3F800000#32))))
    (broadcastInDim S100000 ![] bcast_S_S100000 (constant S_ .f32 0x00000000#32))

end Cert.KernelIdeal.KH

end
-- ==== Proof.KernelFold.lean ====
/-
  The kernel program's run, read back: what each buffer holds at the boundaries of @main's segments, as the
  host operations' terms of the launch contents. The two launches' output arrays stay named (what the pipeline
  leaves after its last grid point); everything around them is the host side.
-/
import proofs.«418286_j13022340841764_3_alg».proof.Proof.Gen.KernelIdeal.Frame
import proofs.«418286_j13022340841764_3_alg».proof.Proof.KHost
import Idealize.ShloMosaic.Lib.StableHlo.Run
import Idealize.ShloMosaic.Lib.Pipeline.Value

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo
open Idealize.ShloMosaic.Pipeline (Dat)
open KT KH

variable {F : FTy → Type} [FloatOps F]
variable (m : (ℓ : Loc nD τ sig) → Buf (Elt F) ℓ) (ρ : Dev nD → PrngReg)

/-! ## The launch contents -/

abbrev A0 (c : Dev nD) : FVec F S100000x3 .f32 := m ((c : Thread nD τ).loc main_arg0)
abbrev A1 (c : Dev nD) : FVec F S100000x3 .f32 := m ((c : Thread nD τ).loc main_arg1)
abbrev I (c : Dev nD) : IVec S6000000 32 := m ((c : Thread nD τ).loc main_arg2)
abbrev J (c : Dev nD) : IVec S6000000 32 := m ((c : Thread nD τ).loc main_arg3)

/-! ## The two launches' output arrays, and what the host makes of them -/

/-- What the first launch leaves in its one-row output array. -/
abbrev O0 (c : Dev nD) : FVec F S1x6000000 .f32 := (dat0 (V4 m ρ) c).arrAt 2 cfg0.N
/-- The density. -/
abbrev rhoK (c : Dev nD) : FVec F S100000 .f32 := scat1 (I m c) (flat (O0 m ρ c))
/-- The pressure. -/
abbrev presK (c : Dev nD) : FVec F S100000 .f32 := pres (rhoK m ρ c)
/-- What the second launch leaves in its coordinate-major output array. -/
abbrev O1 (c : Dev nD) : FVec F S3x6000000 .f32 := (dat1 (V13 m ρ) c).arrAt 8 cfg1.N

/-! ## Carrying a value into and out of a buffer of its own type -/

/-- A value carried into a buffer of its own type and back is unchanged. -/
theorem ofBuf_toBuf {Val : EltTy → Type} {T : BufTy} (x : StableHlo.TRef sig T) (v : T.Contents Val) : x.ofBuf (x.toBuf v) = v := by
  obtain ⟨r, h, h1, h2⟩ := x; subst h; rfl

/-- Carrying a value into a buffer of literally its own type is the identity. -/
theorem toBuf_self {Val : EltTy → Type} (r : Ref sig .tc) (h : r.ty = r.ty) (h1 h2) (v : r.ty.Contents Val) :
    (StableHlo.TRef.of r h h1 h2 : StableHlo.TRef sig r.ty).toBuf v = v := rfl

/-! ## Up to the first launch -/

theorem w4_arg0 (c : Dev nD) : W4 m ρ c (Proc.devRef .tc main_arg0) = A0 m c := by
  show StableHlo.after hostOps0_3 (W3 m ρ c) (Proc.devRef .tc main_arg0) = _
  after_results
theorem w4_arg2 (c : Dev nD) : W4 m ρ c (Proc.devRef .tc main_arg2) = I m c := by
  show StableHlo.after hostOps0_3 (W3 m ρ c) (Proc.devRef .tc main_arg2) = _
  after_results
theorem w4_arg3 (c : Dev nD) : W4 m ρ c (Proc.devRef .tc main_arg3) = J m c := by
  show StableHlo.after hostOps0_3 (W3 m ρ c) (Proc.devRef .tc main_arg3) = _
  after_results
theorem w4_v5 (c : Dev nD) : W4 m ρ c (Proc.devRef .tc main_v5) = vel (A1 m c) := by
  show StableHlo.after hostOps0_3 (W3 m ρ c) (Proc.devRef .tc main_v5) = _
  after_results

set_option maxHeartbeats 1000000 in
theorem entry0_v8 (c : Dev nD) : V4 m ρ c main_v8 = cm (take3 (A0 m c) (I m c)) := by
  show StableHlo.after hostOps0_3 (W3 m ρ c) (Proc.devRef .tc main_v8) = _
  after_results
  simp only [ofBuf_toBuf]
  have e2 : ∀ (h h1 h2), (StableHlo.TRef.of main_arg2 h h1 h2 : StableHlo.TRef sig ⟨S6000000, .i32⟩).ofBuf (W0 m ρ c (Proc.devRef .tc main_arg2)) = I m c := fun _ _ _ => rfl
  have e0 : ∀ (h h1 h2), (StableHlo.TRef.of main_arg0 h h1 h2 : StableHlo.TRef sig ⟨S100000x3, .f32⟩).ofBuf (W0 m ρ c (Proc.devRef .tc main_arg0)) = A0 m c := fun _ _ _ => rfl
  simp only [e2, e0]
  exact congrArg (fun X => transpose S3x6000000 [1, 0] X transposes_S6000000x3_S3x6000000_1_0) (toBuf_self (Val := Elt F) main_v6 rfl (by decide) rfl _)

set_option maxHeartbeats 1000000 in
theorem entry0_v9 (c : Dev nD) : V4 m ρ c main_v9 = cm (take3 (A0 m c) (J m c)) := by
  show StableHlo.after hostOps0_3 (W3 m ρ c) (Proc.devRef .tc main_v9) = _
  after_results
  simp only [ofBuf_toBuf]
  have e3 : ∀ (h h1 h2), (StableHlo.TRef.of main_arg3 h h1 h2 : StableHlo.TRef sig ⟨S6000000, .i32⟩).ofBuf (W0 m ρ c (Proc.devRef .tc main_arg3)) = J m c := fun _ _ _ => rfl
  have e0 : ∀ (h h1 h2), (StableHlo.TRef.of main_arg0 h h1 h2 : StableHlo.TRef sig ⟨S100000x3, .f32⟩).ofBuf (W0 m ρ c (Proc.devRef .tc main_arg0)) = A0 m c := fun _ _ _ => rfl
  simp only [e3, e0]
  exact congrArg (fun X => transpose S3x6000000 [1, 0] X transposes_S6000000x3_S3x6000000_1_0) (toBuf_self (Val := Elt F) main_v7 rfl (by decide) rfl _)

/-! ## At the first launch's exit -/

theorem w5_arg2 (c : Dev nD) : W5 m ρ c (Proc.devRef .tc main_arg2) = I m c :=
  (W5_of_ne m ρ c main_arg2 (by decide)).trans (w4_arg2 m ρ c)
theorem w5_arg3 (c : Dev nD) : W5 m ρ c (Proc.devRef .tc main_arg3) = J m c :=
  (W5_of_ne m ρ c main_arg3 (by decide)).trans (w4_arg3 m ρ c)
theorem w5_v5 (c : Dev nD) : W5 m ρ c (Proc.devRef .tc main_v5) = vel (A1 m c) :=
  (W5_of_ne m ρ c main_v5 (by decide)).trans (w4_v5 m ρ c)
theorem w5_v10 (c : Dev nD) : W5 m ρ c (Proc.devRef .tc main_v10) = O0 m ρ c := W5_arr m ρ c 2
theorem w5_v8 (c : Dev nD) : W5 m ρ c (Proc.devRef .tc main_v8) = cm (take3 (A0 m c) (I m c)) :=
  (W5_arr m ρ c 0).trans (((dat0 (V4 m ρ) c).arrAt_in 0 rfl cfg0.N).trans ((A_eq0 (V4 m ρ) c 0).trans (entry0_v8 m ρ c)))
theorem w5_v9 (c : Dev nD) : W5 m ρ c (Proc.devRef .tc main_v9) = cm (take3 (A0 m c) (J m c)) :=
  (W5_arr m ρ c 1).trans (((dat0 (V4 m ρ) c).arrAt_in 1 rfl cfg0.N).trans ((A_eq0 (V4 m ρ) c 1).trans (entry0_v9 m ρ c)))

/-! ## Between the launches -/

set_option maxHeartbeats 2000000 in
theorem w13_v14 (c : Dev nD) : W13 m ρ c (Proc.devRef .tc main_v14) = rhoK m ρ c := by
  show StableHlo.after hostOps1_7 (W12 m ρ c) (Proc.devRef .tc main_v14) = _
  after_results
  rw [w5_arg2, w5_v10]
  rfl

set_option maxHeartbeats 2000000 in
theorem w13_v24 (c : Dev nD) : W13 m ρ c (Proc.devRef .tc main_v24) = presK m ρ c := by
  show StableHlo.after hostOps1_7 (W12 m ρ c) (Proc.devRef .tc main_v24) = _
  after_results
  rw [w5_arg2, w5_v10]
  rfl

set_option maxHeartbeats 2000000 in
theorem w13_arg2 (c : Dev nD) : W13 m ρ c (Proc.devRef .tc main_arg2) = I m c := by
  show StableHlo.after hostOps1_7 (W12 m ρ c) (Proc.devRef .tc main_arg2) = _
  after_results
  exact w5_arg2 m ρ c

set_option maxHeartbeats 2000000 in
theorem entry1_v8 (c : Dev nD) : V13 m ρ c main_v8 = cm (take3 (A0 m c) (I m c)) := by
  show StableHlo.after hostOps1_7 (W12 m ρ c) (Proc.devRef .tc main_v8) = _
  after_results
  exact w5_v8 m ρ c

set_option maxHeartbeats 2000000 in
theorem entry1_v9 (c : Dev nD) : V13 m ρ c main_v9 = cm (take3 (A0 m c) (J m c)) := by
  show StableHlo.after hostOps1_7 (W12 m ρ c) (Proc.devRef .tc main_v9) = _
  after_results
  exact w5_v9 m ρ c

set_option maxHeartbeats 4000000 in
theorem entry1_v31 (c : Dev nD) : V13 m ρ c main_v31 = cm (take3 (vel (A1 m c)) (I m c)) := by
  show StableHlo.after hostOps1_7 (W12 m ρ c) (Proc.devRef .tc main_v31) = _
  after_results
  simp only [ofBuf_toBuf]
  have e2 : ∀ (h h1 h2), (StableHlo.TRef.of main_arg2 h h1 h2 : StableHlo.TRef sig ⟨S6000000, .i32⟩).ofBuf (W5 m ρ c (Proc.devRef .tc main_arg2)) = I m c := fun _ _ _ => w5_arg2 m ρ c
  have e5 : ∀ (h h1 h2), (StableHlo.TRef.of main_v5 h h1 h2 : StableHlo.TRef sig ⟨S100000x3, .f32⟩).ofBuf (W5 m ρ c (Proc.devRef .tc main_v5)) = vel (A1 m c) := fun _ _ _ => w5_v5 m ρ c
  simp only [e2, e5]
  exact congrArg (fun X => transpose S3x6000000 [1, 0] X transposes_S6000000x3_S3x6000000_1_0) (toBuf_self (Val := Elt F) main_v25 rfl (by decide) rfl _)

set_option maxHeartbeats 4000000 in
theorem entry1_v32 (c : Dev nD) : V13 m ρ c main_v32 = cm (take3 (vel (A1 m c)) (J m c)) := by
  show StableHlo.after hostOps1_7 (W12 m ρ c) (Proc.devRef .tc main_v32) = _
  after_results
  simp only [ofBuf_toBuf]
  have e3 : ∀ (h h1 h2), (StableHlo.TRef.of main_arg3 h h1 h2 : StableHlo.TRef sig ⟨S6000000, .i32⟩).ofBuf (W5 m ρ c (Proc.devRef .tc main_arg3)) = J m c := fun _ _ _ => w5_arg3 m ρ c
  have e5 : ∀ (h h1 h2), (StableHlo.TRef.of main_v5 h h1 h2 : StableHlo.TRef sig ⟨S100000x3, .f32⟩).ofBuf (W5 m ρ c (Proc.devRef .tc main_v5)) = vel (A1 m c) := fun _ _ _ => w5_v5 m ρ c
  simp only [e3, e5]
  exact congrArg (fun X => transpose S3x6000000 [1, 0] X transposes_S6000000x3_S3x6000000_1_0) (toBuf_self (Val := Elt F) main_v26 rfl (by decide) rfl _)

end Cert.KernelIdeal.Fold

end
-- ==== Proof.KernelFold2.lean ====
/-
  The kernel program's run, read back, continued: the densities and pressures the second launch is given (`take`
  of the density and of the pressure at the receivers and the senders, as one-row arrays), and the three results
  at the last segment boundary.
-/
import proofs.«418286_j13022340841764_3_alg».proof.Proof.KernelFold

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo
open Idealize.ShloMosaic.Pipeline (Dat)
open KT KH

variable {F : FTy → Type} [FloatOps F]
variable (m : (ℓ : Loc nD τ sig) → Buf (Elt F) ℓ) (ρ : Dev nD → PrngReg)

/-- Carrying a value out of a buffer of literally its own type is the identity. -/
theorem ofBuf_self {Val : EltTy → Type} (r : Ref sig .tc) (h : r.ty = r.ty) (h1 h2) (v : r.ty.Contents Val) :
    (StableHlo.TRef.of r h h1 h2 : StableHlo.TRef sig r.ty).ofBuf v = v := rfl

/-! ## `take` of the density and the pressure, call by call -/

set_option maxHeartbeats 2000000 in
/-- `take` of a vector through one call, from any contents `W`. -/
theorem take_3 (W : Valuation τ sig (Elt F)) :
    StableHlo.after hostOps1_3 W (Proc.devRef .tc main_v27) = take1 (W (Proc.devRef .tc main_v14)) (W (Proc.devRef .tc main_arg2)) := by
  after_results
  simp only [ofBuf_toBuf]
  have ea : ∀ (h h1 h2), (StableHlo.TRef.of main_arg2 h h1 h2 : StableHlo.TRef sig ⟨S6000000, .i32⟩).ofBuf (W (Proc.devRef .tc main_arg2)) = W (Proc.devRef .tc main_arg2) := fun _ _ _ => rfl
  have es : ∀ (h h1 h2), (StableHlo.TRef.of main_v14 h h1 h2 : StableHlo.TRef sig ⟨S100000, .f32⟩).ofBuf (W (Proc.devRef .tc main_v14)) = W (Proc.devRef .tc main_v14) := fun _ _ _ => rfl
  simp only [ea, es]
  exact toBuf_self (Val := Elt F) main_v27 rfl (by decide) rfl _

set_option maxHeartbeats 2000000 in
/-- `take` of a vector through one call, from any contents `W`. -/
theorem take_4 (W : Valuation τ sig (Elt F)) :
    StableHlo.after hostOps1_4 W (Proc.devRef .tc main_v28) = take1 (W (Proc.devRef .tc main_v14)) (W (Proc.devRef .tc main_arg3)) := by
  after_results
  simp only [ofBuf_toBuf]
  have ea : ∀ (h h1 h2), (StableHlo.TRef.of main_arg3 h h1 h2 : StableHlo.TRef sig ⟨S6000000, .i32⟩).ofBuf (W (Proc.devRef .tc main_arg3)) = W (Proc.devRef .tc main_arg3) := fun _ _ _ => rfl
  have es : ∀ (h h1 h2), (StableHlo.TRef.of main_v14 h h1 h2 : StableHlo.TRef sig ⟨S100000, .f32⟩).ofBuf (W (Proc.devRef .tc main_v14)) = W (Proc.devRef .tc main_v14) := fun _ _ _ => rfl
  simp only [ea, es]
  exact toBuf_self (Val := Elt F) main_v28 rfl (by decide) rfl _

set_option maxHeartbeats 2000000 in
/-- `take` of a vector through one call, from any contents `W`. -/
theorem take_5 (W : Valuation τ sig (Elt F)) :
    StableHlo.after hostOps1_5 W (Proc.devRef .tc main_v29) = take1 (W (Proc.devRef .tc main_v24)) (W (Proc.devRef .tc main_arg2)) := by
  after_results
  simp only [ofBuf_toBuf]
  have ea : ∀ (h h1 h2), (StableHlo.TRef.of main_arg2 h h1 h2 : StableHlo.TRef sig ⟨S6000000, .i32⟩).ofBuf (W (Proc.devRef .tc main_arg2)) = W (Proc.devRef .tc main_arg2) := fun _ _ _ => rfl
  have es : ∀ (h h1 h2), (StableHlo.TRef.of main_v24 h h1 h2 : StableHlo.TRef sig ⟨S100000, .f32⟩).ofBuf (W (Proc.devRef .tc main_v24)) = W (Proc.devRef .tc main_v24) := fun _ _ _ => rfl
  simp only [ea, es]
  exact toBuf_self (Val := Elt F) main_v29 rfl (by decide) rfl _

set_option maxHeartbeats 2000000 in
/-- `take` of a vector through one call, from any contents `W`. -/
theorem take_6 (W : Valuation τ sig (Elt F)) :
    StableHlo.after hostOps1_6 W (Proc.devRef .tc main_v30) = take1 (W (Proc.devRef .tc main_v24)) (W (Proc.devRef .tc main_arg3)) := by
  after_results
  simp only [ofBuf_toBuf]
  have ea : ∀ (h h1 h2), (StableHlo.TRef.of main_arg3 h h1 h2 : StableHlo.TRef sig ⟨S6000000, .i32⟩).ofBuf (W (Proc.devRef .tc main_arg3)) = W (Proc.devRef .tc main_arg3) := fun _ _ _ => rfl
  have es : ∀ (h h1 h2), (StableHlo.TRef.of main_v24 h h1 h2 : StableHlo.TRef sig ⟨S100000, .f32⟩).ofBuf (W (Proc.devRef .tc main_v24)) = W (Proc.devRef .tc main_v24) := fun _ _ _ => rfl
  simp only [ea, es]
  exact toBuf_self (Val := Elt F) main_v30 rfl (by decide) rfl _

/-! ## The density, the pressure and the indices stay as they are through the calls -/

set_option maxHeartbeats 2000000 in
theorem w8_v14 (c : Dev nD) : W8 m ρ c (Proc.devRef .tc main_v14) = rhoK m ρ c := by
  show StableHlo.after hostOps1_2 (W7 m ρ c) (Proc.devRef .tc main_v14) = _
  after_results
  rw [w5_arg2, w5_v10]
  rfl

set_option maxHeartbeats 2000000 in
theorem w8_arg2 (c : Dev nD) : W8 m ρ c (Proc.devRef .tc main_arg2) = I m c := by
  show StableHlo.after hostOps1_2 (W7 m ρ c) (Proc.devRef .tc main_arg2) = _
  after_results
  exact w5_arg2 m ρ c

set_option maxHeartbeats 2000000 in
theorem w9_v14 (c : Dev nD) : W9 m ρ c (Proc.devRef .tc main_v14) = rhoK m ρ c := by
  show StableHlo.after hostOps1_3 (W8 m ρ c) (Proc.devRef .tc main_v14) = _
  after_results
  rw [w5_arg2, w5_v10]
  rfl

set_option maxHeartbeats 2000000 in
theorem w9_arg3 (c : Dev nD) : W9 m ρ c (Proc.devRef .tc main_arg3) = J m c := by
  show StableHlo.after hostOps1_3 (W8 m ρ c) (Proc.devRef .tc main_arg3) = _
  after_results
  exact w5_arg3 m ρ c

set_option maxHeartbeats 2000000 in
theorem w10_v24 (c : Dev nD) : W10 m ρ c (Proc.devRef .tc main_v24) = presK m ρ c := by
  show StableHlo.after hostOps1_4 (W9 m ρ c) (Proc.devRef .tc main_v24) = _
  after_results
  rw [w5_arg2, w5_v10]
  rfl

set_option maxHeartbeats 2000000 in
theorem w10_arg2 (c : Dev nD) : W10 m ρ c (Proc.devRef .tc main_arg2) = I m c := by
  show StableHlo.after hostOps1_4 (W9 m ρ c) (Proc.devRef .tc main_arg2) = _
  after_results
  exact w5_arg2 m ρ c

set_option maxHeartbeats 2000000 in
theorem w11_v24 (c : Dev nD) : W11 m ρ c (Proc.devRef .tc main_v24) = presK m ρ c := by
  show StableHlo.after hostOps1_5 (W10 m ρ c) (Proc.devRef .tc main_v24) = _
  after_results
  rw [w5_arg2, w5_v10]
  rfl

set_option maxHeartbeats 2000000 in
theorem w11_arg3 (c : Dev nD) : W11 m ρ c (Proc.devRef .tc main_arg3) = J m c := by
  show StableHlo.after hostOps1_5 (W10 m ρ c) (Proc.devRef .tc main_arg3) = _
  after_results
  exact w5_arg3 m ρ c

/-! ## What the second launch is given -/

set_option maxHeartbeats 2000000 in
theorem entry1_v33 (c : Dev nD) : V13 m ρ c main_v33 = row (take1 (rhoK m ρ c) (I m c)) := by
  show StableHlo.after hostOps1_7 (StableHlo.after hostOps1_6 (StableHlo.after hostOps1_5 (StableHlo.after hostOps1_4 (W9 m ρ c)))) (Proc.devRef .tc main_v33) = _
  generalize hX : W9 m ρ c = X
  after_results
  subst hX
  show row (StableHlo.after hostOps1_3 (W8 m ρ c) (Proc.devRef .tc main_v27)) = _
  rw [take_3, w8_v14, w8_arg2]

set_option maxHeartbeats 2000000 in
theorem entry1_v34 (c : Dev nD) : V13 m ρ c main_v34 = row (take1 (rhoK m ρ c) (J m c)) := by
  show StableHlo.after hostOps1_7 (StableHlo.after hostOps1_6 (StableHlo.after hostOps1_5 (W10 m ρ c))) (Proc.devRef .tc main_v34) = _
  generalize hX : W10 m ρ c = X
  after_results
  subst hX
  show row (StableHlo.after hostOps1_4 (W9 m ρ c) (Proc.devRef .tc main_v28)) = _
  rw [take_4, w9_v14, w9_arg3]

set_option maxHeartbeats 2000000 in
theorem entry1_v35 (c : Dev nD) : V13 m ρ c main_v35 = row (take1 (presK m ρ c) (I m c)) := by
  show StableHlo.after hostOps1_7 (StableHlo.after hostOps1_6 (W11 m ρ c)) (Proc.devRef .tc main_v35) = _
  generalize hX : W11 m ρ c = X
  after_results
  subst hX
  show row (StableHlo.after hostOps1_5 (W10 m ρ c) (Proc.devRef .tc main_v29)) = _
  rw [take_5, w10_v24, w10_arg2]

set_option maxHeartbeats 2000000 in
theorem entry1_v36 (c : Dev nD) : V13 m ρ c main_v36 = row (take1 (presK m ρ c) (J m c)) := by
  show StableHlo.after hostOps1_7 (W12 m ρ c) (Proc.devRef .tc main_v36) = _
  generalize hX : W12 m ρ c = X
  after_results
  subst hX
  show row (StableHlo.after hostOps1_6 (W11 m ρ c) (Proc.devRef .tc main_v30)) = _
  rw [take_6, w11_v24, w11_arg3]

/-! ## The results -/

theorem out_v14 (c : Dev nD) : W15 m ρ c (Proc.devRef .tc main_v14) = rhoK m ρ c := by
  show StableHlo.after hostOps2 (W14 m ρ c) (Proc.devRef .tc main_v14) = _
  after_results
  exact (W14_of_ne m ρ c main_v14 (by decide)).trans (w13_v14 m ρ c)

theorem out_v24 (c : Dev nD) : W15 m ρ c (Proc.devRef .tc main_v24) = presK m ρ c := by
  show StableHlo.after hostOps2 (W14 m ρ c) (Proc.devRef .tc main_v24) = _
  after_results
  exact (W14_of_ne m ρ c main_v24 (by decide)).trans (w13_v24 m ρ c)

theorem out_v41 (c : Dev nD) : W15 m ρ c (Proc.devRef .tc main_v41) = scat3 (I m c) (pm (O1 m ρ c)) := by
  show StableHlo.after hostOps2 (W14 m ρ c) (Proc.devRef .tc main_v41) = _
  after_results
  rw [show W14 m ρ c (Proc.devRef .tc main_arg2) = I m c from (W14_of_ne m ρ c main_arg2 (by decide)).trans (w13_arg2 m ρ c),
    show W14 m ρ c (Proc.devRef .tc main_v37) = O1 m ρ c from W14_arr m ρ c 8]

end Cert.KernelIdeal.Fold

end
-- ==== Proof.Sph.lean ====
/-
  The smoothed-particle pair interaction, as functions of extended reals: the distance of two particles from
  their coordinate differences, the quintic spline and its radial derivative at that distance, the density
  contribution of one pair, the symmetrised pressure and the volume weight of a pair, and the acceleration one
  pair contributes along one coordinate. Every literal is kept as the f32 word it is printed with.
-/
import Idealize.ShloMosaic.PureOps.Ideal
import Idealize.ShloMosaic.PureOps.Ideal.Laws
import Idealize.ShloMosaic.Lib.ValueIdx

noncomputable section

namespace Cert.Sph

open Idealize.ShloMosaic

/-- An f32 literal read as the extended real its word denotes. -/
abbrev L (w : BitVec 32) : EReal := Ideal.ofBits .f32 w

/-- The Euclidean length of a displacement with coordinates `x0, x1, x2`. -/
def dist (x0 x1 x2 : EReal) : EReal := Ideal.sqrt (x0 * x0 + x1 * x1 + x2 * x2)

/-- The distance in units of the smoothing length. -/
def q (d : EReal) : EReal := Ideal.div d (L 0x3E99999A#32)

/-- `max 0 (a - q)`: one truncated branch of the spline. -/
def clip (a : BitVec 32) (d : EReal) : EReal := max (L 0x00000000#32) (L a - q d)

/-- The fourth and fifth powers as the programs multiply them out. -/
def p4 (x : EReal) : EReal := (x * x) * (x * x)
def p5 (x : EReal) : EReal := x * p4 x

/-- The quintic spline at distance `d`. -/
def kw (d : EReal) : EReal :=
  L 0x3DC9C385#32 * (p5 (clip 0x40400000#32 d) - L 0x40C00000#32 * p5 (clip 0x40000000#32 d)
    + L 0x41700000#32 * p5 (clip 0x3F800000#32 d))

/-- The spline's radial derivative at distance `d`. -/
def gw (d : EReal) : EReal :=
  L 0x3EA822EE#32 * (L 0xC0A00000#32 * p4 (clip 0x40400000#32 d) + L 0x41F00000#32 * p4 (clip 0x40000000#32 d)
    - L 0x42960000#32 * p4 (clip 0x3F800000#32 d))

/-- The particle mass. -/
def mass : EReal := L 0x3CDD2F1B#32

/-- The density-weighted mean pressure of a pair. -/
def pij (ri rj pi pj : EReal) : EReal := Ideal.div (rj * pi + ri * pj) (ri + rj)

/-- The volume weight of a pair. -/
def wvol (ri rj : EReal) : EReal :=
  Ideal.div (Ideal.div mass ri * Ideal.div mass ri + Ideal.div mass rj * Ideal.div mass rj) mass

/-- The scalar factor of a pair's acceleration. -/
def cc (ri rj d : EReal) : EReal := Ideal.div (wvol ri rj * gw d) (d + L 0x322BCC77#32)

/-- One coordinate of a pair's acceleration from the factor `c`, the negated mean pressure, the displacement
    and the velocity difference along that coordinate. -/
def acc (c npij dr du : EReal) : EReal := c * (npij * dr + L 0x3C23D705#32 * du)

/-- The equation of state: pressure from density. -/
def eos (rho : EReal) : EReal :=
  L 0x42C80000#32 * (Ideal.pow (Ideal.div rho (L 0x3F800000#32)) (L 0x3F800000#32) - L 0x3F800000#32) + L 0x00000000#32

/-- What one pair adds to its receiver's density, mass included: positions `a`, `b`. -/
def edgeW (a0 a1 a2 b0 b1 b2 : EReal) : EReal := kw (dist (a0 - b0) (a1 - b1) (a2 - b2)) * mass

/-- The same without the mass factor. -/
def edgeW' (a0 a1 a2 b0 b1 b2 : EReal) : EReal := kw (dist (a0 - b0) (a1 - b1) (a2 - b2))

theorem edgeW_eq (a0 a1 a2 b0 b1 b2 : EReal) : edgeW a0 a1 a2 b0 b1 b2 = edgeW' a0 a1 a2 b0 b1 b2 * mass := rfl

/-- One coordinate of a pair's acceleration: `x, y` the two positions and `u, w` the two velocities along that
    coordinate, `a, b` the full positions, then the two densities and the two pressures. The mean pressure is
    negated by subtracting it from zero. -/
def edgeA (x y u w a0 a1 a2 b0 b1 b2 ri rj pi pj : EReal) : EReal :=
  acc (cc ri rj (dist (a0 - b0) (a1 - b1) (a2 - b2))) (L 0x00000000#32 - pij ri rj pi pj) (x - y) (u - w)

/-- Subtracting from the zero literal negates. -/
theorem zero_lit_sub (x : EReal) : L 0x00000000#32 - x = -x := by
  rw [show L 0x00000000#32 = (0 : EReal) from Ideal.ofBits_zero_f32, zero_sub]

/-- The mass literal is a non-negative real. -/
theorem mass_real : ∃ r : ℝ, 0 ≤ r ∧ mass = (r : EReal) := by
  unfold mass
  simp [Ideal.ofBits, Ideal.ieee, -EReal.coe_mul]

theorem mass_nonneg : 0 ≤ mass := by
  obtain ⟨r, hr, e⟩ := mass_real; rw [e]; exact_mod_cast hr

theorem mass_ne_top : mass ≠ ⊤ := by
  obtain ⟨r, -, e⟩ := mass_real; rw [e]; exact EReal.coe_ne_top r

end Cert.Sph

end
-- ==== Proof.RefRead.lean ====
/-
  The reference program's vectors read at an index. Its density is the mass times a scatter-sum of one vector
  over the pairs (`wr`: the spline of each pair's distance), and its third result a scatter-sum of another
  (`ar`: each pair's acceleration, pair-major). Both are read here pair by pair, as the pair interaction of
  the gathered positions, velocities, densities and pressures.
-/
import proofs.«418286_j13022340841764_3_alg».proof.Proof.Gen.ReferenceIdeal.Run
import proofs.«418286_j13022340841764_3_alg».proof.Proof.Sph
import Idealize.ShloMosaic.Lib.Pipeline.Value
import Idealize.ShloMosaic.Lib.ValueIdx
import Idealize.ShloMosaic.Lib.ValueLayout
import Idealize.ShloMosaic.Lib.StableHlo.Predicate
import Idealize.ShloMosaic.PureOps.Ideal.Laws

set_option maxRecDepth 16384

noncomputable section

namespace Cert.ReferenceIdeal.Rd

open Cert.ReferenceIdeal Cert.ReferenceIdeal.Value
open Idealize.ShloMosaic Idealize.ShloMosaic.TcCoe Idealize.SL.Sem Idealize.ShloMosaic.StableHlo
open Idealize.ShloMosaic.ValueIdx
open Facts₀ Facts

variable (V0 : Valuation τ sig (Elt Ideal))

/-- An index vector with its negative entries wrapped once around the table's length. -/
abbrev nrm (idx : IVec S6000000 32) : IVec S6000000 32 :=
  select (cmpi .slt idx (broadcastInDim S6000000 ![] bcast_S_S6000000 (constantI S_ 32 0#32))) (addi idx (broadcastInDim S6000000 ![] bcast_S_S6000000 (constantI S_ 32 100000#32))) idx

/-- Rows of a three-column table gathered at the wrapped indices. -/
abbrev gat3 (X : FVec Ideal S100000x3 .f32) (idx : IVec S6000000 32) : FVec Ideal S6000000x3 .f32 :=
  Host.gather gather_S100000x3_S6000000x1_S6000000x3_1_0_n_n_0_1_13 X (broadcastInDim S6000000x1 ![0] bcast_S6000000_S6000000x1_0 (nrm idx))

/-- Entries of a vector gathered at the wrapped indices. -/
abbrev gat1 (X : FVec Ideal S100000 .f32) (idx : IVec S6000000 32) : FVec Ideal S6000000 .f32 :=
  Host.gather gather_S100000_S6000000x1_S6000000_n_0_n_n_0_1_1 X (broadcastInDim S6000000x1 ![0] bcast_S6000000_S6000000x1_0 (nrm idx))

/-- The receivers' and the senders' index vectors, and the velocity table. -/
abbrev recv : IVec S6000000 32 := V0 (Proc.devRef .tc main_arg2)
abbrev send : IVec S6000000 32 := V0 (Proc.devRef .tc main_arg3)
abbrev pos : FVec Ideal S100000x3 .f32 := V0 (Proc.devRef .tc main_arg0)

/-- The vector the density scatter-sums: the spline of each pair's distance. -/
def wr : FVec Ideal S6000000 .f32 :=
  mulf (broadcastInDim S6000000 ![] bcast_S_S6000000 (constant S_ .f32 0x3DC9C385#32)) (addf (subf (mulf (res_main_v37 V0) (mulf (res_main_v38 V0) (res_main_v38 V0))) (mulf (broadcastInDim S6000000 ![] bcast_S_S6000000 (constant S_ .f32 0x40C00000#32)) (mulf (res_main_v33 V0) (mulf (res_main_v41 V0) (res_main_v41 V0))))) (mulf (broadcastInDim S6000000 ![] bcast_S_S6000000 (constant S_ .f32 0x41700000#32)) (mulf (res_main_v29 V0) (mulf (res_main_v47 V0) (res_main_v47 V0)))))

/-- The vector the third result scatter-sums: each pair's acceleration. -/
def ar : FVec Ideal S6000000x3 .f32 :=
  mulf (broadcastInDim S6000000x3 ![0, 1] bcast_S6000000x1_S6000000x3_0_1 (broadcastInDim S6000000x1 ![0] bcast_S6000000_S6000000x1_0 (Host.divf (mulf (Host.divf (addf (mulf (res_main_v119 V0) (res_main_v119 V0)) (mulf (res_main_v122 V0) (res_main_v122 V0))) (broadcastInDim S6000000 ![] bcast_S_S6000000 (constant S_ .f32 0x3CDD2F1B#32))) (mulf (broadcastInDim S6000000 ![] bcast_S_S6000000 (constant S_ .f32 0x3EA822EE#32)) (subf (addf (mulf (broadcastInDim S6000000 ![] bcast_S_S6000000 (constant S_ .f32 0xC0A00000#32)) (mulf (res_main_v141 V0) (res_main_v141 V0))) (mulf (broadcastInDim S6000000 ![] bcast_S_S6000000 (constant S_ .f32 0x41F00000#32)) (mulf (res_main_v145 V0) (res_main_v145 V0)))) (mulf (broadcastInDim S6000000 ![] bcast_S_S6000000 (constant S_ .f32 0x42960000#32)) (mulf (res_main_v150 V0) (res_main_v150 V0)))))) (addf (res_main_v23 V0) (broadcastInDim S6000000 ![] bcast_S_S6000000 (constant S_ .f32 0x322BCC77#32)))))) (addf (mulf (broadcastInDim S6000000x3 ![0, 1] bcast_S6000000x1_S6000000x3_0_1 (Host.negf (broadcastInDim S6000000x1 ![0] bcast_S6000000_S6000000x1_0 (Host.divf (addf (mulf (res_main_v83 V0) (Host.gather gather_S100000_S6000000x1_S6000000_n_0_n_n_0_1_1 (res_main_v69 V0) (broadcastInDim S6000000x1 ![0] bcast_S6000000_S6000000x1_0 (select (cmpi .slt (V0 (Proc.devRef .tc main_arg2)) (broadcastInDim S6000000 ![] bcast_S_S6000000 (constantI S_ 32 0#32))) (addi (V0 (Proc.devRef .tc main_arg2)) (broadcastInDim S6000000 ![] bcast_S_S6000000 (constantI S_ 32 100000#32))) (V0 (Proc.devRef .tc main_arg2)))))) (mulf (res_main_v76 V0) (Host.gather gather_S100000_S6000000x1_S6000000_n_0_n_n_0_1_1 (res_main_v69 V0) (broadcastInDim S6000000x1 ![0] bcast_S6000000_S6000000x1_0 (select (cmpi .slt (V0 (Proc.devRef .tc main_arg3)) (broadcastInDim S6000000 ![] bcast_S_S6000000 (constantI S_ 32 0#32))) (addi (V0 (Proc.devRef .tc main_arg3)) (broadcastInDim S6000000 ![] bcast_S_S6000000 (constantI S_ 32 100000#32))) (V0 (Proc.devRef .tc main_arg3))))))) (addf (res_main_v76 V0) (res_main_v83 V0)))))) (res_main_v20 V0)) (mulf (broadcastInDim S6000000x3 ![] bcast_S_S6000000x3 (constant S_ .f32 0x3C23D705#32)) (subf (Host.gather gather_S100000x3_S6000000x1_S6000000x3_1_0_n_n_0_1_13 (res_main_v5 V0) (broadcastInDim S6000000x1 ![0] bcast_S6000000_S6000000x1_0 (select (cmpi .slt (V0 (Proc.devRef .tc main_arg2)) (broadcastInDim S6000000 ![] bcast_S_S6000000 (constantI S_ 32 0#32))) (addi (V0 (Proc.devRef .tc main_arg2)) (broadcastInDim S6000000 ![] bcast_S_S6000000 (constantI S_ 32 100000#32))) (V0 (Proc.devRef .tc main_arg2))))) (Host.gather gather_S100000x3_S6000000x1_S6000000x3_1_0_n_n_0_1_13 (res_main_v5 V0) (broadcastInDim S6000000x1 ![0] bcast_S6000000_S6000000x1_0 (select (cmpi .slt (V0 (Proc.devRef .tc main_arg3)) (broadcastInDim S6000000 ![] bcast_S_S6000000 (constantI S_ 32 0#32))) (addi (V0 (Proc.devRef .tc main_arg3)) (broadcastInDim S6000000 ![] bcast_S_S6000000 (constantI S_ 32 100000#32))) (V0 (Proc.devRef .tc main_arg3))))))))

/-! ### The pointwise host operations and the literal broadcasts at an index -/

section Pointwise
variable {s : Shape}

private theorem hdivf_at (a b : FVec Ideal s .f32) (i : s.Idx) : Host.divf a b i = Ideal.div (a i) (b i) := rfl
private theorem hpowf_at (a b : FVec Ideal s .f32) (i : s.Idx) : Host.powf a b i = Ideal.pow (a i) (b i) := rfl
private theorem hsqrt_at (a : FVec Ideal s .f32) (i : s.Idx) : Host.sqrt a i = Ideal.sqrt (a i) := rfl
private theorem hnegf_at (a : FVec Ideal s .f32) (i : s.Idx) : Host.negf a i = -(a i) := rfl

/-- A literal broadcast to any shape reads the literal everywhere. -/
private theorem lit_at (dims : Fin S_.rank → Fin s.rank) (h : S_.BroadcastsInDim s dims) (w : BitVec 32) (j : s.Idx) :
    broadcastInDim s dims h (constant (F := Ideal) S_ .f32 w) j = Sph.L w := rfl

end Pointwise

/-- A column laid along the three coordinates reads, at pair `e` and any coordinate, the column at `e`. -/
private theorem col3_at {α : Type} (v : S6000000x1.Idx → α) (e : Fin 6000000) (k : Fin 3) :
    broadcastInDim S6000000x3 ![0, 1] bcast_S6000000x1_S6000000x3_0_1 v (ix2 e k) = v (ix2 e (0 : Fin 1)) :=
  broadcastInDim_apply _ _ v _ _ (fun a => match a with | ⟨0, _⟩ => rfl | ⟨1, _⟩ => rfl)

/-- A vector as a column reads, at pair `e`, the vector at `e`. -/
private theorem col1_at {α : Type} (v : S6000000.Idx → α) (e : Fin 6000000) :
    broadcastInDim S6000000x1 ![0] bcast_S6000000_S6000000x1_0 v (ix2 e (0 : Fin 1)) = v (ix1 e) :=
  broadcastInDim_apply _ _ v _ _ (fun a => match a with | ⟨0, _⟩ => rfl)

/-- The density is the mass times the scatter-sum of `wr` at the receivers. -/
theorem rho_eq : res_main_v59 V0 = mulf (broadcastInDim S100000 ![] bcast_S_S100000 (constant S_ .f32 0x3CDD2F1B#32)) (Host.scatterAdd scatter_S100000_S6000000x1_S6000000_n_0_0_1 (broadcastInDim S100000 ![] bcast_S_S100000 (constant S_ .f32 0x00000000#32)) (broadcastInDim S6000000x1 ![0] bcast_S6000000_S6000000x1_0 (V0 (Proc.devRef .tc main_arg2))) (wr V0)) := by
  unfold res_main_v59 wr
  rfl

/-- The pressure is the equation of state applied to the density, entry by entry. -/
theorem p_at (i : S100000.Idx) : res_main_v69 V0 i = Sph.eos (res_main_v59 V0 i) := by
  unfold res_main_v69 Sph.eos
  simp only [addf_apply, mulf_apply, subf_apply, hpowf_at, hdivf_at, lit_at]

/-- The third result is the scatter-sum of `ar` at the receivers. -/
theorem dudt_eq : (Host.scatterAdd scatter_S100000x3_S6000000x1_S6000000x3_1_0_0_1 (broadcastInDim S100000x3 ![] bcast_S_S100000x3 (constant S_ .f32 0x00000000#32)) (broadcastInDim S6000000x1 ![0] bcast_S6000000_S6000000x1_0 (V0 (Proc.devRef .tc main_arg2))) (mulf (broadcastInDim S6000000x3 ![0, 1] bcast_S6000000x1_S6000000x3_0_1 (broadcastInDim S6000000x1 ![0] bcast_S6000000_S6000000x1_0 (Host.divf (mulf (Host.divf (addf (mulf (res_main_v119 V0) (res_main_v119 V0)) (mulf (res_main_v122 V0) (res_main_v122 V0))) (broadcastInDim S6000000 ![] bcast_S_S6000000 (constant S_ .f32 0x3CDD2F1B#32))) (mulf (broadcastInDim S6000000 ![] bcast_S_S6000000 (constant S_ .f32 0x3EA822EE#32)) (subf (addf (mulf (broadcastInDim S6000000 ![] bcast_S_S6000000 (constant S_ .f32 0xC0A00000#32)) (mulf (res_main_v141 V0) (res_main_v141 V0))) (mulf (broadcastInDim S6000000 ![] bcast_S_S6000000 (constant S_ .f32 0x41F00000#32)) (mulf (res_main_v145 V0) (res_main_v145 V0)))) (mulf (broadcastInDim S6000000 ![] bcast_S_S6000000 (constant S_ .f32 0x42960000#32)) (mulf (res_main_v150 V0) (res_main_v150 V0)))))) (addf (res_main_v23 V0) (broadcastInDim S6000000 ![] bcast_S_S6000000 (constant S_ .f32 0x322BCC77#32)))))) (addf (mulf (broadcastInDim S6000000x3 ![0, 1] bcast_S6000000x1_S6000000x3_0_1 (Host.negf (broadcastInDim S6000000x1 ![0] bcast_S6000000_S6000000x1_0 (Host.divf (addf (mulf (res_main_v83 V0) (Host.gather gather_S100000_S6000000x1_S6000000_n_0_n_n_0_1_1 (res_main_v69 V0) (broadcastInDim S6000000x1 ![0] bcast_S6000000_S6000000x1_0 (select (cmpi .slt (V0 (Proc.devRef .tc main_arg2)) (broadcastInDim S6000000 ![] bcast_S_S6000000 (constantI S_ 32 0#32))) (addi (V0 (Proc.devRef .tc main_arg2)) (broadcastInDim S6000000 ![] bcast_S_S6000000 (constantI S_ 32 100000#32))) (V0 (Proc.devRef .tc main_arg2)))))) (mulf (res_main_v76 V0) (Host.gather gather_S100000_S6000000x1_S6000000_n_0_n_n_0_1_1 (res_main_v69 V0) (broadcastInDim S6000000x1 ![0] bcast_S6000000_S6000000x1_0 (select (cmpi .slt (V0 (Proc.devRef .tc main_arg3)) (broadcastInDim S6000000 ![] bcast_S_S6000000 (constantI S_ 32 0#32))) (addi (V0 (Proc.devRef .tc main_arg3)) (broadcastInDim S6000000 ![] bcast_S_S6000000 (constantI S_ 32 100000#32))) (V0 (Proc.devRef .tc main_arg3))))))) (addf (res_main_v76 V0) (res_main_v83 V0)))))) (res_main_v20 V0)) (mulf (broadcastInDim S6000000x3 ![] bcast_S_S6000000x3 (constant S_ .f32 0x3C23D705#32)) (subf (Host.gather gather_S100000x3_S6000000x1_S6000000x3_1_0_n_n_0_1_13 (res_main_v5 V0) (broadcastInDim S6000000x1 ![0] bcast_S6000000_S6000000x1_0 (select (cmpi .slt (V0 (Proc.devRef .tc main_arg2)) (broadcastInDim S6000000 ![] bcast_S_S6000000 (constantI S_ 32 0#32))) (addi (V0 (Proc.devRef .tc main_arg2)) (broadcastInDim S6000000 ![] bcast_S_S6000000 (constantI S_ 32 100000#32))) (V0 (Proc.devRef .tc main_arg2))))) (Host.gather gather_S100000x3_S6000000x1_S6000000x3_1_0_n_n_0_1_13 (res_main_v5 V0) (broadcastInDim S6000000x1 ![0] bcast_S6000000_S6000000x1_0 (select (cmpi .slt (V0 (Proc.devRef .tc main_arg3)) (broadcastInDim S6000000 ![] bcast_S_S6000000 (constantI S_ 32 0#32))) (addi (V0 (Proc.devRef .tc main_arg3)) (broadcastInDim S6000000 ![] bcast_S_S6000000 (constantI S_ 32 100000#32))) (V0 (Proc.devRef .tc main_arg3)))))))))) = Host.scatterAdd scatter_S100000x3_S6000000x1_S6000000x3_1_0_0_1 (broadcastInDim S100000x3 ![] bcast_S_S100000x3 (constant S_ .f32 0x00000000#32)) (broadcastInDim S6000000x1 ![0] bcast_S6000000_S6000000x1_0 (V0 (Proc.devRef .tc main_arg2))) (ar V0) := by
  unfold ar
  rfl
/-! ### The pair's displacement and distance -/

/-- The displacement of pair `e` along coordinate `k`. -/
private theorem v20_at (e : Fin 6000000) (k : Fin 3) :
    res_main_v20 V0 (ix2 e k) = gat3 (pos V0) (recv V0) (ix2 e k) - gat3 (pos V0) (send V0) (ix2 e k) := by
  unfold res_main_v20
  exact subf_apply _ _ _

/-- A sum over the three coordinates of a pair-major table, from the zero literal. -/
private theorem sum3_at (x : FVec Ideal S6000000x3 .f32) (e : Fin 6000000) :
    Host.reduceAdd x (constant S_ .f32 0x00000000#32) reducesTo_S6000000x3_S6000000_d1 h_S_ (ix1 e)
      = x (ix2 e (0 : Fin 3)) + x (ix2 e (1 : Fin 3)) + x (ix2 e (2 : Fin 3)) := by
  have h : Shape.Reduces S6000000x3 [1] S6000000 := by decide
  have hl : ∀ k : Fin 3, h.lift (ix1 e) k = ix2 e k := fun k => by
    funext a
    match a with
    | ⟨0, _⟩ => exact Fin.ext rfl
    | ⟨1, _⟩ => exact Fin.ext rfl
  have hs : (∑ k : Fin (S6000000x3.size 1), x (h.lift (ix1 e) k)) = ∑ k : Fin 3, x (ix2 e k) :=
    Finset.sum_congr rfl fun k _ => by rw [hl k]
  show Ideal.hostReduceAdd reducesTo_S6000000x3_S6000000_d1 x (Ideal.ofBits .f32 0x00000000#32) (ix1 e) = _
  rw [Ideal.hostReduceAdd_single _ h, Ideal.ofBits_zero_f32, zero_add, hs, Fin.sum_univ_three]

/-- The distance of pair `e`. -/
private theorem v23_at (e : Fin 6000000) :
    res_main_v23 V0 (ix1 e) = Sph.dist (gat3 (pos V0) (recv V0) (ix2 e (0 : Fin 3)) - gat3 (pos V0) (send V0) (ix2 e (0 : Fin 3))) (gat3 (pos V0) (recv V0) (ix2 e (1 : Fin 3)) - gat3 (pos V0) (send V0) (ix2 e (1 : Fin 3))) (gat3 (pos V0) (recv V0) (ix2 e (2 : Fin 3)) - gat3 (pos V0) (send V0) (ix2 e (2 : Fin 3))) := by
  unfold res_main_v23 Sph.dist
  rw [hsqrt_at, sum3_at, mulf_apply, mulf_apply, mulf_apply, v20_at, v20_at, v20_at]

/-! ### The spline's truncated branches -/

/-- One truncated branch at an index, from the scaled distance there. -/
private theorem clip_at (w : BitVec 32) (X : FVec Ideal S6000000 .f32) (i : S6000000.Idx) (d : EReal) (hX : X i = Sph.q d) :
    maximumf (broadcastInDim S6000000 ![] bcast_S_S6000000 (constant S_ .f32 0x00000000#32))
      (subf (broadcastInDim S6000000 ![] bcast_S_S6000000 (constant S_ .f32 w)) X) i = Sph.clip w d := by
  unfold Sph.clip
  rw [maximumf_apply, subf_apply, lit_at, lit_at, hX]

private theorem v25_at (i : S6000000.Idx) : res_main_v25 V0 i = Sph.q (res_main_v23 V0 i) := by
  unfold res_main_v25 Sph.q
  rw [hdivf_at, lit_at]
private theorem v29_at (i : S6000000.Idx) : res_main_v29 V0 i = Sph.clip 0x3F800000#32 (res_main_v23 V0 i) := by
  unfold res_main_v29; exact clip_at _ _ _ _ (v25_at V0 i)
private theorem v33_at (i : S6000000.Idx) : res_main_v33 V0 i = Sph.clip 0x40000000#32 (res_main_v23 V0 i) := by
  unfold res_main_v33; exact clip_at _ _ _ _ (v25_at V0 i)
private theorem v37_at (i : S6000000.Idx) : res_main_v37 V0 i = Sph.clip 0x40400000#32 (res_main_v23 V0 i) := by
  unfold res_main_v37; exact clip_at _ _ _ _ (v25_at V0 i)
private theorem v128_at (i : S6000000.Idx) : res_main_v128 V0 i = Sph.q (res_main_v23 V0 i) := by
  unfold res_main_v128 Sph.q
  rw [hdivf_at, lit_at]
private theorem v132_at (i : S6000000.Idx) : res_main_v132 V0 i = Sph.clip 0x3F800000#32 (res_main_v23 V0 i) := by
  unfold res_main_v132; exact clip_at _ _ _ _ (v128_at V0 i)
private theorem v136_at (i : S6000000.Idx) : res_main_v136 V0 i = Sph.clip 0x40000000#32 (res_main_v23 V0 i) := by
  unfold res_main_v136; exact clip_at _ _ _ _ (v128_at V0 i)
private theorem v140_at (i : S6000000.Idx) : res_main_v140 V0 i = Sph.clip 0x40400000#32 (res_main_v23 V0 i) := by
  unfold res_main_v140; exact clip_at _ _ _ _ (v128_at V0 i)

/-- The squares of the branches. -/
private theorem v38_at (i : S6000000.Idx) :
    res_main_v38 V0 i = Sph.clip 0x40400000#32 (res_main_v23 V0 i) * Sph.clip 0x40400000#32 (res_main_v23 V0 i) := by
  unfold res_main_v38
  rw [mulf_apply, v37_at]
private theorem v41_at (i : S6000000.Idx) :
    res_main_v41 V0 i = Sph.clip 0x40000000#32 (res_main_v23 V0 i) * Sph.clip 0x40000000#32 (res_main_v23 V0 i) := by
  unfold res_main_v41
  rw [mulf_apply, v33_at]
private theorem v47_at (i : S6000000.Idx) :
    res_main_v47 V0 i = Sph.clip 0x3F800000#32 (res_main_v23 V0 i) * Sph.clip 0x3F800000#32 (res_main_v23 V0 i) := by
  unfold res_main_v47
  rw [mulf_apply, v29_at]
private theorem v141_at (i : S6000000.Idx) :
    res_main_v141 V0 i = Sph.clip 0x40400000#32 (res_main_v23 V0 i) * Sph.clip 0x40400000#32 (res_main_v23 V0 i) := by
  unfold res_main_v141
  rw [mulf_apply, v140_at]
private theorem v145_at (i : S6000000.Idx) :
    res_main_v145 V0 i = Sph.clip 0x40000000#32 (res_main_v23 V0 i) * Sph.clip 0x40000000#32 (res_main_v23 V0 i) := by
  unfold res_main_v145
  rw [mulf_apply, v136_at]
private theorem v150_at (i : S6000000.Idx) :
    res_main_v150 V0 i = Sph.clip 0x3F800000#32 (res_main_v23 V0 i) * Sph.clip 0x3F800000#32 (res_main_v23 V0 i) := by
  unfold res_main_v150
  rw [mulf_apply, v132_at]

/-- `wr` at an index is the spline of the distance there. -/
private theorem wr_kw (i : S6000000.Idx) : wr V0 i = Sph.kw (res_main_v23 V0 i) := by
  unfold wr Sph.kw Sph.p5 Sph.p4
  simp only [mulf_apply, addf_apply, subf_apply, lit_at, v38_at, v41_at, v47_at, v29_at, v33_at, v37_at]

/-- `wr` at pair `e`: the spline of the distance of the two gathered positions. -/
theorem wr_at (e : Fin 6000000) :
    wr V0 (ix1 e) = Sph.edgeW' (gat3 (pos V0) (recv V0) (ix2 e (0 : Fin 3))) (gat3 (pos V0) (recv V0) (ix2 e (1 : Fin 3))) (gat3 (pos V0) (recv V0) (ix2 e (2 : Fin 3)))
      (gat3 (pos V0) (send V0) (ix2 e (0 : Fin 3))) (gat3 (pos V0) (send V0) (ix2 e (1 : Fin 3))) (gat3 (pos V0) (send V0) (ix2 e (2 : Fin 3))) := by
  unfold Sph.edgeW'
  rw [wr_kw, v23_at]
/-! ### The gathered densities and the volume factors -/

private theorem v76_eq : res_main_v76 V0 = gat1 (res_main_v59 V0) (recv V0) := by
  unfold res_main_v76; rfl
private theorem v83_eq : res_main_v83 V0 = gat1 (res_main_v59 V0) (send V0) := by
  unfold res_main_v83; rfl
private theorem v119_at (i : S6000000.Idx) :
    res_main_v119 V0 i = Ideal.div (Sph.L 0x3CDD2F1B#32) (gat1 (res_main_v59 V0) (recv V0) i) := by
  unfold res_main_v119
  rw [hdivf_at, lit_at, v76_eq]
private theorem v122_at (i : S6000000.Idx) :
    res_main_v122 V0 i = Ideal.div (Sph.L 0x3CDD2F1B#32) (gat1 (res_main_v59 V0) (send V0) i) := by
  unfold res_main_v122
  rw [hdivf_at, lit_at, v83_eq]

/-! ### The two pair factors of the acceleration, as vectors over the pairs -/

/-- The scalar factor of each pair's acceleration. -/
private def ccv : FVec Ideal S6000000 .f32 :=
  Host.divf (mulf (Host.divf (addf (mulf (res_main_v119 V0) (res_main_v119 V0)) (mulf (res_main_v122 V0) (res_main_v122 V0))) (broadcastInDim S6000000 ![] bcast_S_S6000000 (constant S_ .f32 0x3CDD2F1B#32))) (mulf (broadcastInDim S6000000 ![] bcast_S_S6000000 (constant S_ .f32 0x3EA822EE#32)) (subf (addf (mulf (broadcastInDim S6000000 ![] bcast_S_S6000000 (constant S_ .f32 0xC0A00000#32)) (mulf (res_main_v141 V0) (res_main_v141 V0))) (mulf (broadcastInDim S6000000 ![] bcast_S_S6000000 (constant S_ .f32 0x41F00000#32)) (mulf (res_main_v145 V0) (res_main_v145 V0)))) (mulf (broadcastInDim S6000000 ![] bcast_S_S6000000 (constant S_ .f32 0x42960000#32)) (mulf (res_main_v150 V0) (res_main_v150 V0)))))) (addf (res_main_v23 V0) (broadcastInDim S6000000 ![] bcast_S_S6000000 (constant S_ .f32 0x322BCC77#32)))

/-- The density-weighted mean pressure of each pair. -/
private def pv : FVec Ideal S6000000 .f32 :=
  Host.divf (addf (mulf (res_main_v83 V0) (gat1 (res_main_v69 V0) (recv V0))) (mulf (res_main_v76 V0) (gat1 (res_main_v69 V0) (send V0)))) (addf (res_main_v76 V0) (res_main_v83 V0))

/-- `ar` is the first factor, laid along the coordinates, times the negated second, laid likewise, times the
    displacement, plus the velocity term. -/
private theorem ar_split : ar V0 = mulf (broadcastInDim S6000000x3 ![0, 1] bcast_S6000000x1_S6000000x3_0_1 (broadcastInDim S6000000x1 ![0] bcast_S6000000_S6000000x1_0 (ccv V0))) (addf (mulf (broadcastInDim S6000000x3 ![0, 1] bcast_S6000000x1_S6000000x3_0_1 (Host.negf (broadcastInDim S6000000x1 ![0] bcast_S6000000_S6000000x1_0 (pv V0)))) (res_main_v20 V0)) (mulf (broadcastInDim S6000000x3 ![] bcast_S_S6000000x3 (constant S_ .f32 0x3C23D705#32)) (subf (gat3 (res_main_v5 V0) (recv V0)) (gat3 (res_main_v5 V0) (send V0))))) := by
  unfold ar ccv pv
  rfl

/-- The scalar factor read at an index, over any six vectors in place of the named intermediates. -/
private theorem cc_gen (A B E F G D : FVec Ideal S6000000 .f32) (i : S6000000.Idx) :
    (Host.divf (mulf (Host.divf (addf (mulf A A) (mulf B B)) (broadcastInDim S6000000 ![] bcast_S_S6000000 (constant S_ .f32 0x3CDD2F1B#32))) (mulf (broadcastInDim S6000000 ![] bcast_S_S6000000 (constant S_ .f32 0x3EA822EE#32)) (subf (addf (mulf (broadcastInDim S6000000 ![] bcast_S_S6000000 (constant S_ .f32 0xC0A00000#32)) (mulf E E)) (mulf (broadcastInDim S6000000 ![] bcast_S_S6000000 (constant S_ .f32 0x41F00000#32)) (mulf F F))) (mulf (broadcastInDim S6000000 ![] bcast_S_S6000000 (constant S_ .f32 0x42960000#32)) (mulf G G))))) (addf D (broadcastInDim S6000000 ![] bcast_S_S6000000 (constant S_ .f32 0x322BCC77#32)))) i
      = Ideal.div (Ideal.div (A i * A i + B i * B i) (Sph.L 0x3CDD2F1B#32)
          * (Sph.L 0x3EA822EE#32 * (Sph.L 0xC0A00000#32 * (E i * E i) + Sph.L 0x41F00000#32 * (F i * F i)
              - Sph.L 0x42960000#32 * (G i * G i)))) (D i + Sph.L 0x322BCC77#32) := by
  simp only [hdivf_at, mulf_apply, addf_apply, subf_apply, lit_at]

private theorem ccv_at (i : S6000000.Idx) :
    ccv V0 i = Sph.cc (gat1 (res_main_v59 V0) (recv V0) i) (gat1 (res_main_v59 V0) (send V0) i) (res_main_v23 V0 i) := by
  unfold ccv Sph.cc Sph.wvol Sph.gw Sph.p4 Sph.mass
  rw [cc_gen, v119_at, v122_at, v141_at, v145_at, v150_at]

private theorem pv_at (i : S6000000.Idx) :
    pv V0 i = Sph.pij (gat1 (res_main_v59 V0) (recv V0) i) (gat1 (res_main_v59 V0) (send V0) i) (gat1 (res_main_v69 V0) (recv V0) i) (gat1 (res_main_v69 V0) (send V0) i) := by
  unfold pv Sph.pij
  rw [hdivf_at, addf_apply, addf_apply, mulf_apply, mulf_apply, v76_eq, v83_eq]

/-- `ar` at pair `e`, coordinate `k`: the pair's acceleration along `k`, the mean pressure negated. -/
theorem ar_at (e : Fin 6000000) (k : Fin 3) :
    ar V0 (ix2 e k) = Sph.acc
      (Sph.cc (gat1 (res_main_v59 V0) (recv V0) (ix1 e)) (gat1 (res_main_v59 V0) (send V0) (ix1 e))
        (Sph.dist (gat3 (pos V0) (recv V0) (ix2 e (0 : Fin 3)) - gat3 (pos V0) (send V0) (ix2 e (0 : Fin 3)))
          (gat3 (pos V0) (recv V0) (ix2 e (1 : Fin 3)) - gat3 (pos V0) (send V0) (ix2 e (1 : Fin 3)))
          (gat3 (pos V0) (recv V0) (ix2 e (2 : Fin 3)) - gat3 (pos V0) (send V0) (ix2 e (2 : Fin 3)))))
      (-(Sph.pij (gat1 (res_main_v59 V0) (recv V0) (ix1 e)) (gat1 (res_main_v59 V0) (send V0) (ix1 e))
          (gat1 (res_main_v69 V0) (recv V0) (ix1 e)) (gat1 (res_main_v69 V0) (send V0) (ix1 e))))
      (gat3 (pos V0) (recv V0) (ix2 e k) - gat3 (pos V0) (send V0) (ix2 e k))
      (gat3 (res_main_v5 V0) (recv V0) (ix2 e k) - gat3 (res_main_v5 V0) (send V0) (ix2 e k)) := by
  unfold Sph.acc
  rw [ar_split, mulf_apply, addf_apply, mulf_apply, mulf_apply, subf_apply, col3_at, col3_at, col1_at, hnegf_at, col1_at,
    lit_at, v20_at, ccv_at, pv_at, v23_at]

end Cert.ReferenceIdeal.Rd

end
-- ==== Proof.Take.lean ====
/-
  Under the precondition every receiver and sender index lies in 0 … 99999. Then wrapping leaves an index vector
  as it is, the in-table test holds at every entry, and `take` is the plain gather at the indices — in the
  kernel program and, for the wrapping, in the reference program too.
-/
import proofs.«418286_j13022340841764_3_alg».proof.Proof.KTerms
import proofs.«418286_j13022340841764_3_alg».proof.Proof.Gen.ReferenceIdeal
import Idealize.ShloMosaic.Lib.ValueIdx
import Idealize.ShloMosaic.Lib.Pipeline.Value
import Idealize.ShloMosaic.Lib.ReduceAll
import Idealize.ShloMosaic.Lib.StableHlo.Predicate

set_option maxRecDepth 16384

noncomputable section

namespace Cert.Take

open Idealize.ShloMosaic

/-- Every entry of an index vector lies in the particle table. -/
def InRange (idx : IVec (⟨1, ![6000000]⟩ : Shape) 32) : Prop := ∀ i, 0 ≤ (idx i).toInt ∧ (idx i).toInt < 100000

section Helpers

/-- Wrapping leaves in-range indices as they are, over the literal shapes and any proof of the broadcast fact:
    no entry is negative, so the compare is 0 at every entry and the select reads its last operand. -/
private theorem nrm_lit (hb : (⟨0, ![]⟩ : Shape).BroadcastsInDim (⟨1, ![6000000]⟩ : Shape) (![] : Fin 0 → Fin 1))
    (idx : IVec (⟨1, ![6000000]⟩ : Shape) 32) (h : InRange idx) :
    select (cmpi .slt idx (broadcastInDim (⟨1, ![6000000]⟩ : Shape) ![] hb (constantI (⟨0, ![]⟩ : Shape) 32 0#32)))
      (addi idx (broadcastInDim (⟨1, ![6000000]⟩ : Shape) ![] hb (constantI (⟨0, ![]⟩ : Shape) 32 100000#32))) idx = idx := by
  funext i
  rw [ValueIdx.select_apply]
  have hc : cmpi .slt idx (broadcastInDim (⟨1, ![6000000]⟩ : Shape) ![] hb (constantI (⟨0, ![]⟩ : Shape) 32 0#32)) i = 0#1 := by
    apply ValueIdx.eq_zero_of_ne_one
    show ¬ IntOp.cmpi .slt (idx i) 0#32 = 1#1
    rw [IntOp.cmpi_slt, show (0#32 : BitVec 32).toInt = 0 from by decide]
    exact not_lt.2 (h i).1
  rw [hc, ValueIdx.select_zero]

/-- A left fold by `and` from 1 over a list whose every image is 1 is 1. -/
private theorem foldl_andi_one {ι : Type} (f : ι → BitVec 1) :
    ∀ (l : List ι), (∀ n ∈ l, f n = 1#1) → l.foldl (fun r n => IntOp.andi r (f n)) 1#1 = 1#1
  | [], _ => rfl
  | a :: l, hl => by
    rw [List.foldl_cons, hl a (List.mem_cons_self ..), show IntOp.andi (1#1 : BitVec 1) 1#1 = 1#1 from by decide]
    exact foldl_andi_one f l (fun n hn => hl n (List.mem_cons_of_mem _ hn))

end Helpers

section Kernel
open Cert.KernelIdeal Cert.KernelIdeal.KT

/-- Wrapping leaves in-range indices as they are (kernel program's spelling). -/
theorem nrm_eq (idx : IVec Cert.KernelIdeal.S6000000 32) (h : InRange idx) : KT.nrm idx = idx :=
  nrm_lit _ idx h

/-- The in-table test holds at every entry. -/
theorem inTable_eq (idx : IVec Cert.KernelIdeal.S6000000 32) (h : InRange idx) : KT.inTable idx = fun _ => 1#1 := by
  funext j
  unfold KT.inTable
  rw [Host.reduce_eq_foldl]
  show List.foldl _ 1#1 _ = 1#1
  apply foldl_andi_one
  intro n _
  unfold KT.col
  rw [nrm_eq idx h]
  show IntOp.andi (IntOp.cmpi .sge (idx _) 0#32) (IntOp.cmpi .sle (idx _) 99999#32) = 1#1
  rw [IntOp.andi_eq_one, IntOp.cmpi_sge, IntOp.cmpi_sle, show (0#32 : BitVec 32).toInt = 0 from by decide,
    show (99999#32 : BitVec 32).toInt = 99999 from by decide]
  exact ⟨(h _).1, Int.lt_add_one_iff.1 (h _).2⟩

/-- `take` of a three-column table is the gather at the indices. -/
theorem take3_eq (X : FVec Ideal Cert.KernelIdeal.S100000x3 .f32) (idx : IVec Cert.KernelIdeal.S6000000 32) (h : InRange idx) :
    KT.take3 X idx = Host.gather Cert.KernelIdeal.gather_S100000x3_S6000000x1_S6000000x3_1_0_n_n_0_1_13 X
      (broadcastInDim Cert.KernelIdeal.S6000000x1 ![0] Cert.KernelIdeal.Facts₀.bcast_S6000000_S6000000x1_0 idx) := by
  unfold KT.take3 KT.gat3 KT.col
  rw [inTable_eq idx h, nrm_eq idx h]
  funext j
  rw [ValueIdx.select_apply]
  show Scalar.select 1#1 _ _ = _
  rw [ValueIdx.select_one]

/-- `take` of a vector is the gather at the indices. -/
theorem take1_eq (X : FVec Ideal Cert.KernelIdeal.S100000 .f32) (idx : IVec Cert.KernelIdeal.S6000000 32) (h : InRange idx) :
    KT.take1 X idx = Host.gather Cert.KernelIdeal.gather_S100000_S6000000x1_S6000000_n_0_n_n_0_1_1 X
      (broadcastInDim Cert.KernelIdeal.S6000000x1 ![0] Cert.KernelIdeal.Facts₀.bcast_S6000000_S6000000x1_0 idx) := by
  unfold KT.take1 KT.gat1 KT.col
  rw [inTable_eq idx h, nrm_eq idx h]
  funext j
  rw [ValueIdx.select_apply, ValueIdx.select_one]

end Kernel

section Reference
open Cert.ReferenceIdeal

/-- Wrapping leaves in-range indices as they are (reference program's spelling). -/
theorem ref_nrm_eq (idx : IVec Cert.ReferenceIdeal.S6000000 32) (h : InRange idx) :
    select (cmpi .slt idx (broadcastInDim Cert.ReferenceIdeal.S6000000 ![] Cert.ReferenceIdeal.Facts₀.bcast_S_S6000000 (constantI Cert.ReferenceIdeal.S_ 32 0#32)))
      (addi idx (broadcastInDim Cert.ReferenceIdeal.S6000000 ![] Cert.ReferenceIdeal.Facts₀.bcast_S_S6000000 (constantI Cert.ReferenceIdeal.S_ 32 100000#32))) idx = idx :=
  nrm_lit _ idx h

end Reference

end Cert.Take

end
-- ==== Proof.PreRange.lean ====
/-
  The precondition, decoded: on every device the receiver and the sender index vectors have every entry in
  0 … 99999 (the two `all` conjuncts the statement's precondition carries beside the finiteness of the float inputs).
-/
import proofs.«418286_j13022340841764_3_alg».proof.Defs
import proofs.«418286_j13022340841764_3_alg».proof.Proof.Gen.KernelIdeal
import proofs.«418286_j13022340841764_3_alg».proof.Proof.Gen.Pre_finite_inputs
import proofs.«418286_j13022340841764_3_alg».proof.Proof.Take
import Idealize.ShloMosaic.Lib.ReduceAll
import Idealize.ShloMosaic.Lib.StableHlo.Predicate

set_option maxRecDepth 16384

noncomputable section

namespace Cert.PreRange

open Idealize.ShloMosaic Idealize.SL.Sem

/-- The scalar shape has one index. -/
private instance : Subsingleton (⟨0, ![]⟩ : Shape).Idx := ⟨fun a b => funext fun d => d.elim0⟩

/-- If the `all` of the range test `0 ≤ idx ∧ idx < 100000` over an index vector is one, every entry is in range. -/
private theorem inRange_of_all (idx : IVec (⟨1, ![6000000]⟩ : Shape) 32)
    (hb : (⟨0, ![]⟩ : Shape).BroadcastsInDim (⟨1, ![6000000]⟩ : Shape) (![] : Fin 0 → Fin 1))
    (hr : (⟨1, ![6000000]⟩ : Shape).ReducesTo [0] (⟨0, ![]⟩ : Shape)) (hu : 0 < (⟨0, ![]⟩ : Shape).numel)
    (e : Host.reduce IntOp.andi
        (andi (cmpi .sge idx (broadcastInDim (⟨1, ![6000000]⟩ : Shape) ![] hb (constantI (⟨0, ![]⟩ : Shape) 32 0#32)))
              (cmpi .slt idx (broadcastInDim (⟨1, ![6000000]⟩ : Shape) ![] hb (constantI (⟨0, ![]⟩ : Shape) 32 100000#32))))
        (constantI (⟨0, ![]⟩ : Shape) 1 1#1) hr hu ValueIdx.ix0 = 1#1) :
    Cert.Take.InRange idx := by
  intro i
  have hi := Host.reduce_andi_all _ _ hr hu _ e i
  change IntOp.andi (IntOp.cmpi .sge (idx i) _) (IntOp.cmpi .slt (idx i) _) = 1#1 at hi
  obtain ⟨h1, h2⟩ := IntOp.andi_eq_one.1 hi
  rw [IntOp.cmpi_sge, StableHlo.Predicate.bcast_scalar hb hu] at h1
  rw [IntOp.cmpi_slt, StableHlo.Predicate.bcast_scalar hb hu] at h2
  have z : (0#32 : BitVec 32).toInt = 0 := by decide
  have n : (100000#32 : BitVec 32).toInt = 100000 := by decide
  simp only [constantI] at h1 h2
  rw [z] at h1
  rw [n] at h2
  exact ⟨h1, h2⟩

/-- Under the precondition the receivers' indices lie in the table, on every device. -/
theorem recv_inRange (m : (ℓ : Loc Cert.KernelIdeal.nD Cert.KernelIdeal.τ Cert.KernelIdeal.sig) → Buf (Elt Ideal) ℓ)
    (h : Cert.Pre_KernelIdeal m) (c : Dev Cert.KernelIdeal.nD) :
    Cert.Take.InRange (m ((c.tc : Thread Cert.KernelIdeal.nD Cert.KernelIdeal.τ).loc Cert.KernelIdeal.main_arg2)) := by
  have e := congrFun (h c) ValueIdx.ix0
  unfold Cert.Pre_finite_inputs.fn Cert.Pre_finite_inputs.fn_part1 at e
  dsimp only at e
  change IntOp.andi (IntOp.andi (IntOp.andi _ _) (_ : BitVec 1)) (_ : BitVec 1) = 1#1 at e
  obtain ⟨e', e3⟩ := IntOp.andi_eq_one.1 e
  obtain ⟨_, e2⟩ := IntOp.andi_eq_one.1 e'
  exact inRange_of_all _ _ _ _ e2

/-- Under the precondition the senders' indices lie in the table, on every device. -/
theorem send_inRange (m : (ℓ : Loc Cert.KernelIdeal.nD Cert.KernelIdeal.τ Cert.KernelIdeal.sig) → Buf (Elt Ideal) ℓ)
    (h : Cert.Pre_KernelIdeal m) (c : Dev Cert.KernelIdeal.nD) :
    Cert.Take.InRange (m ((c.tc : Thread Cert.KernelIdeal.nD Cert.KernelIdeal.τ).loc Cert.KernelIdeal.main_arg3)) := by
  have e := congrFun (h c) ValueIdx.ix0
  unfold Cert.Pre_finite_inputs.fn Cert.Pre_finite_inputs.fn_part1 at e
  dsimp only at e
  change IntOp.andi (IntOp.andi (IntOp.andi _ _) (_ : BitVec 1)) (_ : BitVec 1) = 1#1 at e
  obtain ⟨e', e3⟩ := IntOp.andi_eq_one.1 e
  obtain ⟨_, e2⟩ := IntOp.andi_eq_one.1 e'
  exact inRange_of_all _ _ _ _ e3

end Cert.PreRange

end
-- ==== Proof.Region0.lean ====
/-
  The first launch, read as a value: after its 375 grid points the density-contribution array holds, at every
  pair, the spline of the pair's distance times the mass, computed from the two position arrays the launch was
  given (each laid out coordinate-major: row k is coordinate k of every pair).
-/
import proofs.«418286_j13022340841764_3_alg».proof.Proof.Gen.KernelIdeal.Frame
import proofs.«418286_j13022340841764_3_alg».proof.Proof.Sph
import Idealize.ShloMosaic.Lib.Pipeline.Value
import Idealize.ShloMosaic.Lib.ValueIdx
import Idealize.ShloMosaic.Lib.ValueLayout

set_option maxRecDepth 16384

noncomputable section

namespace Cert.KernelIdeal.Region0

open Cert.KernelIdeal Cert.KernelIdeal.Gen
open Idealize.ShloMosaic Idealize.ShloMosaic.TcCoe Idealize.SL.Sem
open Idealize.ShloMosaic.ValueIdx

/-- The zero offsets of a whole block, as the constant function. -/
private theorem hz : (![0, 0] : Fin 2 → Nat) = fun _ => 0 :=
  funext fun a => match a with | ⟨0, _⟩ => rfl | ⟨1, _⟩ => rfl

/-- The square root of a vector, read at an index. -/
private theorem sqrt_apply {s : Shape} {φ : FTy} (a : FVec Ideal s φ) (i : s.Idx) : sqrt a i = Ideal.sqrt (a i) := rfl

/-- Row `0` of a three-row block, read at lane `b`, is the block's entry `(0, b)`. -/
private theorem ld_row0 (x : Vec Ideal S3x16000 .f32) (u : Fin 1) (b : Fin 16000) :
    View.ld x r0_0 (ix2 u b) = x (ix2 (0 : Fin 3) b) := by
  show x (r0_0.idx (ix2 u b)) = _
  congr 1
  funext a; apply Fin.ext
  match a with
  | ⟨0, _⟩ => show 0 + 1 * u.val = 0; omega
  | ⟨1, _⟩ => show 0 + 1 * b.val = b.val; omega
/-- Row `1` likewise. -/
private theorem ld_row1 (x : Vec Ideal S3x16000 .f32) (u : Fin 1) (b : Fin 16000) :
    View.ld x r0_1 (ix2 u b) = x (ix2 (1 : Fin 3) b) := by
  show x (r0_1.idx (ix2 u b)) = _
  congr 1
  funext a; apply Fin.ext
  match a with
  | ⟨0, _⟩ => show 1 + 1 * u.val = 1; omega
  | ⟨1, _⟩ => show 0 + 1 * b.val = b.val; omega
/-- Row `2` likewise. -/
private theorem ld_row2 (x : Vec Ideal S3x16000 .f32) (u : Fin 1) (b : Fin 16000) :
    View.ld x r0_2 (ix2 u b) = x (ix2 (2 : Fin 3) b) := by
  show x (r0_2.idx (ix2 u b)) = _
  congr 1
  funext a; apply Fin.ext
  match a with
  | ⟨0, _⟩ => show 2 + 1 * u.val = 2; omega
  | ⟨1, _⟩ => show 0 + 1 * b.val = b.val; omega

/-- The displacement's length in units of the smoothing length, at lane `b`, from the three coordinate rows of the
    two position blocks. -/
private theorem pay2_apply (v0 v2 v6 v8 v13 v15 : Vec Ideal S1x16000 .f32) (b : Fin 16000) :
    k0_pay2 v0 v2 v6 v8 v13 v15 (ix1 b)
      = Sph.q (Sph.dist (v0 (ix2 (0 : Fin 1) b) - v2 (ix2 (0 : Fin 1) b)) (v6 (ix2 (0 : Fin 1) b) - v8 (ix2 (0 : Fin 1) b))
          (v13 (ix2 (0 : Fin 1) b) - v15 (ix2 (0 : Fin 1) b))) := by
  unfold k0_pay2
  simp only [divf_apply, sqrt_apply, addf_apply, mulf_apply, subf_apply, shapeCast_1a_a_apply, broadcast_apply]
  rfl

/-- The spline's branch truncated at one smoothing length, at lane `b`. -/
private theorem pay3_apply (v0 v2 v6 v8 v13 v15 : Vec Ideal S1x16000 .f32) (b : Fin 16000) :
    k0_pay3 v0 v2 v6 v8 v13 v15 (ix1 b)
      = Sph.clip 0x3F800000#32 (Sph.dist (v0 (ix2 (0 : Fin 1) b) - v2 (ix2 (0 : Fin 1) b)) (v6 (ix2 (0 : Fin 1) b) - v8 (ix2 (0 : Fin 1) b))
          (v13 (ix2 (0 : Fin 1) b) - v15 (ix2 (0 : Fin 1) b))) := by
  unfold k0_pay3
  simp only [maximumf_apply, subf_apply, broadcast_apply, pay2_apply]
  rfl

/-- The branch truncated at two smoothing lengths. -/
private theorem pay4_apply (v0 v2 v6 v8 v13 v15 : Vec Ideal S1x16000 .f32) (b : Fin 16000) :
    k0_pay4 v0 v2 v6 v8 v13 v15 (ix1 b)
      = Sph.clip 0x40000000#32 (Sph.dist (v0 (ix2 (0 : Fin 1) b) - v2 (ix2 (0 : Fin 1) b)) (v6 (ix2 (0 : Fin 1) b) - v8 (ix2 (0 : Fin 1) b))
          (v13 (ix2 (0 : Fin 1) b) - v15 (ix2 (0 : Fin 1) b))) := by
  unfold k0_pay4
  simp only [maximumf_apply, subf_apply, broadcast_apply, pay2_apply]
  rfl

/-- The fifth power of the branch truncated at three smoothing lengths. -/
private theorem pay5_apply (v0 v2 v6 v8 v13 v15 : Vec Ideal S1x16000 .f32) (b : Fin 16000) :
    k0_pay5 v0 v2 v6 v8 v13 v15 (ix1 b)
      = Sph.p5 (Sph.clip 0x40400000#32 (Sph.dist (v0 (ix2 (0 : Fin 1) b) - v2 (ix2 (0 : Fin 1) b)) (v6 (ix2 (0 : Fin 1) b) - v8 (ix2 (0 : Fin 1) b))
          (v13 (ix2 (0 : Fin 1) b) - v15 (ix2 (0 : Fin 1) b)))) := by
  unfold k0_pay5
  simp only [mulf_apply, maximumf_apply, subf_apply, broadcast_apply, pay2_apply]
  rfl

/-- The fourth power of the branch truncated at two smoothing lengths. -/
private theorem pay6_apply (v0 v2 v6 v8 v13 v15 : Vec Ideal S1x16000 .f32) (b : Fin 16000) :
    k0_pay6 v0 v2 v6 v8 v13 v15 (ix1 b)
      = Sph.p4 (Sph.clip 0x40000000#32 (Sph.dist (v0 (ix2 (0 : Fin 1) b) - v2 (ix2 (0 : Fin 1) b)) (v6 (ix2 (0 : Fin 1) b) - v8 (ix2 (0 : Fin 1) b))
          (v13 (ix2 (0 : Fin 1) b) - v15 (ix2 (0 : Fin 1) b)))) := by
  unfold k0_pay6
  simp only [mulf_apply, pay4_apply]
  rfl

/-- The stored row at lane `b`, from the six coordinate rows: the spline of the displacement's length, times the mass. -/
private theorem pay1_apply (v0 v2 v6 v8 v13 v15 : Vec Ideal S1x16000 .f32) (u : Fin 1) (b : Fin 16000) :
    k0_pay1 (k0_pay3 v0 v2 v6 v8 v13 v15) (k0_pay4 v0 v2 v6 v8 v13 v15) (k0_pay5 v0 v2 v6 v8 v13 v15) (k0_pay6 v0 v2 v6 v8 v13 v15) (ix2 u b)
      = Sph.edgeW (v0 (ix2 (0 : Fin 1) b)) (v6 (ix2 (0 : Fin 1) b)) (v13 (ix2 (0 : Fin 1) b))
          (v2 (ix2 (0 : Fin 1) b)) (v8 (ix2 (0 : Fin 1) b)) (v15 (ix2 (0 : Fin 1) b)) := by
  unfold k0_pay1
  rw [shapeCast_a_1a_apply]
  simp only [mulf_apply, addf_apply, subf_apply, broadcast_apply, pay3_apply, pay4_apply, pay5_apply, pay6_apply]
  rfl

/-- WHAT THE BODY LEAVES at lane `b` of its output block: the pair's density contribution, from the entries
    `(k, b)` of the two position blocks. -/
theorem out_apply (x0 x1 : Vec Ideal S3x16000 .f32) (u : Fin 1) (b : Fin 16000) :
    out0_2 x0 x1 (ix2 u b)
      = Sph.edgeW (x0 (ix2 (0 : Fin 3) b)) (x0 (ix2 (1 : Fin 3) b)) (x0 (ix2 (2 : Fin 3) b))
          (x1 (ix2 (0 : Fin 3) b)) (x1 (ix2 (1 : Fin 3) b)) (x1 (ix2 (2 : Fin 3) b)) := by
  unfold out0_2
  rw [View.canon_unit_zero hz, pay1_apply, ld_row0, ld_row0, ld_row1, ld_row1, ld_row2, ld_row2]

variable (V : (c : Dev nD) → (b : Ref sig .tc) → Buf (Elt Ideal) ((c : Thread nD τ).loc b))

/-! ## From blocks to the array -/

/-- The array the launch leaves, as one function of the two position arrays: at pair `e` the density
    contribution of the pair whose positions are columns `e` of the two arrays. -/
abbrev W (a0 a1 : S3x6000000.Idx → Elt Ideal .f32) : S1x6000000.Idx → Elt Ideal .f32 := fun i =>
  Sph.edgeW (a0 (ix2 (0 : Fin 3) ⟨(i 1).val, idx2_lt1 i⟩)) (a0 (ix2 (1 : Fin 3) ⟨(i 1).val, idx2_lt1 i⟩)) (a0 (ix2 (2 : Fin 3) ⟨(i 1).val, idx2_lt1 i⟩))
    (a1 (ix2 (0 : Fin 3) ⟨(i 1).val, idx2_lt1 i⟩)) (a1 (ix2 (1 : Fin 3) ⟨(i 1).val, idx2_lt1 i⟩)) (a1 (ix2 (2 : Fin 3) ⟨(i 1).val, idx2_lt1 i⟩))

/-- The block index of every window at grid point `t`: row block `0`, column block `t`. -/
theorem index_facts : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val :=
  (by decide +kernel : ∀ t : Fin grid0.N, _)

/-- Entry `(k, b)` of the first position array's block at point `t` is the array's entry `(k, 16000 t + b)`. -/
theorem iblk_0 (c : Dev nD) (t : Fin cfg0.N) (k : Fin 3) (b : Fin 16000) (h : t.val * 16000 + b.val < 6000000) :
    iblk0 V c 0 t (ix2 k b) = V c main_v8 (ix2 k ⟨t.val * 16000 + b.val, h⟩) := by
  obtain ⟨e0, e1, -, -, -, -⟩ := index_facts t
  show V c main_v8 (((cfg0.win 0).blk t).view.emb (ix2 k b)) = _
  congr 1
  funext a; apply Fin.ext
  match a with
  | ⟨0, _⟩ => show win0_0.index t (0 : Fin 2) * 3 + 1 * k.val = k.val; rw [e0]; omega
  | ⟨1, _⟩ => show win0_0.index t (1 : Fin 2) * 16000 + 1 * b.val = t.val * 16000 + b.val; rw [e1]; omega

/-- The same for the second position array. -/
theorem iblk_1 (c : Dev nD) (t : Fin cfg0.N) (k : Fin 3) (b : Fin 16000) (h : t.val * 16000 + b.val < 6000000) :
    iblk0 V c 1 t (ix2 k b) = V c main_v9 (ix2 k ⟨t.val * 16000 + b.val, h⟩) := by
  obtain ⟨-, -, e0, e1, -, -⟩ := index_facts t
  show V c main_v9 (((cfg0.win 1).blk t).view.emb (ix2 k b)) = _
  congr 1
  funext a; apply Fin.ext
  match a with
  | ⟨0, _⟩ => show win0_1.index t (0 : Fin 2) * 3 + 1 * k.val = k.val; rw [e0]; omega
  | ⟨1, _⟩ => show win0_1.index t (1 : Fin 2) * 16000 + 1 * b.val = t.val * 16000 + b.val; rw [e1]; omega

/-- A block's lane against the array: when the two input blocks are the column blocks `n` of two arrays, what the
    body leaves at lane `b` is `W` of the arrays at column `16000 n + b`. -/
theorem out_W (x0 x1 : Vec Ideal S3x16000 .f32) (a0 a1 : S3x6000000.Idx → Elt Ideal .f32) (n : Nat) (hn : n < 375)
    (h0 : ∀ (k : Fin 3) (b : Fin 16000) (h : n * 16000 + b.val < 6000000), x0 (ix2 k b) = a0 (ix2 k ⟨n * 16000 + b.val, h⟩))
    (h1 : ∀ (k : Fin 3) (b : Fin 16000) (h : n * 16000 + b.val < 6000000), x1 (ix2 k b) = a1 (ix2 k ⟨n * 16000 + b.val, h⟩))
    (j : S1x16000.Idx) (i : S1x6000000.Idx) (hi : (i 1).val = n * 16000 + (j 1).val) :
    out0_2 x0 x1 j = W a0 a1 i := by
  obtain ⟨u, b, rfl⟩ : ∃ u b, j = ix2 u b := ⟨j 0, j 1, eq_ix2 j⟩
  have hb : n * 16000 + b.val < 6000000 := by have := b.isLt; omega
  have hc : (⟨n * 16000 + b.val, hb⟩ : Fin 6000000) = ⟨(i 1).val, idx2_lt1 i⟩ := Fin.ext hi.symm
  rw [out_apply, h0 _ _ hb, h0 _ _ hb, h0 _ _ hb, h1 _ _ hb, h1 _ _ hb, h1 _ _ hb, hc]

/-- WHAT POINT `t` WRITES BACK is block `t` of `W` of the two position arrays as the launch finds them. -/
theorem flushed_eq (c : Dev nD) (t : Fin cfg0.N) :
    (dat0 V c).flushed 2 t = ((cfg0.win 2).blk t).view.read (Elt Ideal) (W (V c main_v8) (V c main_v9)) := by
  show (cfg0.win 2).cut (grid0.coords t) ((dat0 V c).after 2 t) = _
  rw [after0_2]
  obtain ⟨-, -, -, -, e0, e1⟩ := index_facts t
  have ht : t.val < 375 := lt_of_lt_of_eq t.isLt N_0
  funext j
  refine out_W _ _ _ _ t.val ht (iblk_0 V c t) (iblk_1 V c t) ((cfg0.win 2).xinj (grid0.coords t) j) (((cfg0.win 2).blk t).view.emb j) ?_
  show win0_2.index t (1 : Fin 2) * 16000 + 1 * (j 1).val = t.val * 16000 + (j 1).val
  rw [e1]; omega

/-- An index of the array is in point `t`'s block iff each coordinate is in the block's range on its axis. -/
theorem mem_blk (t : Fin cfg0.N) (i : S1x6000000.Idx) :
    i ∈ ((cfg0.win 2).blk t).view.set ↔ ∀ a : Fin 2, win0_2.index t a * S1x16000.size a ≤ (i a).val ∧ (i a).val < win0_2.index t a * S1x16000.size a + S1x16000.size a := by
  show i ∈ ((View.whole main_v10).slice (win0_2.rect t)).set ↔ _
  rw [View.set_slice_whole, Rect.mem_set_unit]
  exact Iff.rfl

/-- Every pair is in some point's block: pair `e` in the block of point `e / 16000`. -/
theorem cover (i : S1x6000000.Idx) :
    ∃ t : Fin cfg0.N, (cfg0.win 2).flush t = true ∧ i ∈ ((cfg0.win 2).blk t).view.set := by
  have hi0 : (i 0).val < 1 := idx2_lt0 i
  have hi1 : (i 1).val < 6000000 := idx2_lt1 i
  have hN : (i 1).val / 16000 < cfg0.N := lt_of_lt_of_eq (by omega : (i 1).val / 16000 < 375) N_0.symm
  obtain ⟨-, -, -, -, e0, e1⟩ := index_facts ⟨(i 1).val / 16000, hN⟩
  have e1' : win0_2.index ⟨(i 1).val / 16000, hN⟩ (1 : Fin 2) = (i 1).val / 16000 := e1
  refine ⟨⟨(i 1).val / 16000, hN⟩, flush0_2 _, ?_⟩
  rw [mem_blk]
  intro a
  match a with
  | ⟨0, _⟩ =>
    show win0_2.index ⟨(i 1).val / 16000, hN⟩ (0 : Fin 2) * 1 ≤ (i 0).val ∧ (i 0).val < win0_2.index ⟨(i 1).val / 16000, hN⟩ (0 : Fin 2) * 1 + 1
    rw [e0]; omega
  | ⟨1, _⟩ =>
    show win0_2.index ⟨(i 1).val / 16000, hN⟩ (1 : Fin 2) * 16000 ≤ (i 1).val ∧ (i 1).val < win0_2.index ⟨(i 1).val / 16000, hN⟩ (1 : Fin 2) * 16000 + 16000
    rw [e1']; omega

/-- THE ARRAY after the launch is `W` of the two position arrays as the launch finds them. -/
theorem arr_eq (c : Dev nD) : (dat0 V c).arrAt 2 cfg0.N = W (V c main_v8) (V c main_v9) :=
  (dat0 V c).arrAt_eq_of_cover 2 (W (V c main_v8) (V c main_v9)) (fun t _ => flushed_eq V c t) cover

/-- Pair `e`'s entry of the array the first launch leaves: the density contribution of the pair. -/
theorem final (c : Dev nD) (e : Fin 6000000) :
    (dat0 (F := Ideal) V c).arrAt 2 cfg0.N (ix2 (0 : Fin 1) e)
      = Sph.edgeW (V c main_v8 (ix2 (0 : Fin 3) e)) (V c main_v8 (ix2 (1 : Fin 3) e)) (V c main_v8 (ix2 (2 : Fin 3) e))
          (V c main_v9 (ix2 (0 : Fin 3) e)) (V c main_v9 (ix2 (1 : Fin 3) e)) (V c main_v9 (ix2 (2 : Fin 3) e)) := by
  rw [arr_eq]

end Cert.KernelIdeal.Region0

end
-- ==== Proof.Region1.lean ====
/-
  The second launch, read as a value: after its 375 grid points the acceleration array (coordinate-major) holds,
  at coordinate k of every pair, the pair's acceleration along k, computed from the position, velocity, density and
  pressure arrays the launch was given.
-/
import proofs.«418286_j13022340841764_3_alg».proof.Proof.Gen.KernelIdeal.Frame
import proofs.«418286_j13022340841764_3_alg».proof.Proof.Sph
import Idealize.ShloMosaic.Lib.Pipeline.Value
import Idealize.ShloMosaic.Lib.ValueIdx
import Idealize.ShloMosaic.Lib.ValueLayout

set_option maxRecDepth 16384

noncomputable section

namespace Cert.KernelIdeal.Region1

open Cert.KernelIdeal Cert.KernelIdeal.Gen
open Idealize.ShloMosaic Idealize.ShloMosaic.TcCoe Idealize.SL.Sem
open Idealize.ShloMosaic.ValueIdx

/-! ## Where a row's lane sits in its block -/

/-- Lane `l` of row 0 of a three-row block. -/
theorem idx_row0 (u : Fin 1) (l : Fin 16000) : r1_0.idx (ix2 u l) = ix2 (0 : Fin 3) l := by
  funext a; apply Fin.ext
  match a with
  | ⟨0, _⟩ => show 0 + 1 * u.val = 0; omega
  | ⟨1, _⟩ => show 0 + 1 * l.val = l.val; omega

/-- Lane `l` of row 1. -/
theorem idx_row1 (u : Fin 1) (l : Fin 16000) : r1_1.idx (ix2 u l) = ix2 (1 : Fin 3) l := by
  funext a; apply Fin.ext
  match a with
  | ⟨0, _⟩ => show 1 + 1 * u.val = 1; omega
  | ⟨1, _⟩ => show 0 + 1 * l.val = l.val; omega

/-- Lane `l` of row 2. -/
theorem idx_row2 (u : Fin 1) (l : Fin 16000) : r1_2.idx (ix2 u l) = ix2 (2 : Fin 3) l := by
  funext a; apply Fin.ext
  match a with
  | ⟨0, _⟩ => show 2 + 1 * u.val = 2; omega
  | ⟨1, _⟩ => show 0 + 1 * l.val = l.val; omega

/-- Lane `l` of the one row of a one-row block. -/
theorem idx_one (u : Fin 1) (l : Fin 16000) : r1_3.idx (ix2 u l) = ix2 (0 : Fin 1) l := by
  funext a; apply Fin.ext
  match a with
  | ⟨0, _⟩ => show 0 + 1 * u.val = 0; omega
  | ⟨1, _⟩ => show 0 + 1 * l.val = l.val; omega

/-! ## The body's values at a lane -/

section Lane
variable (x0 x1 x2 x3 : Vec Ideal S3x16000 .f32) (x4 x5 x6 x7 : Vec Ideal S1x16000 .f32) (l : Fin 16000)

/-- The pair's distance at lane `l`. -/
theorem dist_at :
    k1_pay5 (View.ld x0 r1_0) (View.ld x1 r1_0) (View.ld x0 r1_1) (View.ld x1 r1_1) (View.ld x0 r1_2) (View.ld x1 r1_2) (ix1 l)
      = Sph.dist (x0 (ix2 (0 : Fin 3) l) - x1 (ix2 (0 : Fin 3) l)) (x0 (ix2 (1 : Fin 3) l) - x1 (ix2 (1 : Fin 3) l))
          (x0 (ix2 (2 : Fin 3) l) - x1 (ix2 (2 : Fin 3) l)) := by
  unfold k1_pay5 k1_pay2 k1_pay3 k1_pay4 Sph.dist
  show Ideal.sqrt (_ * _ + _ * _ + _ * _) = _
  simp only [subf_apply, shapeCast_1a_a_apply, View.ld, idx_row0, idx_row1, idx_row2]

/-- The density-weighted mean pressure at lane `l`. -/
theorem pij_at :
    k1_pay8 (View.ld x4 r1_3) (View.ld x5 r1_3) (View.ld x6 r1_3) (View.ld x7 r1_3) (ix1 l)
      = Sph.pij (x4 (ix2 (0 : Fin 1) l)) (x5 (ix2 (0 : Fin 1) l)) (x6 (ix2 (0 : Fin 1) l)) (x7 (ix2 (0 : Fin 1) l)) := by
  unfold k1_pay8 k1_pay7 k1_pay6 Sph.pij
  show Ideal.div (_ * _ + _ * _) (_ + _) = _
  simp only [shapeCast_1a_a_apply, View.ld, idx_one]

/-- The scalar factor of the pair's acceleration at lane `l`. -/
theorem cc_at :
    k1_pay10 (k1_pay5 (View.ld x0 r1_0) (View.ld x1 r1_0) (View.ld x0 r1_1) (View.ld x1 r1_1) (View.ld x0 r1_2) (View.ld x1 r1_2))
        (k1_pay7 (View.ld x5 r1_3)) (k1_pay9 (View.ld x4 r1_3)) (Scalar.ofBits .f32 0x3CDD2F1B#32) (ix1 l)
      = Sph.cc (x4 (ix2 (0 : Fin 1) l)) (x5 (ix2 (0 : Fin 1) l))
          (Sph.dist (x0 (ix2 (0 : Fin 3) l) - x1 (ix2 (0 : Fin 3) l)) (x0 (ix2 (1 : Fin 3) l) - x1 (ix2 (1 : Fin 3) l))
            (x0 (ix2 (2 : Fin 3) l) - x1 (ix2 (2 : Fin 3) l))) := by
  rw [← dist_at x0 x1 l]
  generalize k1_pay5 (View.ld x0 r1_0) (View.ld x1 r1_0) (View.ld x0 r1_1) (View.ld x1 r1_1) (View.ld x0 r1_2) (View.ld x1 r1_2) = d
  unfold k1_pay10 k1_pay9 k1_pay7 k1_pay6 Sph.cc Sph.wvol Sph.gw Sph.clip Sph.q Sph.p4 Sph.mass
  show Ideal.div (Ideal.div (Ideal.div _ _ * Ideal.div _ _ + Ideal.div _ _ * Ideal.div _ _) _ * _) (_ + _) = _
  simp only [shapeCast_1a_a_apply, View.ld, idx_one]
  rfl

/-- What the body stores in row 0, at lane `l`: the pair's acceleration along coordinate 0. -/
theorem row0_at (u : Fin 1) :
    k1_pay12 (k1_pay2 (View.ld x0 r1_0) (View.ld x1 r1_0)) (k1_pay8 (View.ld x4 r1_3) (View.ld x5 r1_3) (View.ld x6 r1_3) (View.ld x7 r1_3))
        (k1_pay10 (k1_pay5 (View.ld x0 r1_0) (View.ld x1 r1_0) (View.ld x0 r1_1) (View.ld x1 r1_1) (View.ld x0 r1_2) (View.ld x1 r1_2))
          (k1_pay7 (View.ld x5 r1_3)) (k1_pay9 (View.ld x4 r1_3)) (Scalar.ofBits .f32 0x3CDD2F1B#32))
        (k1_pay11 (View.ld x2 r1_0)) (View.ld x3 r1_0) (ix2 u l)
      = Sph.edgeA (x0 (ix2 (0 : Fin 3) l)) (x1 (ix2 (0 : Fin 3) l)) (x2 (ix2 (0 : Fin 3) l)) (x3 (ix2 (0 : Fin 3) l))
          (x0 (ix2 (0 : Fin 3) l)) (x0 (ix2 (1 : Fin 3) l)) (x0 (ix2 (2 : Fin 3) l))
          (x1 (ix2 (0 : Fin 3) l)) (x1 (ix2 (1 : Fin 3) l)) (x1 (ix2 (2 : Fin 3) l))
          (x4 (ix2 (0 : Fin 1) l)) (x5 (ix2 (0 : Fin 1) l)) (x6 (ix2 (0 : Fin 1) l)) (x7 (ix2 (0 : Fin 1) l)) := by
  unfold Sph.edgeA Sph.acc
  rw [← cc_at x0 x1 x4 x5 l, ← pij_at x4 x5 x6 x7 l]
  generalize k1_pay10 (F := Ideal) _ _ _ _ = cf
  generalize k1_pay8 (F := Ideal) _ _ _ _ = pm
  unfold k1_pay12 k1_pay11 k1_pay2
  rw [shapeCast_a_1a_apply]
  show cf (ix1 l) * ((_ - pm (ix1 l)) * (_ - _) + _ * (_ - _)) = _
  simp only [shapeCast_1a_a_apply, View.ld, idx_row0]
  rfl

/-- Row 1, at lane `l`: the acceleration along coordinate 1. -/
theorem row1_at (u : Fin 1) :
    k1_pay13 (k1_pay3 (View.ld x0 r1_1) (View.ld x1 r1_1)) (k1_pay8 (View.ld x4 r1_3) (View.ld x5 r1_3) (View.ld x6 r1_3) (View.ld x7 r1_3))
        (k1_pay10 (k1_pay5 (View.ld x0 r1_0) (View.ld x1 r1_0) (View.ld x0 r1_1) (View.ld x1 r1_1) (View.ld x0 r1_2) (View.ld x1 r1_2))
          (k1_pay7 (View.ld x5 r1_3)) (k1_pay9 (View.ld x4 r1_3)) (Scalar.ofBits .f32 0x3CDD2F1B#32))
        (View.ld x2 r1_1) (View.ld x3 r1_1) (ix2 u l)
      = Sph.edgeA (x0 (ix2 (1 : Fin 3) l)) (x1 (ix2 (1 : Fin 3) l)) (x2 (ix2 (1 : Fin 3) l)) (x3 (ix2 (1 : Fin 3) l))
          (x0 (ix2 (0 : Fin 3) l)) (x0 (ix2 (1 : Fin 3) l)) (x0 (ix2 (2 : Fin 3) l))
          (x1 (ix2 (0 : Fin 3) l)) (x1 (ix2 (1 : Fin 3) l)) (x1 (ix2 (2 : Fin 3) l))
          (x4 (ix2 (0 : Fin 1) l)) (x5 (ix2 (0 : Fin 1) l)) (x6 (ix2 (0 : Fin 1) l)) (x7 (ix2 (0 : Fin 1) l)) := by
  unfold Sph.edgeA Sph.acc
  rw [← cc_at x0 x1 x4 x5 l, ← pij_at x4 x5 x6 x7 l]
  generalize k1_pay10 (F := Ideal) _ _ _ _ = cf
  generalize k1_pay8 (F := Ideal) _ _ _ _ = pm
  unfold k1_pay13 k1_pay3
  rw [shapeCast_a_1a_apply]
  show cf (ix1 l) * ((_ - pm (ix1 l)) * (_ - _) + _ * (_ - _)) = _
  simp only [shapeCast_1a_a_apply, View.ld, idx_row1]
  rfl

/-- Row 2, at lane `l`: the acceleration along coordinate 2. -/
theorem row2_at (u : Fin 1) :
    k1_pay1 (k1_pay14 (k1_pay4 (View.ld x0 r1_2) (View.ld x1 r1_2)) (k1_pay8 (View.ld x4 r1_3) (View.ld x5 r1_3) (View.ld x6 r1_3) (View.ld x7 r1_3))
        (k1_pay10 (k1_pay5 (View.ld x0 r1_0) (View.ld x1 r1_0) (View.ld x0 r1_1) (View.ld x1 r1_1) (View.ld x0 r1_2) (View.ld x1 r1_2))
          (k1_pay7 (View.ld x5 r1_3)) (k1_pay9 (View.ld x4 r1_3)) (Scalar.ofBits .f32 0x3CDD2F1B#32))
        (View.ld x2 r1_2) (View.ld x3 r1_2)) (ix2 u l)
      = Sph.edgeA (x0 (ix2 (2 : Fin 3) l)) (x1 (ix2 (2 : Fin 3) l)) (x2 (ix2 (2 : Fin 3) l)) (x3 (ix2 (2 : Fin 3) l))
          (x0 (ix2 (0 : Fin 3) l)) (x0 (ix2 (1 : Fin 3) l)) (x0 (ix2 (2 : Fin 3) l))
          (x1 (ix2 (0 : Fin 3) l)) (x1 (ix2 (1 : Fin 3) l)) (x1 (ix2 (2 : Fin 3) l))
          (x4 (ix2 (0 : Fin 1) l)) (x5 (ix2 (0 : Fin 1) l)) (x6 (ix2 (0 : Fin 1) l)) (x7 (ix2 (0 : Fin 1) l)) := by
  unfold Sph.edgeA Sph.acc
  rw [← cc_at x0 x1 x4 x5 l, ← pij_at x4 x5 x6 x7 l]
  generalize k1_pay10 (F := Ideal) _ _ _ _ = cf
  generalize k1_pay8 (F := Ideal) _ _ _ _ = pm
  unfold k1_pay1 k1_pay14 k1_pay4
  rw [shapeCast_a_1a_apply]
  show cf (ix1 l) * ((_ - pm (ix1 l)) * (_ - _) + _ * (_ - _)) = _
  simp only [shapeCast_1a_a_apply, View.ld, idx_row2]
  rfl

/-- Lane `l` as a lane of the block: the second coordinate of an index, at its literal bound. -/
abbrev laneOf {n0 n1 : Nat} (y : (⟨2, ![n0, n1]⟩ : Shape).Idx) : Fin n1 := ⟨(y 1).val, idx2_lt1 y⟩

/-- The block the body leaves as ONE function of the block index: entry `(k, l)` is the pair's acceleration along
    coordinate `k`, from the four inputs at `(k, l)`, the two positions' three rows at lane `l`, and the densities and
    pressures at lane `l`. -/
def blockA : Vec Ideal S3x16000 .f32 := fun y =>
  Sph.edgeA (x0 y) (x1 y) (x2 y) (x3 y)
    (x0 (ix2 (0 : Fin 3) (laneOf y))) (x0 (ix2 (1 : Fin 3) (laneOf y))) (x0 (ix2 (2 : Fin 3) (laneOf y)))
    (x1 (ix2 (0 : Fin 3) (laneOf y))) (x1 (ix2 (1 : Fin 3) (laneOf y))) (x1 (ix2 (2 : Fin 3) (laneOf y)))
    (x4 (ix2 (0 : Fin 1) (laneOf y))) (x5 (ix2 (0 : Fin 1) (laneOf y)))
    (x6 (ix2 (0 : Fin 1) (laneOf y))) (x7 (ix2 (0 : Fin 1) (laneOf y)))

/-- What the body leaves in the output block is `blockA` of the input blocks: each of its three stores writes one row of it. -/
theorem out_eq_blockA : out1_8 x0 x1 x2 x3 x4 x5 x6 x7 = blockA x0 x1 x2 x3 x4 x5 x6 x7 := by
  funext y
  unfold out1_8
  refine View.canon_apply_of_pieces (blockA x0 x1 x2 x3 x4 x5 x6 x7) _ ?_ y (cover1_8 _ _ _ y)
  intro p hp
  rcases List.mem_cons.mp hp with rfl | hp
  · intro x
    obtain ⟨u, l, rfl⟩ : ∃ (u : Fin 1) (l : Fin 16000), x = ix2 u l := ⟨x 0, x 1, eq_ix2 x⟩
    show _ = blockA x0 x1 x2 x3 x4 x5 x6 x7 (r1_2.idx (ix2 u l))
    rw [idx_row2]
    exact row2_at x0 x1 x2 x3 x4 x5 x6 x7 l u
  rcases List.mem_cons.mp hp with rfl | hp
  · intro x
    obtain ⟨u, l, rfl⟩ : ∃ (u : Fin 1) (l : Fin 16000), x = ix2 u l := ⟨x 0, x 1, eq_ix2 x⟩
    show _ = blockA x0 x1 x2 x3 x4 x5 x6 x7 (r1_1.idx (ix2 u l))
    rw [idx_row1]
    exact row1_at x0 x1 x2 x3 x4 x5 x6 x7 l u
  rcases List.mem_cons.mp hp with rfl | hp
  · intro x
    obtain ⟨u, l, rfl⟩ : ∃ (u : Fin 1) (l : Fin 16000), x = ix2 u l := ⟨x 0, x 1, eq_ix2 x⟩
    show _ = blockA x0 x1 x2 x3 x4 x5 x6 x7 (r1_0.idx (ix2 u l))
    rw [idx_row0]
    exact row0_at x0 x1 x2 x3 x4 x5 x6 x7 l u
  · exact absurd hp List.not_mem_nil

end Lane

variable (V : (c : Dev nD) → (b : Ref sig .tc) → Buf (Elt Ideal) ((c : Thread nD τ).loc b))

/-! ## The windows' index maps over the grid

Every window's block index at point `t` is `(0, t)`: decided over the 375 points. -/

/-- Window 0 (receiver positions). -/
theorem index_0 : ∀ t : Fin cfg1.N, win1_0.index t (0 : Fin 2) = 0 ∧ win1_0.index t (1 : Fin 2) = t.val :=
  (by decide +kernel : ∀ t : Fin grid1.N, _)

/-- Window 1 (sender positions). -/
theorem index_1 : ∀ t : Fin cfg1.N, win1_1.index t (0 : Fin 2) = 0 ∧ win1_1.index t (1 : Fin 2) = t.val :=
  (by decide +kernel : ∀ t : Fin grid1.N, _)

/-- Window 2 (receiver velocities). -/
theorem index_2 : ∀ t : Fin cfg1.N, win1_2.index t (0 : Fin 2) = 0 ∧ win1_2.index t (1 : Fin 2) = t.val :=
  (by decide +kernel : ∀ t : Fin grid1.N, _)

/-- Window 3 (sender velocities). -/
theorem index_3 : ∀ t : Fin cfg1.N, win1_3.index t (0 : Fin 2) = 0 ∧ win1_3.index t (1 : Fin 2) = t.val :=
  (by decide +kernel : ∀ t : Fin grid1.N, _)

/-- Window 4 (receiver densities). -/
theorem index_4 : ∀ t : Fin cfg1.N, win1_4.index t (0 : Fin 2) = 0 ∧ win1_4.index t (1 : Fin 2) = t.val :=
  (by decide +kernel : ∀ t : Fin grid1.N, _)

/-- Window 5 (sender densities). -/
theorem index_5 : ∀ t : Fin cfg1.N, win1_5.index t (0 : Fin 2) = 0 ∧ win1_5.index t (1 : Fin 2) = t.val :=
  (by decide +kernel : ∀ t : Fin grid1.N, _)

/-- Window 6 (receiver pressures). -/
theorem index_6 : ∀ t : Fin cfg1.N, win1_6.index t (0 : Fin 2) = 0 ∧ win1_6.index t (1 : Fin 2) = t.val :=
  (by decide +kernel : ∀ t : Fin grid1.N, _)

/-- Window 7 (sender pressures). -/
theorem index_7 : ∀ t : Fin cfg1.N, win1_7.index t (0 : Fin 2) = 0 ∧ win1_7.index t (1 : Fin 2) = t.val :=
  (by decide +kernel : ∀ t : Fin grid1.N, _)

/-- Window 8 (accelerations). -/
theorem index_8 : ∀ t : Fin cfg1.N, win1_8.index t (0 : Fin 2) = 0 ∧ win1_8.index t (1 : Fin 2) = t.val :=
  (by decide +kernel : ∀ t : Fin grid1.N, _)

/-! ## An input window's block at a point, entry by entry

Lane `l` of the block at point `t` is lane `t·16000 + l` of the array, in the same row. -/

/-- Window 0 (receiver positions). -/
theorem blk0_at (c : Dev nD) (t : Fin cfg1.N) (k : Fin 3) (l : Fin 16000) (e : Fin 6000000) (he : e.val = t.val * 16000 + l.val) :
    (iblk1 V c 0 t : Vec Ideal S3x16000 .f32) (ix2 k l) = V c main_v8 (ix2 k e) := by
  show V c main_v8 (((cfg1.win 0).blk t).view.emb (ix2 k l)) = V c main_v8 (ix2 k e)
  congr 1; funext a; apply Fin.ext
  have h := index_0 t
  match a with
  | ⟨0, _⟩ => show win1_0.index t (0 : Fin 2) * 3 + 1 * k.val = k.val; rw [h.1]; omega
  | ⟨1, _⟩ => show win1_0.index t (1 : Fin 2) * 16000 + 1 * l.val = e.val; rw [h.2, he]; omega

/-- Window 1 (sender positions). -/
theorem blk1_at (c : Dev nD) (t : Fin cfg1.N) (k : Fin 3) (l : Fin 16000) (e : Fin 6000000) (he : e.val = t.val * 16000 + l.val) :
    (iblk1 V c 1 t : Vec Ideal S3x16000 .f32) (ix2 k l) = V c main_v9 (ix2 k e) := by
  show V c main_v9 (((cfg1.win 1).blk t).view.emb (ix2 k l)) = V c main_v9 (ix2 k e)
  congr 1; funext a; apply Fin.ext
  have h := index_1 t
  match a with
  | ⟨0, _⟩ => show win1_1.index t (0 : Fin 2) * 3 + 1 * k.val = k.val; rw [h.1]; omega
  | ⟨1, _⟩ => show win1_1.index t (1 : Fin 2) * 16000 + 1 * l.val = e.val; rw [h.2, he]; omega

/-- Window 2 (receiver velocities). -/
theorem blk2_at (c : Dev nD) (t : Fin cfg1.N) (k : Fin 3) (l : Fin 16000) (e : Fin 6000000) (he : e.val = t.val * 16000 + l.val) :
    (iblk1 V c 2 t : Vec Ideal S3x16000 .f32) (ix2 k l) = V c main_v31 (ix2 k e) := by
  show V c main_v31 (((cfg1.win 2).blk t).view.emb (ix2 k l)) = V c main_v31 (ix2 k e)
  congr 1; funext a; apply Fin.ext
  have h := index_2 t
  match a with
  | ⟨0, _⟩ => show win1_2.index t (0 : Fin 2) * 3 + 1 * k.val = k.val; rw [h.1]; omega
  | ⟨1, _⟩ => show win1_2.index t (1 : Fin 2) * 16000 + 1 * l.val = e.val; rw [h.2, he]; omega

/-- Window 3 (sender velocities). -/
theorem blk3_at (c : Dev nD) (t : Fin cfg1.N) (k : Fin 3) (l : Fin 16000) (e : Fin 6000000) (he : e.val = t.val * 16000 + l.val) :
    (iblk1 V c 3 t : Vec Ideal S3x16000 .f32) (ix2 k l) = V c main_v32 (ix2 k e) := by
  show V c main_v32 (((cfg1.win 3).blk t).view.emb (ix2 k l)) = V c main_v32 (ix2 k e)
  congr 1; funext a; apply Fin.ext
  have h := index_3 t
  match a with
  | ⟨0, _⟩ => show win1_3.index t (0 : Fin 2) * 3 + 1 * k.val = k.val; rw [h.1]; omega
  | ⟨1, _⟩ => show win1_3.index t (1 : Fin 2) * 16000 + 1 * l.val = e.val; rw [h.2, he]; omega

/-- Window 4 (receiver densities). -/
theorem blk4_at (c : Dev nD) (t : Fin cfg1.N) (k : Fin 1) (l : Fin 16000) (e : Fin 6000000) (he : e.val = t.val * 16000 + l.val) :
    (iblk1 V c 4 t : Vec Ideal S1x16000 .f32) (ix2 k l) = V c main_v33 (ix2 k e) := by
  show V c main_v33 (((cfg1.win 4).blk t).view.emb (ix2 k l)) = V c main_v33 (ix2 k e)
  congr 1; funext a; apply Fin.ext
  have h := index_4 t
  match a with
  | ⟨0, _⟩ => show win1_4.index t (0 : Fin 2) * 1 + 1 * k.val = k.val; rw [h.1]; omega
  | ⟨1, _⟩ => show win1_4.index t (1 : Fin 2) * 16000 + 1 * l.val = e.val; rw [h.2, he]; omega

/-- Window 5 (sender densities). -/
theorem blk5_at (c : Dev nD) (t : Fin cfg1.N) (k : Fin 1) (l : Fin 16000) (e : Fin 6000000) (he : e.val = t.val * 16000 + l.val) :
    (iblk1 V c 5 t : Vec Ideal S1x16000 .f32) (ix2 k l) = V c main_v34 (ix2 k e) := by
  show V c main_v34 (((cfg1.win 5).blk t).view.emb (ix2 k l)) = V c main_v34 (ix2 k e)
  congr 1; funext a; apply Fin.ext
  have h := index_5 t
  match a with
  | ⟨0, _⟩ => show win1_5.index t (0 : Fin 2) * 1 + 1 * k.val = k.val; rw [h.1]; omega
  | ⟨1, _⟩ => show win1_5.index t (1 : Fin 2) * 16000 + 1 * l.val = e.val; rw [h.2, he]; omega

/-- Window 6 (receiver pressures). -/
theorem blk6_at (c : Dev nD) (t : Fin cfg1.N) (k : Fin 1) (l : Fin 16000) (e : Fin 6000000) (he : e.val = t.val * 16000 + l.val) :
    (iblk1 V c 6 t : Vec Ideal S1x16000 .f32) (ix2 k l) = V c main_v35 (ix2 k e) := by
  show V c main_v35 (((cfg1.win 6).blk t).view.emb (ix2 k l)) = V c main_v35 (ix2 k e)
  congr 1; funext a; apply Fin.ext
  have h := index_6 t
  match a with
  | ⟨0, _⟩ => show win1_6.index t (0 : Fin 2) * 1 + 1 * k.val = k.val; rw [h.1]; omega
  | ⟨1, _⟩ => show win1_6.index t (1 : Fin 2) * 16000 + 1 * l.val = e.val; rw [h.2, he]; omega

/-- Window 7 (sender pressures). -/
theorem blk7_at (c : Dev nD) (t : Fin cfg1.N) (k : Fin 1) (l : Fin 16000) (e : Fin 6000000) (he : e.val = t.val * 16000 + l.val) :
    (iblk1 V c 7 t : Vec Ideal S1x16000 .f32) (ix2 k l) = V c main_v36 (ix2 k e) := by
  show V c main_v36 (((cfg1.win 7).blk t).view.emb (ix2 k l)) = V c main_v36 (ix2 k e)
  congr 1; funext a; apply Fin.ext
  have h := index_7 t
  match a with
  | ⟨0, _⟩ => show win1_7.index t (0 : Fin 2) * 1 + 1 * k.val = k.val; rw [h.1]; omega
  | ⟨1, _⟩ => show win1_7.index t (1 : Fin 2) * 16000 + 1 * l.val = e.val; rw [h.2, he]; omega

/-! ## The array the launch leaves -/

/-- The acceleration array as ONE function of the eight arrays the launch reads: entry `(k, e)` is pair `e`'s
    acceleration along coordinate `k`. -/
def arrA (a0 a1 a2 a3 : S3x6000000.Idx → Elt Ideal .f32) (a4 a5 a6 a7 : S1x6000000.Idx → Elt Ideal .f32) :
    S3x6000000.Idx → Elt Ideal .f32 := fun i =>
  Sph.edgeA (a0 i) (a1 i) (a2 i) (a3 i)
    (a0 (ix2 (0 : Fin 3) (laneOf i))) (a0 (ix2 (1 : Fin 3) (laneOf i))) (a0 (ix2 (2 : Fin 3) (laneOf i)))
    (a1 (ix2 (0 : Fin 3) (laneOf i))) (a1 (ix2 (1 : Fin 3) (laneOf i))) (a1 (ix2 (2 : Fin 3) (laneOf i)))
    (a4 (ix2 (0 : Fin 1) (laneOf i))) (a5 (ix2 (0 : Fin 1) (laneOf i)))
    (a6 (ix2 (0 : Fin 1) (laneOf i))) (a7 (ix2 (0 : Fin 1) (laneOf i)))

/-- What point `t` writes back is block `t` of `arrA` of the arrays as the launch finds them. -/
theorem flushed_eq (c : Dev nD) (t : Fin cfg1.N) :
    (dat1 (F := Ideal) V c).flushed 8 t = ((cfg1.win 8).blk t).view.read (Elt Ideal)
      (arrA (V c main_v8) (V c main_v9) (V c main_v31) (V c main_v32) (V c main_v33) (V c main_v34) (V c main_v35) (V c main_v36)) := by
  show (cfg1.win 8).cut (grid1.coords t) ((dat1 V c).after 8 t) = _
  rw [after1_8]
  funext j
  obtain ⟨k, l, rfl⟩ : ∃ (k : Fin 3) (l : Fin 16000), j = ix2 k l := ⟨j 0, j 1, eq_ix2 j⟩
  have hN : cfg1.N = 375 := N_1
  have ht : t.val < 375 := hN ▸ t.isLt
  obtain ⟨e, he⟩ : ∃ e : Fin 6000000, e.val = t.val * 16000 + l.val := ⟨⟨t.val * 16000 + l.val, by omega⟩, rfl⟩
  have hemb : ((cfg1.win 8).blk t).view.emb (ix2 k l) = ix2 k e := by
    funext a; apply Fin.ext
    have h := index_8 t
    match a with
    | ⟨0, _⟩ => show win1_8.index t (0 : Fin 2) * 3 + 1 * k.val = k.val; rw [h.1]; omega
    | ⟨1, _⟩ => show win1_8.index t (1 : Fin 2) * 16000 + 1 * l.val = e.val; rw [h.2, he]; omega
  show out1_8 (iblk1 V c 0 t) (iblk1 V c 1 t) (iblk1 V c 2 t) (iblk1 V c 3 t) (iblk1 V c 4 t) (iblk1 V c 5 t) (iblk1 V c 6 t) (iblk1 V c 7 t) (ix2 k l)
    = arrA (V c main_v8) (V c main_v9) (V c main_v31) (V c main_v32) (V c main_v33) (V c main_v34) (V c main_v35) (V c main_v36)
        (((cfg1.win 8).blk t).view.emb (ix2 k l))
  rw [hemb]
  refine (congrFun (out_eq_blockA (iblk1 V c 0 t) (iblk1 V c 1 t) (iblk1 V c 2 t) (iblk1 V c 3 t) (iblk1 V c 4 t) (iblk1 V c 5 t) (iblk1 V c 6 t) (iblk1 V c 7 t)) (ix2 k l)).trans ?_
  show Sph.edgeA _ _ _ _ _ _ _ _ _ _ _ _ _ _ = Sph.edgeA _ _ _ _ _ _ _ _ _ _ _ _ _ _
  rw [blk0_at V c t k l e he, blk1_at V c t k l e he, blk2_at V c t k l e he, blk3_at V c t k l e he,
    blk0_at V c t 0 l e he, blk0_at V c t 1 l e he, blk0_at V c t 2 l e he,
    blk1_at V c t 0 l e he, blk1_at V c t 1 l e he, blk1_at V c t 2 l e he,
    blk4_at V c t 0 l e he, blk5_at V c t 0 l e he, blk6_at V c t 0 l e he, blk7_at V c t 0 l e he]

/-- An index of the array is in point `t`'s block iff each coordinate is in the block's range on its axis. -/
theorem mem_blk (t : Fin cfg1.N) (i : S3x6000000.Idx) :
    i ∈ ((cfg1.win 8).blk t).view.set ↔ ∀ a : Fin 2, win1_8.index t a * S3x16000.size a ≤ (i a).val ∧ (i a).val < win1_8.index t a * S3x16000.size a + S3x16000.size a := by
  show i ∈ ((View.whole main_v37).slice (win1_8.rect t)).set ↔ _
  rw [View.set_slice_whole, Rect.mem_set_unit]
  exact Iff.rfl

/-- Every entry of the array is in some point's block: lane `e` in point `e / 16000`'s. -/
theorem covered (i : S3x6000000.Idx) : ∃ t : Fin cfg1.N, (cfg1.win 8).flush t = true ∧ i ∈ ((cfg1.win 8).blk t).view.set := by
  have hN : cfg1.N = 375 := N_1
  have hi0 : (i 0).val < 3 := (i 0).isLt
  have hi1 : (i 1).val < 6000000 := (i 1).isLt
  refine ⟨⟨(i 1).val / 16000, by omega⟩, flush1_8 _, ?_⟩
  rw [mem_blk]
  intro a
  have h := index_8 ⟨(i 1).val / 16000, by omega⟩
  match a with
  | ⟨0, _⟩ =>
    show win1_8.index _ (0 : Fin 2) * 3 ≤ (i 0).val ∧ (i 0).val < win1_8.index _ (0 : Fin 2) * 3 + 3
    rw [h.1]; omega
  | ⟨1, _⟩ =>
    show win1_8.index _ (1 : Fin 2) * 16000 ≤ (i 1).val ∧ (i 1).val < win1_8.index _ (1 : Fin 2) * 16000 + 16000
    rw [h.2]; show (i 1).val / 16000 * 16000 ≤ (i 1).val ∧ (i 1).val < (i 1).val / 16000 * 16000 + 16000; omega

/-- The array after the launch's 375 points is `arrA` of the arrays it was given. -/
theorem arr_eq (c : Dev nD) :
    (dat1 (F := Ideal) V c).arrAt 8 cfg1.N
      = arrA (V c main_v8) (V c main_v9) (V c main_v31) (V c main_v32) (V c main_v33) (V c main_v34) (V c main_v35) (V c main_v36) :=
  (dat1 V c).arrAt_eq_of_cover 8 _ (fun t _ => flushed_eq V c t) covered

/-- Coordinate `k` of pair `e`'s entry of the array the second launch leaves. -/
theorem final (c : Dev nD) (k : Fin 3) (e : Fin 6000000) :
    (dat1 (F := Ideal) V c).arrAt 8 cfg1.N (ix2 k e)
      = Sph.edgeA (V c main_v8 (ix2 k e)) (V c main_v9 (ix2 k e)) (V c main_v31 (ix2 k e)) (V c main_v32 (ix2 k e))
          (V c main_v8 (ix2 (0 : Fin 3) e)) (V c main_v8 (ix2 (1 : Fin 3) e)) (V c main_v8 (ix2 (2 : Fin 3) e))
          (V c main_v9 (ix2 (0 : Fin 3) e)) (V c main_v9 (ix2 (1 : Fin 3) e)) (V c main_v9 (ix2 (2 : Fin 3) e))
          (V c main_v33 (ix2 (0 : Fin 1) e)) (V c main_v34 (ix2 (0 : Fin 1) e))
          (V c main_v35 (ix2 (0 : Fin 1) e)) (V c main_v36 (ix2 (0 : Fin 1) e)) := by
  rw [arr_eq V c]
  rfl

end Cert.KernelIdeal.Region1

end
-- ==== Proof.Layout.lean ====
/-
  The kernel program's re-layouts read at an index: a pair-major array laid out coordinate-major and back swaps
  the two coordinates; a per-pair vector as a one-row array, and a one-row array flattened, keep the pair; and the
  pressure is the equation of state of the density, entry by entry.
-/
import proofs.«418286_j13022340841764_3_alg».proof.Proof.KHost
import proofs.«418286_j13022340841764_3_alg».proof.Proof.Sph
import Idealize.ShloMosaic.Lib.ValueIdx
import Idealize.ShloMosaic.Lib.ValueLayout
import Idealize.ShloMosaic.Lib.Pipeline.Value
import Idealize.ShloMosaic.Lib.StableHlo.Predicate

set_option maxRecDepth 16384

noncomputable section

namespace Cert.KernelIdeal.Lay

open Cert.KernelIdeal
open Idealize.ShloMosaic
open Idealize.ShloMosaic.ValueIdx
open KH

/-- Coordinate-major: entry (k, e) is the pair-major entry (e, k). -/
theorem cm_at (X : FVec Ideal S6000000x3 .f32) (k : Fin 3) (e : Fin 6000000) : cm X (ix2 k e) = X (ix2 e k) := by
  exact transpose_ix2_apply X _ k e

/-- Back pair-major: entry (e, k) is the coordinate-major entry (k, e). -/
theorem pm_at (a : FVec Ideal S3x6000000 .f32) (e : Fin 6000000) (k : Fin 3) : pm a (ix2 e k) = a (ix2 k e) := by
  exact transpose_ix2_apply a _ e k

/-- A per-pair vector as a one-row array: entry (0, e) is entry e. -/
theorem row_at (x : FVec Ideal S6000000 .f32) (e : Fin 6000000) : row x (ix2 (0 : Fin 1) e) = x (ix1 e) := by
  exact broadcastInDim_apply _ _ x _ _ fun a => match a with | ⟨0, _⟩ => rfl

/-- A one-row array flattened: entry e is entry (0, e). -/
theorem flat_at (w : FVec Ideal S1x6000000 .f32) (e : Fin 6000000) : flat w (ix1 e) = w (ix2 (0 : Fin 1) e) := by
  exact shapeCast_1a_a_apply w _ e

/-- The pressure is the equation of state of the density, entry by entry. -/
theorem pres_at (rho : FVec Ideal S100000 .f32) (i : S100000.Idx) : pres rho i = Sph.eos (rho i) := by
  rfl

/-- At the ideal instance the host's accumulating scatter is the exact scatter-sum, at any shapes. -/
private theorem scatterAdd_ideal {s si su : Shape} (d : ScatterDims s si su) {n : Nat} (x : FVec Ideal s .f32) (idx : IVec si n)
    (upd : FVec Ideal su .f32) : Host.scatterAdd d x idx upd = Ideal.hostScatterAdd d x idx upd := rfl

/-- The scatter-sum into zeros of a per-pair vector, at the ideal instance, entry by entry. -/
theorem scat1_at (I : IVec S6000000 32) (w : FVec Ideal S6000000 .f32) (i : S100000.Idx) :
    scat1 I w i = Ideal.hostScatterAdd scatter_S100000_S6000000x1_S6000000_n_0_0_1
      (broadcastInDim S100000 ![] Facts₀.bcast_S_S100000 (constant (F := Ideal) S_ .f32 0x00000000#32))
      (broadcastInDim S6000000x1 ![0] Facts₀.bcast_S6000000_S6000000x1_0 I) w i := by
  exact congrFun (scatterAdd_ideal _ _ _ _) i

/-- The zero vector the scatter-sums start from is zero at every entry. -/
theorem zeros_at (i : S100000.Idx) :
    (broadcastInDim S100000 ![] Facts₀.bcast_S_S100000 (constant (F := Ideal) S_ .f32 0x00000000#32)) i = 0 := by
  rw [StableHlo.Predicate.bcast_scalar _ (by decide)]
  exact Ideal.ofBits_zero_f32

/-- The mass literal broadcast over the particles is the mass at every entry. -/
theorem mass_at (i : S100000.Idx) :
    (broadcastInDim S100000 ![] Facts₀.bcast_S_S100000 (constant (F := Ideal) S_ .f32 0x3CDD2F1B#32)) i = Sph.mass := by
  rw [StableHlo.Predicate.bcast_scalar _ (by decide)]
  rfl

end Cert.KernelIdeal.Lay

end
-- ==== Proof.LibScatterScale.lean ====
/-
  A scatter-sum into zeros of updates that all carry one non-negative finite factor is that factor times the
  scatter-sum: at the ideal instance the host's accumulating scatter is, entry by entry, a finite sum of extended
  reals, and multiplication by a non-negative real distributes over every such sum (no finiteness of the summands
  is needed). Stated for any shapes and any scatter dimension numbers.
-/
import Idealize.ShloMosaic.PureOps.Ideal
import Idealize.ShloMosaic.PureOps.Ideal.Laws
import Idealize.ShloMosaic.PureOps.Contract

noncomputable section

namespace Cert.LibScatterScale

open Idealize.ShloMosaic

/-- A non-negative finite factor distributes over a finite sum of extended reals. -/
theorem mul_sum_of_nonneg {ι : Type} (S : Finset ι) (f : ι → EReal) (c : EReal) (h0 : 0 ≤ c) (ht : c ≠ ⊤) :
    c * ∑ j ∈ S, f j = ∑ j ∈ S, f j * c := by
  classical
  induction S using Finset.induction_on with
  | empty => simp
  | insert a S ha ih =>
    rw [Finset.sum_insert ha, Finset.sum_insert ha, EReal.left_distrib_of_nonneg_of_ne_top h0 ht, ih, mul_comm c (f a)]

/-- The host's float scatter-add into a vector that is zero everywhere, of updates `upd j * c`, is the vector
    `cv` (equal to `c` at every entry) times the scatter-add of `upd`. -/
theorem scatterAdd_scale {s si su : Shape} {φ : FTy} (d : ScatterDims s si su) {w : Nat}
    (z : FVec Ideal s φ) (hz : ∀ i, z i = 0) (idx : IVec si w) (upd : FVec Ideal su φ)
    (cv : FVec Ideal s φ) (c : EReal) (hc : ∀ i, cv i = c) (h0 : 0 ≤ c) (ht : c ≠ ⊤) :
    Host.scatterAdd d z idx (fun j => upd j * c) = mulf cv (Host.scatterAdd d z idx upd) := by
  funext i
  show Ideal.hostScatterAdd d z idx (fun j => upd j * c) i = cv i * Ideal.hostScatterAdd d z idx upd i
  unfold Ideal.hostScatterAdd
  rw [hc i, hz i, zero_add, zero_add, mul_sum_of_nonneg _ _ c h0 ht]

end Cert.LibScatterScale

end
-- ==== Proof.BridgeRho.lean ====
/-
  The density, on the two sides. The kernel program scatter-sums at the receivers, pair by pair, the spline of the
  pair's distance TIMES the mass (the first launch's output); the reference scatter-sums the spline and multiplies
  the sum by the mass. The mass is a non-negative real, so it distributes over the sum of extended reals whatever
  the summands are. The positions both sides gather are the same rows: under the precondition the indices lie in
  the table, so the kernel program's `take` is the plain gather and neither side's wrapping changes an index.
-/
import proofs.«418286_j13022340841764_3_alg».proof.Proof.KernelFold
import proofs.«418286_j13022340841764_3_alg».proof.Proof.Region0
import proofs.«418286_j13022340841764_3_alg».proof.Proof.Region1
import proofs.«418286_j13022340841764_3_alg».proof.Proof.RefRead
import proofs.«418286_j13022340841764_3_alg».proof.Proof.Take
import proofs.«418286_j13022340841764_3_alg».proof.Proof.Layout
import proofs.«418286_j13022340841764_3_alg».proof.Proof.Sph
import proofs.«418286_j13022340841764_3_alg».proof.Proof.LibScatterScale

set_option maxRecDepth 16384

noncomputable section

namespace Cert.Bridge

open Idealize.ShloMosaic Idealize.ShloMosaic.TcCoe Idealize.SL.Sem Idealize.ShloMosaic.StableHlo
open Idealize.ShloMosaic.ValueIdx

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)
  (V0 : Valuation Cert.ReferenceIdeal.τ Cert.ReferenceIdeal.sig (Elt Ideal))

/-- The two programs start from the same argument arrays. -/
structure Agree : Prop where
  a0 : V0 (Proc.devRef .tc Cert.ReferenceIdeal.main_arg0) = Cert.KernelIdeal.Fold.A0 m c
  a1 : V0 (Proc.devRef .tc Cert.ReferenceIdeal.main_arg1) = Cert.KernelIdeal.Fold.A1 m c
  a2 : V0 (Proc.devRef .tc Cert.ReferenceIdeal.main_arg2) = Cert.KernelIdeal.Fold.I m c
  a3 : V0 (Proc.devRef .tc Cert.ReferenceIdeal.main_arg3) = Cert.KernelIdeal.Fold.J m c

/-- The reference's gathered rows are the kernel program's gather at the same in-table indices. -/
theorem gat3_eq (X : FVec Ideal Cert.KernelIdeal.S100000x3 .f32) (idx : IVec Cert.KernelIdeal.S6000000 32) (h : Cert.Take.InRange idx) :
    ReferenceIdeal.Rd.gat3 X idx = Host.gather Cert.KernelIdeal.gather_S100000x3_S6000000x1_S6000000x3_1_0_n_n_0_1_13 X
      (broadcastInDim Cert.KernelIdeal.S6000000x1 ![0] Cert.KernelIdeal.Facts₀.bcast_S6000000_S6000000x1_0 idx) := by
  show Host.gather _ X (broadcastInDim _ _ _ (ReferenceIdeal.Rd.nrm idx)) = _
  rw [show ReferenceIdeal.Rd.nrm idx = idx from Cert.Take.ref_nrm_eq idx h]
  rfl

/-- The reference's gathered entries are the kernel program's gather at the same in-table indices. -/
theorem gat1_eq (X : FVec Ideal Cert.KernelIdeal.S100000 .f32) (idx : IVec Cert.KernelIdeal.S6000000 32) (h : Cert.Take.InRange idx) :
    ReferenceIdeal.Rd.gat1 X idx = Host.gather Cert.KernelIdeal.gather_S100000_S6000000x1_S6000000_n_0_n_n_0_1_1 X
      (broadcastInDim Cert.KernelIdeal.S6000000x1 ![0] Cert.KernelIdeal.Facts₀.bcast_S6000000_S6000000x1_0 idx) := by
  show Host.gather _ X (broadcastInDim _ _ _ (ReferenceIdeal.Rd.nrm idx)) = _
  rw [show ReferenceIdeal.Rd.nrm idx = idx from Cert.Take.ref_nrm_eq idx h]
  rfl

/-- Pair by pair, the first launch's output is the reference's spline vector times the mass. -/
theorem w_eq (hA : Agree m c V0) (hI : Cert.Take.InRange (KernelIdeal.Fold.I m c)) (hJ : Cert.Take.InRange (KernelIdeal.Fold.J m c)) :
    KernelIdeal.KH.flat (KernelIdeal.Fold.O0 m ρ c) = fun j => ReferenceIdeal.Rd.wr V0 j * Sph.mass := by
  funext j
  obtain ⟨e, rfl⟩ : ∃ e : Fin 6000000, j = ix1 e := ⟨j 0, eq_ix1 j⟩
  rw [KernelIdeal.Lay.flat_at]
  show (Cert.KernelIdeal.Gen.dat0 (Cert.KernelIdeal.Gen.V4 m ρ) c).arrAt 2 Cert.KernelIdeal.cfg0.N (ix2 (0 : Fin 1) e) = _
  rw [Cert.KernelIdeal.Region0.final (Cert.KernelIdeal.Gen.V4 m ρ) c e, KernelIdeal.Fold.entry0_v8, KernelIdeal.Fold.entry0_v9]
  simp only [KernelIdeal.Lay.cm_at]
  rw [Cert.Take.take3_eq _ _ hI, Cert.Take.take3_eq _ _ hJ, ReferenceIdeal.Rd.wr_at, Sph.edgeW_eq]
  have p0 : ReferenceIdeal.Rd.pos V0 = KernelIdeal.Fold.A0 m c := hA.a0
  have r0 : ReferenceIdeal.Rd.recv V0 = KernelIdeal.Fold.I m c := hA.a2
  have s0 : ReferenceIdeal.Rd.send V0 = KernelIdeal.Fold.J m c := hA.a3
  rw [p0, r0, s0, gat3_eq (KernelIdeal.Fold.A0 m c) (KernelIdeal.Fold.I m c) hI, gat3_eq (KernelIdeal.Fold.A0 m c) (KernelIdeal.Fold.J m c) hJ]

/-- THE DENSITY: the kernel program's is the reference's. -/
theorem rho_eq (hA : Agree m c V0) (hI : Cert.Take.InRange (KernelIdeal.Fold.I m c)) (hJ : Cert.Take.InRange (KernelIdeal.Fold.J m c)) :
    KernelIdeal.Fold.rhoK m ρ c = Cert.ReferenceIdeal.Value.res_main_v59 V0 := by
  show KernelIdeal.KH.scat1 (KernelIdeal.Fold.I m c) (KernelIdeal.KH.flat (KernelIdeal.Fold.O0 m ρ c)) = _
  rw [w_eq m ρ c V0 hA hI hJ, ReferenceIdeal.Rd.rho_eq, hA.a2]
  refine (Cert.LibScatterScale.scatterAdd_scale _ _ KernelIdeal.Lay.zeros_at _ (ReferenceIdeal.Rd.wr V0) _ Sph.mass KernelIdeal.Lay.mass_at Sph.mass_nonneg Sph.mass_ne_top).trans ?_
  rfl

/-- THE PRESSURE: the same equation of state of the same density. -/
theorem pres_eq (hA : Agree m c V0) (hI : Cert.Take.InRange (KernelIdeal.Fold.I m c)) (hJ : Cert.Take.InRange (KernelIdeal.Fold.J m c)) :
    KernelIdeal.Fold.presK m ρ c = Cert.ReferenceIdeal.Value.res_main_v69 V0 := by
  show KernelIdeal.KH.pres (KernelIdeal.Fold.rhoK m ρ c) = _
  rw [rho_eq m ρ c V0 hA hI hJ]
  unfold Cert.ReferenceIdeal.Value.res_main_v69
  rfl

end Cert.Bridge

end
-- ==== Proof.BridgeAcc.lean ====
/-
  The third result, on the two sides: both scatter-sum at the receivers the pairs' accelerations, and pair by
  pair, coordinate by coordinate, the second launch's output is the reference's vector: the same pair interaction
  of the same gathered positions, velocities, densities and pressures (the kernel program negates the mean pressure
  by subtracting it from zero, the reference by negation).
-/
import proofs.«418286_j13022340841764_3_alg».proof.Proof.KernelFold
import proofs.«418286_j13022340841764_3_alg».proof.Proof.KernelFold2
import proofs.«418286_j13022340841764_3_alg».proof.Proof.Region0
import proofs.«418286_j13022340841764_3_alg».proof.Proof.Region1
import proofs.«418286_j13022340841764_3_alg».proof.Proof.RefRead
import proofs.«418286_j13022340841764_3_alg».proof.Proof.Take
import proofs.«418286_j13022340841764_3_alg».proof.Proof.Layout
import proofs.«418286_j13022340841764_3_alg».proof.Proof.Sph
import proofs.«418286_j13022340841764_3_alg».proof.Proof.BridgeRho

set_option maxRecDepth 16384

noncomputable section

namespace Cert.Bridge

open Idealize.ShloMosaic Idealize.ShloMosaic.TcCoe Idealize.SL.Sem Idealize.ShloMosaic.StableHlo
open Idealize.ShloMosaic.ValueIdx

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)
  (V0 : Valuation Cert.ReferenceIdeal.τ Cert.ReferenceIdeal.sig (Elt Ideal))

/-- The velocity in physical units is the same host chain of the same table on the two sides. -/
theorem vel_eq (hA : Agree m c V0) : KernelIdeal.KH.vel (KernelIdeal.Fold.A1 m c) = Cert.ReferenceIdeal.Value.res_main_v5 V0 := by
  unfold Cert.ReferenceIdeal.Value.res_main_v5
  rw [hA.a1]

/-- THE ACCELERATIONS, pair by pair: the second launch's output laid back pair-major is the reference's vector. -/
theorem acc_eq (hA : Agree m c V0) (hI : Cert.Take.InRange (KernelIdeal.Fold.I m c)) (hJ : Cert.Take.InRange (KernelIdeal.Fold.J m c)) :
    KernelIdeal.KH.pm (KernelIdeal.Fold.O1 m ρ c) = ReferenceIdeal.Rd.ar V0 := by
  funext j
  obtain ⟨e, k, rfl⟩ : ∃ (e : Fin 6000000) (k : Fin 3), j = ix2 e k := ⟨j 0, j 1, eq_ix2 j⟩
  rw [KernelIdeal.Lay.pm_at]
  show (Cert.KernelIdeal.Gen.dat1 (Cert.KernelIdeal.Gen.V13 m ρ) c).arrAt 8 Cert.KernelIdeal.cfg1.N (ix2 k e) = _
  rw [Cert.KernelIdeal.Region1.final (Cert.KernelIdeal.Gen.V13 m ρ) c k e,
    KernelIdeal.Fold.entry1_v8, KernelIdeal.Fold.entry1_v9, KernelIdeal.Fold.entry1_v31, KernelIdeal.Fold.entry1_v32, KernelIdeal.Fold.entry1_v33, KernelIdeal.Fold.entry1_v34, KernelIdeal.Fold.entry1_v35, KernelIdeal.Fold.entry1_v36]
  simp only [KernelIdeal.Lay.cm_at, KernelIdeal.Lay.row_at]
  rw [Cert.Take.take3_eq _ _ hI, Cert.Take.take3_eq _ _ hJ, Cert.Take.take3_eq _ _ hI, Cert.Take.take3_eq _ _ hJ,
    Cert.Take.take1_eq _ _ hI, Cert.Take.take1_eq _ _ hJ, Cert.Take.take1_eq _ _ hI, Cert.Take.take1_eq _ _ hJ]
  rw [ReferenceIdeal.Rd.ar_at]
  unfold Sph.edgeA
  rw [Sph.zero_lit_sub]
  have p0 : ReferenceIdeal.Rd.pos V0 = KernelIdeal.Fold.A0 m c := hA.a0
  have r0 : ReferenceIdeal.Rd.recv V0 = KernelIdeal.Fold.I m c := hA.a2
  have s0 : ReferenceIdeal.Rd.send V0 = KernelIdeal.Fold.J m c := hA.a3
  rw [p0, r0, s0, ← rho_eq m ρ c V0 hA hI hJ, ← pres_eq m ρ c V0 hA hI hJ, ← vel_eq m c V0 hA,
    gat3_eq (KernelIdeal.Fold.A0 m c) (KernelIdeal.Fold.I m c) hI, gat3_eq (KernelIdeal.Fold.A0 m c) (KernelIdeal.Fold.J m c) hJ,
    gat3_eq (KernelIdeal.KH.vel (KernelIdeal.Fold.A1 m c)) (KernelIdeal.Fold.I m c) hI, gat3_eq (KernelIdeal.KH.vel (KernelIdeal.Fold.A1 m c)) (KernelIdeal.Fold.J m c) hJ,
    gat1_eq (KernelIdeal.Fold.rhoK m ρ c) (KernelIdeal.Fold.I m c) hI, gat1_eq (KernelIdeal.Fold.rhoK m ρ c) (KernelIdeal.Fold.J m c) hJ,
    gat1_eq (KernelIdeal.Fold.presK m ρ c) (KernelIdeal.Fold.I m c) hI, gat1_eq (KernelIdeal.Fold.presK m ρ c) (KernelIdeal.Fold.J m c) hJ]

/-- THE THIRD RESULT: the same scatter-sum of the same vector. -/
theorem dudt_eq (hA : Agree m c V0) (hI : Cert.Take.InRange (KernelIdeal.Fold.I m c)) (hJ : Cert.Take.InRange (KernelIdeal.Fold.J m c)) :
    KernelIdeal.KH.scat3 (KernelIdeal.Fold.I m c) (KernelIdeal.KH.pm (KernelIdeal.Fold.O1 m ρ c))
      = Host.scatterAdd Cert.ReferenceIdeal.scatter_S100000x3_S6000000x1_S6000000x3_1_0_0_1
          (broadcastInDim Cert.ReferenceIdeal.S100000x3 ![] Cert.ReferenceIdeal.Facts₀.bcast_S_S100000x3 (constant (F := Ideal) Cert.ReferenceIdeal.S_ .f32 0x00000000#32))
          (broadcastInDim Cert.ReferenceIdeal.S6000000x1 ![0] Cert.ReferenceIdeal.Facts₀.bcast_S6000000_S6000000x1_0 (V0 (Proc.devRef .tc Cert.ReferenceIdeal.main_arg2)))
          (ReferenceIdeal.Rd.ar V0) := by
  rw [acc_eq m ρ c V0 hA hI hJ, hA.a2]
  rfl

end Cert.Bridge

end
-- ==== Proof.lean ====
/-
  The certificate: a two-pass smoothed-particle interaction over six million pairs of a hundred thousand particles.
  The kernel program gathers the pairs' positions, evaluates the quintic spline of each pair's distance in a first
  launch (the mass folded into each pair's term), scatter-sums the density at the receivers, applies the equation of
  state, gathers velocities, densities and pressures, evaluates each pair's acceleration in a second launch and
  scatter-sums it at the receivers. The reference does the same with host operations only and multiplies the
  density's sum by the mass afterwards. Over the extended reals the two agree: the mass is a non-negative real, so
  it distributes over the density's sum; everything else is the same operations in the same order, the launches
  being pointwise in the pair. The precondition keeps every receiver and sender index inside the particle table
  (outside it the reference's indexing is out of range), which makes the kernel program's guarded `take` the plain
  gather. The frames of the two kernel programs are the generated ones; the reference's is its generated run.
-/
import proofs.«418286_j13022340841764_3_alg».proof.Defs
import proofs.«418286_j13022340841764_3_alg».proof.Proof.Gen.Kernel
import proofs.«418286_j13022340841764_3_alg».proof.Proof.Gen.Kernel.Frame
import proofs.«418286_j13022340841764_3_alg».proof.Proof.Gen.KernelIdeal
import proofs.«418286_j13022340841764_3_alg».proof.Proof.Gen.KernelIdeal.Frame
import proofs.«418286_j13022340841764_3_alg».proof.Proof.Gen.ReferenceIdeal
import proofs.«418286_j13022340841764_3_alg».proof.Proof.Gen.Pre_finite_inputs
import proofs.«418286_j13022340841764_3_alg».proof.Proof.Gen.ReferenceIdeal.Run
import proofs.«418286_j13022340841764_3_alg».proof.Proof.KernelRun
import proofs.«418286_j13022340841764_3_alg».proof.Proof.KernelFold
import proofs.«418286_j13022340841764_3_alg».proof.Proof.KernelFold2
import proofs.«418286_j13022340841764_3_alg».proof.Proof.RefRead
import proofs.«418286_j13022340841764_3_alg».proof.Proof.PreRange
import proofs.«418286_j13022340841764_3_alg».proof.Proof.BridgeRho
import proofs.«418286_j13022340841764_3_alg».proof.Proof.BridgeAcc
import Idealize.ShloMosaic.Adequacy
import Idealize.ShloMosaic.Init

set_option maxRecDepth 16384

noncomputable section

namespace Cert.Proof

open Idealize.ShloMosaic Idealize.SL.Sem Idealize.ShloMosaic.StableHlo

/-- The word-level kernel program runs and leaves its arguments: the generated frame. -/
theorem frame_kernel : Cert.frame_Kernel := fun m ρ _ => Cert.Kernel.Gen.frame m ρ

/-- The idealized kernel program runs and leaves its arguments: the generated frame. -/
theorem frame_kernelIdeal : Cert.frame_KernelIdeal := fun m ρ _ => Cert.KernelIdeal.Gen.frame m ρ

/-- The reference runs and leaves its arguments: its generated run with the results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- Both programs end with the reference's three results: the third result, the density and the pressure. -/
theorem algebraic : Cert.algebraic_KernelIdeal_ReferenceIdeal := by
  intro m ρ m' ρ' hpre hagree
  have hA : ∀ c, Cert.Bridge.Agree m c (launchContents m' c) := fun c =>
    ⟨(hagree c).1, (hagree c).2.1, (hagree c).2.2.1, (hagree c).2.2.2⟩
  have hI := fun c => Cert.PreRange.recv_inRange m hpre c
  have hJ := fun c => Cert.PreRange.send_inRange m hpre c
  refine ⟨_, _, _, ?_, Cert.ReferenceIdeal.Value.run (F := Ideal) m' ρ'⟩
  refine (θ_run Cert.KernelIdeal.defs _ _).mono
    (fun r h c => ⟨(h c).1.trans ?_, (h c).2.1.trans ?_, (h c).2.2.1.trans ?_, (h c).2.2.2⟩)
    (Cert.KernelIdeal.ValRun.run (F := Ideal) m ρ)
  · exact (Cert.KernelIdeal.Fold.out_v41 m ρ c).trans
      ((Cert.Bridge.dudt_eq m ρ c (launchContents m' c) (hA c) (hI c) (hJ c)).trans
        (Cert.ReferenceIdeal.Rd.dudt_eq (launchContents m' c)).symm)
  · exact (Cert.KernelIdeal.Fold.out_v14 m ρ c).trans (Cert.Bridge.rho_eq m ρ c (launchContents m' c) (hA c) (hI c) (hJ c))
  · exact (Cert.KernelIdeal.Fold.out_v24 m ρ c).trans (Cert.Bridge.pres_eq m ρ c (launchContents m' c) (hA c) (hI c) (hJ c))

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
